-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000 : Shape := ⟨1, ![500000]⟩
abbrev S3x128x128 : Shape := ⟨3, ![3, 128, 128]⟩
abbrev S3x128 : Shape := ⟨2, ![3, 128]⟩
abbrev S2x500000 : Shape := ⟨2, ![2, 500000]⟩
abbrev S50000 : Shape := ⟨1, ![50000]⟩
abbrev S_ : Shape := ⟨0, ![]⟩
abbrev S1x500000 : Shape := ⟨2, ![1, 500000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000 : S_.BroadcastsInDim S500000 (![] : Fin 0 → Fin S500000.rank)
  reducesTo_S500000_S_d0 : S500000.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  slices_S2x500000_S1x500000_0_0 : S2x500000.Slices ![0, 0] S1x500000
  shapeCasts_S1x500000_S500000 : S1x500000.ShapeCasts S500000

variable [Facts]

def fn_part3 {F : FTy → Type} [FloatOps F] (main_arg10 : IVec S2x500000 32) (main_v43 : IVec S_ 1) (main_v47 : IVec S500000 1) (main_v51 : IVec S500000 1) : IVec S_ 1 :=
  let main_v52 : IVec S500000 1 := andi main_v47 main_v51
  let main_c_18 : IVec S_ 1 := constantI S_ 1 1#1
  let main_v53 : IVec S_ 1 := (fun x v => Host.reduce IntOp.andi x v reducesTo_S500000_S_d0 h_S_) main_v52 main_c_18
  let main_v54 : IVec S_ 1 := andi main_v43 main_v53
  let main_v55 : IVec S1x500000 32 := (extractStridedSlice S1x500000 ![0, 0] · slices_S2x500000_S1x500000_0_0) main_arg10
  let main_v56 : IVec S500000 32 := shapeCast S500000 main_v55 shapeCasts_S1x500000_S500000
  let main_c_19 : IVec S_ 32 := constantI S_ 32 4294917296#32
  let main_v57 : IVec S500000 32 := broadcastInDim S500000 ![] bcast_S_S500000 main_c_19
  let main_v58 : IVec S500000 1 := cmpi .sge main_v56 main_v57
  let main_v59 : IVec S1x500000 32 := (extractStridedSlice S1x500000 ![0, 0] · slices_S2x500000_S1x500000_0_0) main_arg10
  let main_v60 : IVec S500000 32 := shapeCast S500000 main_v59 shapeCasts_S1x500000_S500000
  let main_c_20 : IVec S_ 32 := constantI S_ 32 50000#32
  let main_v61 : IVec S500000 32 := broadcastInDim S500000 ![] bcast_S_S500000 main_c_20
  let main_v62 : IVec S500000 1 := cmpi .slt main_v60 main_v61
  let main_v63 : IVec S500000 1 := andi main_v58 main_v62
  let main_c_21 : IVec S_ 1 := constantI S_ 1 1#1
  let main_v64 : IVec S_ 1 := (fun x v => Host.reduce IntOp.andi x v reducesTo_S500000_S_d0 h_S_) main_v63 main_c_21
  let main_v65 : IVec S_ 1 := andi main_v54 main_v64
  main_v65

def fn_part2 {F : FTy → Type} [FloatOps F] (main_arg7 : FVec F S3x128x128 .f32) (main_arg8 : FVec F S3x128 .f32) (main_arg9 : IVec S2x500000 32) (main_arg10 : IVec S2x500000 32) (main_v33 : IVec S_ 1) : IVec S_ 1 :=
  let main_v34 : FVec F S3x128x128 .f32 := Host.absf main_arg7
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg8
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : IVec S1x500000 32 := (extractStridedSlice S1x500000 ![0, 0] · slices_S2x500000_S1x500000_0_0) main_arg9
  let main_v45 : IVec S500000 32 := shapeCast S500000 main_v44 shapeCasts_S1x500000_S500000
  let main_c_16 : IVec S_ 32 := constantI S_ 32 4294917296#32
  let main_v46 : IVec S500000 32 := broadcastInDim S500000 ![] bcast_S_S500000 main_c_16
  let main_v47 : IVec S500000 1 := cmpi .sge main_v45 main_v46
  let main_v48 : IVec S1x500000 32 := (extractStridedSlice S1x500000 ![0, 0] · slices_S2x500000_S1x500000_0_0) main_arg9
  let main_v49 : IVec S500000 32 := shapeCast S500000 main_v48 shapeCasts_S1x500000_S500000
  let main_c_17 : IVec S_ 32 := constantI S_ 32 50000#32
  let main_v50 : IVec S500000 32 := broadcastInDim S500000 ![] bcast_S_S500000 main_c_17
  let main_v51 : IVec S500000 1 := cmpi .slt main_v49 main_v50
  fn_part3 (F := F) main_arg10 main_v43 main_v47 main_v51

def fn_part1 {F : FTy → Type} [FloatOps F] (main_arg4 : FVec F S3x128 .f32) (main_arg5 : FVec F S3x128x128 .f32) (main_arg6 : FVec F S3x128 .f32) (main_arg7 : FVec F S3x128x128 .f32) (main_arg8 : FVec F S3x128 .f32) (main_arg9 : IVec S2x500000 32) (main_arg10 : IVec S2x500000 32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg5
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg6
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x128 .f32) (main_arg1 : FVec F S500000 .f32) (main_arg2 : FVec F S500000 .f32) (main_arg3 : FVec F S3x128x128 .f32) (main_arg4 : FVec F S3x128 .f32) (main_arg5 : FVec F S3x128x128 .f32) (main_arg6 : FVec F S3x128 .f32) (main_arg7 : FVec F S3x128x128 .f32) (main_arg8 : FVec F S3x128 .f32) (main_arg9 : IVec S2x500000 32) (main_arg10 : IVec S2x500000 32) (main_arg11 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000 .f32 := Host.absf main_arg1
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S500000 .f32 := Host.absf main_arg2
  let main_cst_2 : FVec F S_ .f32 := constant S_ .f32 0x7F800000#32
  let main_v10 : FVec F S500000 .f32 := broadcastInDim S500000 ![] bcast_S_S500000 main_cst_2
  let main_v11 : IVec S500000 1 := cmpf .olt main_v9 main_v10
  let main_c_3 : IVec S_ 1 := constantI S_ 1 1#1
  let main_v12 : IVec S_ 1 := (fun x v => Host.reduce IntOp.andi x v reducesTo_S500000_S_d0 h_S_) main_v11 main_c_3
  let main_v13 : IVec S_ 1 := andi main_v8 main_v12
  let main_v14 : FVec F S3x128x128 .f32 := Host.absf main_arg3
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg4 main_arg5 main_arg6 main_arg7 main_arg8 main_arg9 main_arg10 main_v13 main_v16
-- ==== Kernel.lean ====
abbrev S50000x128 : Shape := ⟨2, ![50000, 128]⟩
abbrev S500000 : Shape := ⟨1, ![500000]⟩
abbrev S3x128x128 : Shape := ⟨3, ![3, 128, 128]⟩
abbrev S3x128 : Shape := ⟨2, ![3, 128]⟩
abbrev S2x500000 : Shape := ⟨2, ![2, 500000]⟩
abbrev S50000 : Shape := ⟨1, ![50000]⟩
abbrev S1x500000 : Shape := ⟨2, ![1, 500000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S500000x1 : Shape := ⟨2, ![500000, 1]⟩
abbrev S_ : Shape := ⟨0, ![]⟩
abbrev S1 : Shape := ⟨1, ![1]⟩
abbrev S1x1 : Shape := ⟨2, ![1, 1]⟩
abbrev S500000x128 : Shape := ⟨2, ![500000, 128]⟩

abbrev nBuf : Space → Nat
  | .hbm => 260
  | .vmem => 66
  | .smem => 0
  | _ => 0

abbrev hbmTy0_0 (i : Nat) : BufTy := match i % 128 with
  | 0 => ⟨S50000x128, .f32⟩
  | 1 => ⟨S500000, .f32⟩
  | 2 => ⟨S500000, .f32⟩
  | 3 => ⟨S3x128x128, .f32⟩
  | 4 => ⟨S3x128, .f32⟩
  | 5 => ⟨S3x128x128, .f32⟩
  | 6 => ⟨S3x128, .f32⟩
  | 7 => ⟨S3x128x128, .f32⟩
  | 8 => ⟨S3x128, .f32⟩
  | 9 => ⟨S2x500000, .i32⟩
  | 10 => ⟨S2x500000, .i32⟩
  | 11 => ⟨S50000, .i32⟩
  | 12 => ⟨S1x500000, .i32⟩
  | 13 => ⟨S500000, .i32⟩
  | 14 => ⟨S1x500000, .i32⟩
  | 15 => ⟨S500000, .i32⟩
  | 16 => ⟨S1x500000, .i32⟩
  | 17 => ⟨S500000, .i32⟩
  | 18 => ⟨S1x500000, .i32⟩
  | 19 => ⟨S500000, .i32⟩
  | 20 => ⟨S3x128x128, .bf16⟩
  | 21 => ⟨S3x128x128, .bf16⟩
  | 22 => ⟨S3x128x128, .bf16⟩
  | 23 => ⟨S1x128x128, .bf16⟩
  | 24 => ⟨S128x128, .bf16⟩
  | 25 => ⟨S1x128, .f32⟩
  | 26 => ⟨S128, .f32⟩
  | 27 => ⟨S1x128, .f32⟩
  | 28 => ⟨S1x128x128, .bf16⟩
  | 29 => ⟨S128x128, .bf16⟩
  | 30 => ⟨S1x128x128, .bf16⟩
  | 31 => ⟨S128x128, .bf16⟩
  | 32 => ⟨S50000x128, .f32⟩
  | 33 => ⟨S50000x128, .f32⟩
  | 34 => ⟨S50000x128, .f32⟩
  | 35 => ⟨S500000x1, .f32⟩
  | 36 => ⟨S_, .i32⟩
  | 37 => ⟨S500000, .i32⟩
  | 38 => ⟨S500000, .i1⟩
  | 39 => ⟨S_, .i32⟩
  | 40 => ⟨S500000, .i32⟩
  | 41 => ⟨S500000, .i32⟩
  | 42 => ⟨S500000, .i32⟩
  | 43 => ⟨S500000x1, .i32⟩
  | 44 => ⟨S1, .i32⟩
  | 45 => ⟨S_, .i32⟩
  | 46 => ⟨S500000x1, .i32⟩
  | 47 => ⟨S500000x1, .i1⟩
  | 48 => ⟨S1x1, .i32⟩
  | 49 => ⟨S500000x1, .i32⟩
  | 50 => ⟨S500000x1, .i1⟩
  | 51 => ⟨S500000x1, .i1⟩
  | 52 => ⟨S_, .i1⟩
  | 53 => ⟨S500000, .i1⟩
  | 54 => ⟨S500000x128, .f32⟩
  | 55 => ⟨S500000x128, .i1⟩
  | 56 => ⟨S_, .f32⟩
  | 57 => ⟨S500000x128, .f32⟩
  | 58 => ⟨S500000x128, .f32⟩
  | 59 => ⟨S500000x128, .f32⟩
  | 60 => ⟨S500000x128, .f32⟩
  | 61 => ⟨S_, .f32⟩
  | 62 => ⟨S50000x128, .f32⟩
  | 63 => ⟨S500000x1, .i32⟩
  | 64 => ⟨S50000x128, .f32⟩
  | 65 => ⟨S500000x1, .f32⟩
  | 66 => ⟨S_, .i32⟩
  | 67 => ⟨S500000, .i32⟩
  | 68 => ⟨S500000, .i1⟩
  | 69 => ⟨S_, .i32⟩
  | 70 => ⟨S500000, .i32⟩
  | 71 => ⟨S500000, .i32⟩
  | 72 => ⟨S500000, .i32⟩
  | 73 => ⟨S500000x1, .i32⟩
  | 74 => ⟨S1, .i32⟩
  | 75 => ⟨S_, .i32⟩
  | 76 => ⟨S500000x1, .i32⟩
  | 77 => ⟨S500000x1, .i1⟩
  | 78 => ⟨S1x1, .i32⟩
  | 79 => ⟨S500000x1, .i32⟩
  | 80 => ⟨S500000x1, .i1⟩
  | 81 => ⟨S500000x1, .i1⟩
  | 82 => ⟨S_, .i1⟩
  | 83 => ⟨S500000, .i1⟩
  | 84 => ⟨S500000x128, .f32⟩
  | 85 => ⟨S500000x128, .i1⟩
  | 86 => ⟨S_, .f32⟩
  | 87 => ⟨S500000x128, .f32⟩
  | 88 => ⟨S500000x128, .f32⟩
  | 89 => ⟨S500000x128, .f32⟩
  | 90 => ⟨S500000x128, .f32⟩
  | 91 => ⟨S_, .f32⟩
  | 92 => ⟨S50000x128, .f32⟩
  | 93 => ⟨S500000x1, .i32⟩
  | 94 => ⟨S50000x128, .f32⟩
  | 95 => ⟨S1x128, .f32⟩
  | 96 => ⟨S128, .f32⟩
  | 97 => ⟨S1x128, .f32⟩
  | 98 => ⟨S1x128, .f32⟩
  | 99 => ⟨S128, .f32⟩
  | 100 => ⟨S1x128, .f32⟩
  | 101 => ⟨S50000x128, .f32⟩
  | 102 => ⟨S1x128x128, .bf16⟩
  | 103 => ⟨S128x128, .bf16⟩
  | 104 => ⟨S1x128, .f32⟩
  | 105 => ⟨S128, .f32⟩
  | 106 => ⟨S1x128, .f32⟩
  | 107 => ⟨S1x128x128, .bf16⟩
  | 108 => ⟨S128x128, .bf16⟩
  | 109 => ⟨S1x128x128, .bf16⟩
  | 110 => ⟨S128x128, .bf16⟩
  | 111 => ⟨S50000x128, .f32⟩
  | 112 => ⟨S50000x128, .f32⟩
  | 113 => ⟨S50000x128, .f32⟩
  | 114 => ⟨S500000x1, .f32⟩
  | 115 => ⟨S_, .i32⟩
  | 116 => ⟨S500000, .i32⟩
  | 117 => ⟨S500000, .i1⟩
  | 118 => ⟨S_, .i32⟩
  | 119 => ⟨S500000, .i32⟩
  | 120 => ⟨S500000, .i32⟩
  | 121 => ⟨S500000, .i32⟩
  | 122 => ⟨S500000x1, .i32⟩
  | 123 => ⟨S1, .i32⟩
  | 124 => ⟨S_, .i32⟩
  | 125 => ⟨S500000x1, .i32⟩
  | 126 => ⟨S500000x1, .i1⟩
  | 127 => ⟨S1x1, .i32⟩
  | _ => ⟨S50000x128, .f32⟩

abbrev hbmTy0_1 (i : Nat) : BufTy := match i % 128 with
  | 0 => ⟨S500000x1, .i32⟩
  | 1 => ⟨S500000x1, .i1⟩
  | 2 => ⟨S500000x1, .i1⟩
  | 3 => ⟨S_, .i1⟩
  | 4 => ⟨S500000, .i1⟩
  | 5 => ⟨S500000x128, .f32⟩
  | 6 => ⟨S500000x128, .i1⟩
  | 7 => ⟨S_, .f32⟩
  | 8 => ⟨S500000x128, .f32⟩
  | 9 => ⟨S500000x128, .f32⟩
  | 10 => ⟨S500000x128, .f32⟩
  | 11 => ⟨S500000x128, .f32⟩
  | 12 => ⟨S_, .f32⟩
  | 13 => ⟨S50000x128, .f32⟩
  | 14 => ⟨S500000x1, .i32⟩
  | 15 => ⟨S50000x128, .f32⟩
  | 16 => ⟨S500000x1, .f32⟩
  | 17 => ⟨S_, .i32⟩
  | 18 => ⟨S500000, .i32⟩
  | 19 => ⟨S500000, .i1⟩
  | 20 => ⟨S_, .i32⟩
  | 21 => ⟨S500000, .i32⟩
  | 22 => ⟨S500000, .i32⟩
  | 23 => ⟨S500000, .i32⟩
  | 24 => ⟨S500000x1, .i32⟩
  | 25 => ⟨S1, .i32⟩
  | 26 => ⟨S_, .i32⟩
  | 27 => ⟨S500000x1, .i32⟩
  | 28 => ⟨S500000x1, .i1⟩
  | 29 => ⟨S1x1, .i32⟩
  | 30 => ⟨S500000x1, .i32⟩
  | 31 => ⟨S500000x1, .i1⟩
  | 32 => ⟨S500000x1, .i1⟩
  | 33 => ⟨S_, .i1⟩
  | 34 => ⟨S500000, .i1⟩
  | 35 => ⟨S500000x128, .f32⟩
  | 36 => ⟨S500000x128, .i1⟩
  | 37 => ⟨S_, .f32⟩
  | 38 => ⟨S500000x128, .f32⟩
  | 39 => ⟨S500000x128, .f32⟩
  | 40 => ⟨S500000x128, .f32⟩
  | 41 => ⟨S500000x128, .f32⟩
  | 42 => ⟨S_, .f32⟩
  | 43 => ⟨S50000x128, .f32⟩
  | 44 => ⟨S500000x1, .i32⟩
  | 45 => ⟨S50000x128, .f32⟩
  | 46 => ⟨S1x128, .f32⟩
  | 47 => ⟨S128, .f32⟩
  | 48 => ⟨S1x128, .f32⟩
  | 49 => ⟨S1x128, .f32⟩
  | 50 => ⟨S128, .f32⟩
  | 51 => ⟨S1x128, .f32⟩
  | 52 => ⟨S50000x128, .f32⟩
  | 53 => ⟨S1x128x128, .bf16⟩
  | 54 => ⟨S128x128, .bf16⟩
  | 55 => ⟨S1x128, .f32⟩
  | 56 => ⟨S128, .f32⟩
  | 57 => ⟨S1x128, .f32⟩
  | 58 => ⟨S1x128x128, .bf16⟩
  | 59 => ⟨S128x128, .bf16⟩
  | 60 => ⟨S1x128x128, .bf16⟩
  | 61 => ⟨S128x128, .bf16⟩
  | 62 => ⟨S50000x128, .f32⟩
  | 63 => ⟨S50000x128, .f32⟩
  | 64 => ⟨S50000x128, .f32⟩
  | 65 => ⟨S500000x1, .f32⟩
  | 66 => ⟨S_, .i32⟩
  | 67 => ⟨S500000, .i32⟩
  | 68 => ⟨S500000, .i1⟩
  | 69 => ⟨S_, .i32⟩
  | 70 => ⟨S500000, .i32⟩
  | 71 => ⟨S500000, .i32⟩
  | 72 => ⟨S500000, .i32⟩
  | 73 => ⟨S500000x1, .i32⟩
  | 74 => ⟨S1, .i32⟩
  | 75 => ⟨S_, .i32⟩
  | 76 => ⟨S500000x1, .i32⟩
  | 77 => ⟨S500000x1, .i1⟩
  | 78 => ⟨S1x1, .i32⟩
  | 79 => ⟨S500000x1, .i32⟩
  | 80 => ⟨S500000x1, .i1⟩
  | 81 => ⟨S500000x1, .i1⟩
  | 82 => ⟨S_, .i1⟩
  | 83 => ⟨S500000, .i1⟩
  | 84 => ⟨S500000x128, .f32⟩
  | 85 => ⟨S500000x128, .i1⟩
  | 86 => ⟨S_, .f32⟩
  | 87 => ⟨S500000x128, .f32⟩
  | 88 => ⟨S500000x128, .f32⟩
  | 89 => ⟨S500000x128, .f32⟩
  | 90 => ⟨S500000x128, .f32⟩
  | 91 => ⟨S_, .f32⟩
  | 92 => ⟨S50000x128, .f32⟩
  | 93 => ⟨S500000x1, .i32⟩
  | 94 => ⟨S50000x128, .f32⟩
  | 95 => ⟨S500000x1, .f32⟩
  | 96 => ⟨S_, .i32⟩
  | 97 => ⟨S500000, .i32⟩
  | 98 => ⟨S500000, .i1⟩
  | 99 => ⟨S_, .i32⟩
  | 100 => ⟨S500000, .i32⟩
  | 101 => ⟨S500000, .i32⟩
  | 102 => ⟨S500000, .i32⟩
  | 103 => ⟨S500000x1, .i32⟩
  | 104 => ⟨S1, .i32⟩
  | 105 => ⟨S_, .i32⟩
  | 106 => ⟨S500000x1, .i32⟩
  | 107 => ⟨S500000x1, .i1⟩
  | 108 => ⟨S1x1, .i32⟩
  | 109 => ⟨S500000x1, .i32⟩
  | 110 => ⟨S500000x1, .i1⟩
  | 111 => ⟨S500000x1, .i1⟩
  | 112 => ⟨S_, .i1⟩
  | 113 => ⟨S500000, .i1⟩
  | 114 => ⟨S500000x128, .f32⟩
  | 115 => ⟨S500000x128, .i1⟩
  | 116 => ⟨S_, .f32⟩
  | 117 => ⟨S500000x128, .f32⟩
  | 118 => ⟨S500000x128, .f32⟩
  | 119 => ⟨S500000x128, .f32⟩
  | 120 => ⟨S500000x128, .f32⟩
  | 121 => ⟨S_, .f32⟩
  | 122 => ⟨S50000x128, .f32⟩
  | 123 => ⟨S500000x1, .i32⟩
  | 124 => ⟨S50000x128, .f32⟩
  | 125 => ⟨S1x128, .f32⟩
  | 126 => ⟨S128, .f32⟩
  | 127 => ⟨S1x128, .f32⟩
  | _ => ⟨S50000x128, .f32⟩

abbrev hbmTy0_2 (i : Nat) : BufTy := match i % 128 with
  | 0 => ⟨S1x128, .f32⟩
  | 1 => ⟨S128, .f32⟩
  | 2 => ⟨S1x128, .f32⟩
  | 3 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S1x128, .f32⟩
  | .local _ .vmem, ⟨4, _⟩ => ⟨S128x128, .bf16⟩
  | .local _ .vmem, ⟨5, _⟩ => ⟨S128x128, .bf16⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .bf16⟩
  | .local _ .vmem, ⟨25, _⟩ => ⟨S1x128, .f32⟩
  | .local _ .vmem, ⟨26, _⟩ => ⟨S128x128, .bf16⟩
  | .local _ .vmem, ⟨27, _⟩ => ⟨S128x128, .bf16⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x128, .bf16⟩
  | .local _ .vmem, ⟨47, _⟩ => ⟨S1x128, .f32⟩
  | .local _ .vmem, ⟨48, _⟩ => ⟨S128x128, .bf16⟩
  | .local _ .vmem, ⟨49, _⟩ => ⟨S128x128, .bf16⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S1x128, .f32⟩
  | .local _ .vmem, ⟨63, _⟩ => ⟨S1x128, .f32⟩
  | .local _ .vmem, ⟨64, _⟩ => ⟨S5000x128, .f32⟩
  | .local _ .vmem, ⟨65, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v21 : Ref sig .tc := ⟨.hbm, 35, rfl⟩
abbrev main_call0_c : Ref sig .tc := ⟨.hbm, 36, rfl⟩
abbrev main_call0_v0 : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_c_1 : Ref sig .tc := ⟨.hbm, 44, rfl⟩
abbrev main_call0_c_2 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_3 : Ref sig .tc := ⟨.hbm, 52, rfl⟩
abbrev main_call0_v12 : Ref sig .tc := ⟨.hbm, 53, rfl⟩
abbrev main_call0_v13 : Ref sig .tc := ⟨.hbm, 54, rfl⟩
abbrev main_call0_v14 : Ref sig .tc := ⟨.hbm, 55, rfl⟩
abbrev main_call0_cst : Ref sig .tc := ⟨.hbm, 56, rfl⟩
abbrev main_call0_v15 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_call1_c : Ref sig .tc := ⟨.hbm, 66, rfl⟩
abbrev main_call1_v0 : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_c_1 : Ref sig .tc := ⟨.hbm, 74, rfl⟩
abbrev main_call1_c_2 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_3 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_call1_cst : Ref sig .tc := ⟨.hbm, 86, rfl⟩
abbrev main_call1_v15 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_cst_0 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51_0 : Ref sig .tc := ⟨.hbm, 111, rfl⟩
abbrev main_v51_1 : Ref sig .tc := ⟨.hbm, 112, rfl⟩
abbrev main_v51_2 : Ref sig .tc := ⟨.hbm, 113, rfl⟩
abbrev main_v52 : Ref sig .tc := ⟨.hbm, 114, rfl⟩
abbrev main_call2_c : Ref sig .tc := ⟨.hbm, 115, rfl⟩
abbrev main_call2_v0 : Ref sig .tc := ⟨.hbm, 116, rfl⟩
abbrev main_call2_v1 : Ref sig .tc := ⟨.hbm, 117, rfl⟩
abbrev main_call2_c_0 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_c_1 : Ref sig .tc := ⟨.hbm, 123, rfl⟩
abbrev main_call2_c_2 : Ref sig .tc := ⟨.hbm, 124, rfl⟩
abbrev main_call2_v6 : Ref sig .tc := ⟨.hbm, 125, rfl⟩
abbrev main_call2_v7 : Ref sig .tc := ⟨.hbm, 126, rfl⟩
abbrev main_call2_v8 : Ref sig .tc := ⟨.hbm, 127, rfl⟩
abbrev main_call2_v9 : Ref sig .tc := ⟨.hbm, 128, rfl⟩
abbrev main_call2_v10 : Ref sig .tc := ⟨.hbm, 129, rfl⟩
abbrev main_call2_v11 : Ref sig .tc := ⟨.hbm, 130, rfl⟩
abbrev main_call2_c_3 : Ref sig .tc := ⟨.hbm, 131, rfl⟩
abbrev main_call2_v12 : Ref sig .tc := ⟨.hbm, 132, rfl⟩
abbrev main_call2_v13 : Ref sig .tc := ⟨.hbm, 133, rfl⟩
abbrev main_call2_v14 : Ref sig .tc := ⟨.hbm, 134, rfl⟩
abbrev main_call2_cst : Ref sig .tc := ⟨.hbm, 135, rfl⟩
abbrev main_call2_v15 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_cst_1 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_call3_c : Ref sig .tc := ⟨.hbm, 145, rfl⟩
abbrev main_call3_v0 : Ref sig .tc := ⟨.hbm, 146, rfl⟩
abbrev main_call3_v1 : Ref sig .tc := ⟨.hbm, 147, rfl⟩
abbrev main_call3_c_0 : Ref sig .tc := ⟨.hbm, 148, rfl⟩
abbrev main_call3_v2 : Ref sig .tc := ⟨.hbm, 149, rfl⟩
abbrev main_call3_v3 : Ref sig .tc := ⟨.hbm, 150, rfl⟩
abbrev main_call3_v4 : Ref sig .tc := ⟨.hbm, 151, rfl⟩
abbrev main_call3_v5 : Ref sig .tc := ⟨.hbm, 152, rfl⟩
abbrev main_call3_c_1 : Ref sig .tc := ⟨.hbm, 153, rfl⟩
abbrev main_call3_c_2 : Ref sig .tc := ⟨.hbm, 154, rfl⟩
abbrev main_call3_v6 : Ref sig .tc := ⟨.hbm, 155, rfl⟩
abbrev main_call3_v7 : Ref sig .tc := ⟨.hbm, 156, rfl⟩
abbrev main_call3_v8 : Ref sig .tc := ⟨.hbm, 157, rfl⟩
abbrev main_call3_v9 : Ref sig .tc := ⟨.hbm, 158, rfl⟩
abbrev main_call3_v10 : Ref sig .tc := ⟨.hbm, 159, rfl⟩
abbrev main_call3_v11 : Ref sig .tc := ⟨.hbm, 160, rfl⟩
abbrev main_call3_c_3 : Ref sig .tc := ⟨.hbm, 161, rfl⟩
abbrev main_call3_v12 : Ref sig .tc := ⟨.hbm, 162, rfl⟩
abbrev main_call3_v13 : Ref sig .tc := ⟨.hbm, 163, rfl⟩
abbrev main_call3_v14 : Ref sig .tc := ⟨.hbm, 164, rfl⟩
abbrev main_call3_cst : Ref sig .tc := ⟨.hbm, 165, rfl⟩
abbrev main_call3_v15 : Ref sig .tc := ⟨.hbm, 166, rfl⟩
abbrev main_v60 : Ref sig .tc := ⟨.hbm, 167, rfl⟩
abbrev main_v61 : Ref sig .tc := ⟨.hbm, 168, rfl⟩
abbrev main_v62 : Ref sig .tc := ⟨.hbm, 169, rfl⟩
abbrev main_cst_2 : Ref sig .tc := ⟨.hbm, 170, rfl⟩
abbrev main_v63 : Ref sig .tc := ⟨.hbm, 171, rfl⟩
abbrev main_v64 : Ref sig .tc := ⟨.hbm, 172, rfl⟩
abbrev main_v65 : Ref sig .tc := ⟨.hbm, 173, rfl⟩
abbrev main_v66 : Ref sig .tc := ⟨.hbm, 174, rfl⟩
abbrev main_v67 : Ref sig .tc := ⟨.hbm, 175, rfl⟩
abbrev main_v68 : Ref sig .tc := ⟨.hbm, 176, rfl⟩
abbrev main_v69 : Ref sig .tc := ⟨.hbm, 177, rfl⟩
abbrev main_v70 : Ref sig .tc := ⟨.hbm, 178, rfl⟩
abbrev main_v71 : Ref sig .tc := ⟨.hbm, 179, rfl⟩
abbrev main_v72 : Ref sig .tc := ⟨.hbm, 180, rfl⟩
abbrev main_v73 : Ref sig .tc := ⟨.hbm, 181, rfl⟩
abbrev main_v74 : Ref sig .tc := ⟨.hbm, 182, rfl⟩
abbrev main_v75 : Ref sig .tc := ⟨.hbm, 183, rfl⟩
abbrev main_v76 : Ref sig .tc := ⟨.hbm, 184, rfl⟩
abbrev main_v77 : Ref sig .tc := ⟨.hbm, 185, rfl⟩
abbrev main_v78 : Ref sig .tc := ⟨.hbm, 186, rfl⟩
abbrev main_v79 : Ref sig .tc := ⟨.hbm, 187, rfl⟩
abbrev main_v80 : Ref sig .tc := ⟨.hbm, 188, rfl⟩
abbrev main_v81 : Ref sig .tc := ⟨.hbm, 189, rfl⟩
abbrev main_v82_0 : Ref sig .tc := ⟨.hbm, 190, rfl⟩
abbrev main_v82_1 : Ref sig .tc := ⟨.hbm, 191, rfl⟩
abbrev main_v82_2 : Ref sig .tc := ⟨.hbm, 192, rfl⟩
abbrev main_v83 : Ref sig .tc := ⟨.hbm, 193, rfl⟩
abbrev main_call4_c : Ref sig .tc := ⟨.hbm, 194, rfl⟩
abbrev main_call4_v0 : Ref sig .tc := ⟨.hbm, 195, rfl⟩
abbrev main_call4_v1 : Ref sig .tc := ⟨.hbm, 196, rfl⟩
abbrev main_call4_c_0 : Ref sig .tc := ⟨.hbm, 197, rfl⟩
abbrev main_call4_v2 : Ref sig .tc := ⟨.hbm, 198, rfl⟩
abbrev main_call4_v3 : Ref sig .tc := ⟨.hbm, 199, rfl⟩
abbrev main_call4_v4 : Ref sig .tc := ⟨.hbm, 200, rfl⟩
abbrev main_call4_v5 : Ref sig .tc := ⟨.hbm, 201, rfl⟩
abbrev main_call4_c_1 : Ref sig .tc := ⟨.hbm, 202, rfl⟩
abbrev main_call4_c_2 : Ref sig .tc := ⟨.hbm, 203, rfl⟩
abbrev main_call4_v6 : Ref sig .tc := ⟨.hbm, 204, rfl⟩
abbrev main_call4_v7 : Ref sig .tc := ⟨.hbm, 205, rfl⟩
abbrev main_call4_v8 : Ref sig .tc := ⟨.hbm, 206, rfl⟩
abbrev main_call4_v9 : Ref sig .tc := ⟨.hbm, 207, rfl⟩
abbrev main_call4_v10 : Ref sig .tc := ⟨.hbm, 208, rfl⟩
abbrev main_call4_v11 : Ref sig .tc := ⟨.hbm, 209, rfl⟩
abbrev main_call4_c_3 : Ref sig .tc := ⟨.hbm, 210, rfl⟩
abbrev main_call4_v12 : Ref sig .tc := ⟨.hbm, 211, rfl⟩
abbrev main_call4_v13 : Ref sig .tc := ⟨.hbm, 212, rfl⟩
abbrev main_call4_v14 : Ref sig .tc := ⟨.hbm, 213, rfl⟩
abbrev main_call4_cst : Ref sig .tc := ⟨.hbm, 214, rfl⟩
abbrev main_call4_v15 : Ref sig .tc := ⟨.hbm, 215, rfl⟩
abbrev main_v84 : Ref sig .tc := ⟨.hbm, 216, rfl⟩
abbrev main_v85 : Ref sig .tc := ⟨.hbm, 217, rfl⟩
abbrev main_v86 : Ref sig .tc := ⟨.hbm, 218, rfl⟩
abbrev main_cst_3 : Ref sig .tc := ⟨.hbm, 219, rfl⟩
abbrev main_v87 : Ref sig .tc := ⟨.hbm, 220, rfl⟩
abbrev main_v88 : Ref sig .tc := ⟨.hbm, 221, rfl⟩
abbrev main_v89 : Ref sig .tc := ⟨.hbm, 222, rfl⟩
abbrev main_v90 : Ref sig .tc := ⟨.hbm, 223, rfl⟩
abbrev main_call5_c : Ref sig .tc := ⟨.hbm, 224, rfl⟩
abbrev main_call5_v0 : Ref sig .tc := ⟨.hbm, 225, rfl⟩
abbrev main_call5_v1 : Ref sig .tc := ⟨.hbm, 226, rfl⟩
abbrev main_call5_c_0 : Ref sig .tc := ⟨.hbm, 227, rfl⟩
abbrev main_call5_v2 : Ref sig .tc := ⟨.hbm, 228, rfl⟩
abbrev main_call5_v3 : Ref sig .tc := ⟨.hbm, 229, rfl⟩
abbrev main_call5_v4 : Ref sig .tc := ⟨.hbm, 230, rfl⟩
abbrev main_call5_v5 : Ref sig .tc := ⟨.hbm, 231, rfl⟩
abbrev main_call5_c_1 : Ref sig .tc := ⟨.hbm, 232, rfl⟩
abbrev main_call5_c_2 : Ref sig .tc := ⟨.hbm, 233, rfl⟩
abbrev main_call5_v6 : Ref sig .tc := ⟨.hbm, 234, rfl⟩
abbrev main_call5_v7 : Ref sig .tc := ⟨.hbm, 235, rfl⟩
abbrev main_call5_v8 : Ref sig .tc := ⟨.hbm, 236, rfl⟩
abbrev main_call5_v9 : Ref sig .tc := ⟨.hbm, 237, rfl⟩
abbrev main_call5_v10 : Ref sig .tc := ⟨.hbm, 238, rfl⟩
abbrev main_call5_v11 : Ref sig .tc := ⟨.hbm, 239, rfl⟩
abbrev main_call5_c_3 : Ref sig .tc := ⟨.hbm, 240, rfl⟩
abbrev main_call5_v12 : Ref sig .tc := ⟨.hbm, 241, rfl⟩
abbrev main_call5_v13 : Ref sig .tc := ⟨.hbm, 242, rfl⟩
abbrev main_call5_v14 : Ref sig .tc := ⟨.hbm, 243, rfl⟩
abbrev main_call5_cst : Ref sig .tc := ⟨.hbm, 244, rfl⟩
abbrev main_call5_v15 : Ref sig .tc := ⟨.hbm, 245, rfl⟩
abbrev main_v91 : Ref sig .tc := ⟨.hbm, 246, rfl⟩
abbrev main_v92 : Ref sig .tc := ⟨.hbm, 247, rfl⟩
abbrev main_v93 : Ref sig .tc := ⟨.hbm, 248, rfl⟩
abbrev main_cst_4 : Ref sig .tc := ⟨.hbm, 249, rfl⟩
abbrev main_v94 : Ref sig .tc := ⟨.hbm, 250, rfl⟩
abbrev main_v95 : Ref sig .tc := ⟨.hbm, 251, rfl⟩
abbrev main_v96 : Ref sig .tc := ⟨.hbm, 252, rfl⟩
abbrev main_v97 : Ref sig .tc := ⟨.hbm, 253, rfl⟩
abbrev main_v98 : Ref sig .tc := ⟨.hbm, 254, rfl⟩
abbrev main_v99 : Ref sig .tc := ⟨.hbm, 255, rfl⟩
abbrev main_v100 : Ref sig .tc := ⟨.hbm, 256, rfl⟩
abbrev main_v101 : Ref sig .tc := ⟨.hbm, 257, rfl⟩
abbrev main_v102 : Ref sig .tc := ⟨.hbm, 258, rfl⟩
abbrev main_v103 : Ref sig .tc := ⟨.hbm, 259, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg5_1 : Ref sig .tc := ⟨.vmem, 51, rfl⟩
abbrev cc4_stg6_0 : Ref sig .tc := ⟨.vmem, 52, rfl⟩
abbrev cc4_stg6_1 : Ref sig .tc := ⟨.vmem, 53, rfl⟩
abbrev cc4_stg7_0 : Ref sig .tc := ⟨.vmem, 54, rfl⟩
abbrev cc4_stg7_1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg1_1 : Ref sig .tc := ⟨.vmem, 59, rfl⟩
abbrev cc5_stg2_0 : Ref sig .tc := ⟨.vmem, 60, rfl⟩
abbrev cc5_stg2_1 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg5_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem4_0 : DmaSem sig := 41
abbrev cc3_sem5_0 : DmaSem sig := 42
abbrev cc3_sem5_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem4_0 : DmaSem sig := 49
abbrev cc4_sem5_0 : DmaSem sig := 50
abbrev cc4_sem5_1 : DmaSem sig := 51
abbrev cc4_sem6_0 : DmaSem sig := 52
abbrev cc4_sem6_1 : DmaSem sig := 53
abbrev cc4_sem7_0 : DmaSem sig := 54
abbrev cc4_sem7_1 : DmaSem sig := 55
abbrev cc5_sem0_0 : DmaSem sig := 56
abbrev cc5_sem0_1 : DmaSem sig := 57
abbrev cc5_sem1_0 : DmaSem sig := 58
abbrev cc5_sem1_1 : DmaSem sig := 59
abbrev cc5_sem2_0 : DmaSem sig := 60
abbrev cc5_sem2_1 : DmaSem sig := 61
abbrev cc5_sem3_0 : DmaSem sig := 62
abbrev cc5_sem4_0 : DmaSem sig := 63
abbrev cc5_sem5_0 : DmaSem sig := 64
abbrev cc5_sem5_1 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bitsLt_bf16_f32 : FTy.bits .bf16 < FTy.bits .f32
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S500000_S500000x1_0 : S500000.BroadcastsInDim S500000x1 (![0] : Fin 1 → Fin S500000x1.rank)
  bcast_S_S500000 : S_.BroadcastsInDim S500000 (![] : Fin 0 → Fin S500000.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  shapeCasts_S5000x128_S5000x128 : S5000x128.ShapeCasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S5000x128_S128x128_S5000x128_1_0_0_1_n_n_wf : DotDims.WF S5000x128 S128x128 S5000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .bf16 = 32 ∨ (Rect.block (s := S128x128) S128x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .bf16 = 32 ∨ (Rect.block (s := S128x128) S128x128.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .bf16 = 32 ∨ (Rect.block (s := S128x128) S128x128.size (cc4_transform_4 i) (hinb4_4 i)).WholeWords (EltTy.packing .bf16)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S50000x128.size a
  hwx4_7 : ∀ i : grid4.Coords, EltTy.bits .f32 = 32 ∨ (Rect.block (s := S50000x128) S5000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20_1) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v20_2) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v20_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v51_1) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v51_2) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v51_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v68) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v72) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v81) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v82_0) S5000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v82_1) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v82_2) S5000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v82_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v96) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v99) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v102) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v103) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S500000 : Shape := ⟨1, ![500000]⟩
abbrev S3x128x128 : Shape := ⟨3, ![3, 128, 128]⟩
abbrev S3x128 : Shape := ⟨2, ![3, 128]⟩
abbrev S2x500000 : Shape := ⟨2, ![2, 500000]⟩
abbrev S50000 : Shape := ⟨1, ![50000]⟩
abbrev S1x500000 : Shape := ⟨2, ![1, 500000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S500000x1 : Shape := ⟨2, ![500000, 1]⟩
abbrev S_ : Shape := ⟨0, ![]⟩
abbrev S500000x128 : Shape := ⟨2, ![500000, 128]⟩

abbrev nBuf : Space → Nat
  | .hbm => 194
  | .vmem => 0
  | .smem => 0
  | _ => 0

abbrev hbmTy0_0 (i : Nat) : BufTy := match i % 128 with
  | 0 => ⟨S50000x128, .f32⟩
  | 1 => ⟨S500000, .f32⟩
  | 2 => ⟨S500000, .f32⟩
  | 3 => ⟨S3x128x128, .f32⟩
  | 4 => ⟨S3x128, .f32⟩
  | 5 => ⟨S3x128x128, .f32⟩
  | 6 => ⟨S3x128, .f32⟩
  | 7 => ⟨S3x128x128, .f32⟩
  | 8 => ⟨S3x128, .f32⟩
  | 9 => ⟨S2x500000, .i32⟩
  | 10 => ⟨S2x500000, .i32⟩
  | 11 => ⟨S50000, .i32⟩
  | 12 => ⟨S1x500000, .i32⟩
  | 13 => ⟨S500000, .i32⟩
  | 14 => ⟨S1x500000, .i32⟩
  | 15 => ⟨S500000, .i32⟩
  | 16 => ⟨S1x500000, .i32⟩
  | 17 => ⟨S500000, .i32⟩
  | 18 => ⟨S1x500000, .i32⟩
  | 19 => ⟨S500000, .i32⟩
  | 20 => ⟨S1x128x128, .f32⟩
  | 21 => ⟨S128x128, .f32⟩
  | 22 => ⟨S50000x128, .f32⟩
  | 23 => ⟨S1x128, .f32⟩
  | 24 => ⟨S128, .f32⟩
  | 25 => ⟨S1x128, .f32⟩
  | 26 => ⟨S50000x128, .f32⟩
  | 27 => ⟨S50000x128, .f32⟩
  | 28 => ⟨S1x128x128, .f32⟩
  | 29 => ⟨S128x128, .f32⟩
  | 30 => ⟨S1x128, .f32⟩
  | 31 => ⟨S128, .f32⟩
  | 32 => ⟨S50000x128, .f32⟩
  | 33 => ⟨S500000x1, .f32⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S500000x128, .f32⟩
  | 43 => ⟨S500000x128, .f32⟩
  | 44 => ⟨S500000x128, .f32⟩
  | 45 => ⟨S_, .f32⟩
  | 46 => ⟨S50000x128, .f32⟩
  | 47 => ⟨S500000x1, .i32⟩
  | 48 => ⟨S50000x128, .f32⟩
  | 49 => ⟨S1x128, .f32⟩
  | 50 => ⟨S50000x128, .f32⟩
  | 51 => ⟨S50000x128, .f32⟩
  | 52 => ⟨S1x128x128, .f32⟩
  | 53 => ⟨S128x128, .f32⟩
  | 54 => ⟨S1x128, .f32⟩
  | 55 => ⟨S128, .f32⟩
  | 56 => ⟨S50000x128, .f32⟩
  | 57 => ⟨S500000x1, .f32⟩
  | 58 => ⟨S_, .i32⟩
  | 59 => ⟨S500000, .i32⟩
  | 60 => ⟨S500000, .i1⟩
  | 61 => ⟨S_, .i32⟩
  | 62 => ⟨S500000, .i32⟩
  | 63 => ⟨S500000, .i32⟩
  | 64 => ⟨S500000, .i32⟩
  | 65 => ⟨S500000x1, .i32⟩
  | 66 => ⟨S500000x128, .f32⟩
  | 67 => ⟨S500000x128, .f32⟩
  | 68 => ⟨S500000x128, .f32⟩
  | 69 => ⟨S_, .f32⟩
  | 70 => ⟨S50000x128, .f32⟩
  | 71 => ⟨S500000x1, .i32⟩
  | 72 => ⟨S50000x128, .f32⟩
  | 73 => ⟨S1x128, .f32⟩
  | 74 => ⟨S50000x128, .f32⟩
  | 75 => ⟨S50000x128, .f32⟩
  | 76 => ⟨S50000x128, .f32⟩
  | 77 => ⟨S50000x128, .f32⟩
  | 78 => ⟨S1x128x128, .f32⟩
  | 79 => ⟨S128x128, .f32⟩
  | 80 => ⟨S50000x128, .f32⟩
  | 81 => ⟨S1x128, .f32⟩
  | 82 => ⟨S128, .f32⟩
  | 83 => ⟨S1x128, .f32⟩
  | 84 => ⟨S50000x128, .f32⟩
  | 85 => ⟨S50000x128, .f32⟩
  | 86 => ⟨S1x128x128, .f32⟩
  | 87 => ⟨S128x128, .f32⟩
  | 88 => ⟨S1x128, .f32⟩
  | 89 => ⟨S128, .f32⟩
  | 90 => ⟨S50000x128, .f32⟩
  | 91 => ⟨S500000x1, .f32⟩
  | 92 => ⟨S_, .i32⟩
  | 93 => ⟨S500000, .i32⟩
  | 94 => ⟨S500000, .i1⟩
  | 95 => ⟨S_, .i32⟩
  | 96 => ⟨S500000, .i32⟩
  | 97 => ⟨S500000, .i32⟩
  | 98 => ⟨S500000, .i32⟩
  | 99 => ⟨S500000x1, .i32⟩
  | 100 => ⟨S500000x128, .f32⟩
  | 101 => ⟨S500000x128, .f32⟩
  | 102 => ⟨S500000x128, .f32⟩
  | 103 => ⟨S_, .f32⟩
  | 104 => ⟨S50000x128, .f32⟩
  | 105 => ⟨S500000x1, .i32⟩
  | 106 => ⟨S50000x128, .f32⟩
  | 107 => ⟨S1x128, .f32⟩
  | 108 => ⟨S50000x128, .f32⟩
  | 109 => ⟨S50000x128, .f32⟩
  | 110 => ⟨S1x128x128, .f32⟩
  | 111 => ⟨S128x128, .f32⟩
  | 112 => ⟨S1x128, .f32⟩
  | 113 => ⟨S128, .f32⟩
  | 114 => ⟨S50000x128, .f32⟩
  | 115 => ⟨S500000x1, .f32⟩
  | 116 => ⟨S_, .i32⟩
  | 117 => ⟨S500000, .i32⟩
  | 118 => ⟨S500000, .i1⟩
  | 119 => ⟨S_, .i32⟩
  | 120 => ⟨S500000, .i32⟩
  | 121 => ⟨S500000, .i32⟩
  | 122 => ⟨S500000, .i32⟩
  | 123 => ⟨S500000x1, .i32⟩
  | 124 => ⟨S500000x128, .f32⟩
  | 125 => ⟨S500000x128, .f32⟩
  | 126 => ⟨S500000x128, .f32⟩
  | 127 => ⟨S_, .f32⟩
  | _ => ⟨S50000x128, .f32⟩

abbrev hbmTy0_1 (i : Nat) : BufTy := match i % 128 with
  | 0 => ⟨S50000x128, .f32⟩
  | 1 => ⟨S500000x1, .i32⟩
  | 2 => ⟨S50000x128, .f32⟩
  | 3 => ⟨S1x128, .f32⟩
  | 4 => ⟨S50000x128, .f32⟩
  | 5 => ⟨S50000x128, .f32⟩
  | 6 => ⟨S50000x128, .f32⟩
  | 7 => ⟨S50000x128, .f32⟩
  | 8 => ⟨S1x128x128, .f32⟩
  | 9 => ⟨S128x128, .f32⟩
  | 10 => ⟨S50000x128, .f32⟩
  | 11 => ⟨S1x128, .f32⟩
  | 12 => ⟨S128, .f32⟩
  | 13 => ⟨S1x128, .f32⟩
  | 14 => ⟨S50000x128, .f32⟩
  | 15 => ⟨S50000x128, .f32⟩
  | 16 => ⟨S1x128x128, .f32⟩
  | 17 => ⟨S128x128, .f32⟩
  | 18 => ⟨S1x128, .f32⟩
  | 19 => ⟨S128, .f32⟩
  | 20 => ⟨S50000x128, .f32⟩
  | 21 => ⟨S500000x1, .f32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x128, .f32⟩
  | 31 => ⟨S500000x128, .f32⟩
  | 32 => ⟨S500000x128, .f32⟩
  | 33 => ⟨S_, .f32⟩
  | 34 => ⟨S50000x128, .f32⟩
  | 35 => ⟨S500000x1, .i32⟩
  | 36 => ⟨S50000x128, .f32⟩
  | 37 => ⟨S1x128, .f32⟩
  | 38 => ⟨S50000x128, .f32⟩
  | 39 => ⟨S50000x128, .f32⟩
  | 40 => ⟨S1x128x128, .f32⟩
  | 41 => ⟨S128x128, .f32⟩
  | 42 => ⟨S1x128, .f32⟩
  | 43 => ⟨S128, .f32⟩
  | 44 => ⟨S50000x128, .f32⟩
  | 45 => ⟨S500000x1, .f32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000x128, .f32⟩
  | 55 => ⟨S500000x128, .f32⟩
  | 56 => ⟨S500000x128, .f32⟩
  | 57 => ⟨S_, .f32⟩
  | 58 => ⟨S50000x128, .f32⟩
  | 59 => ⟨S500000x1, .i32⟩
  | 60 => ⟨S50000x128, .f32⟩
  | 61 => ⟨S1x128, .f32⟩
  | 62 => ⟨S50000x128, .f32⟩
  | 63 => ⟨S50000x128, .f32⟩
  | 64 => ⟨S50000x128, .f32⟩
  | 65 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_v22 : Ref sig .tc := ⟨.hbm, 35, rfl⟩
abbrev main_v23 : Ref sig .tc := ⟨.hbm, 36, rfl⟩
abbrev main_c_0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_1 : Ref sig .tc := ⟨.hbm, 58, rfl⟩
abbrev main_v43 : Ref sig .tc := ⟨.hbm, 59, rfl⟩
abbrev main_v44 : Ref sig .tc := ⟨.hbm, 60, rfl⟩
abbrev main_c_2 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_3 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_c_4 : Ref sig .tc := ⟨.hbm, 92, rfl⟩
abbrev main_v74 : Ref sig .tc := ⟨.hbm, 93, rfl⟩
abbrev main_v75 : Ref sig .tc := ⟨.hbm, 94, rfl⟩
abbrev main_c_5 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_6 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_c_7 : Ref sig .tc := ⟨.hbm, 116, rfl⟩
abbrev main_v95 : Ref sig .tc := ⟨.hbm, 117, rfl⟩
abbrev main_v96 : Ref sig .tc := ⟨.hbm, 118, rfl⟩
abbrev main_c_8 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_cst_9 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_c_10 : Ref sig .tc := ⟨.hbm, 150, rfl⟩
abbrev main_v126 : Ref sig .tc := ⟨.hbm, 151, rfl⟩
abbrev main_v127 : Ref sig .tc := ⟨.hbm, 152, rfl⟩
abbrev main_c_11 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_cst_12 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_c_13 : Ref sig .tc := ⟨.hbm, 174, rfl⟩
abbrev main_v147 : Ref sig .tc := ⟨.hbm, 175, rfl⟩
abbrev main_v148 : Ref sig .tc := ⟨.hbm, 176, rfl⟩
abbrev main_c_14 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_cst_15 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S50000x128_S128x128_S50000x128_1_0_0_1_n_n_wf : DotDims.WF S50000x128 S128x128 S50000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

class Facts : Prop extends Facts₀ where

variable [Facts]
-- ==== Proof.Spec.lean ====
/-
  The mathematics both programs compute, written once over literal shapes at the extended reals.

  A layer takes the node features X : [50000, 128] to
      X·lnW_l + lnb_l  +  A₁(X·c1W_l) + c1b_l  +  A₂(X·c2W_l) + c2b_l ,
  where X·W_l is the dense map with the l-th 128×128 weight of a [3, 128, 128] stack, a bias is row l of a
  [3, 128] stack laid down the nodes, and A₁, A₂ are the two edge aggregations (gather the source rows, scale
  by the edge weight, add into the destination rows): the aggregations are carried as OPAQUE functions here,
  since both programs apply the same one.  The two programs differ in how the five summands are grouped; on the
  extended reals addition is associative and commutative at the infinities too, so the groupings agree.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- Node features: 50000 nodes by 128 channels. -/
abbrev SN : Shape := ⟨2, ![50000, 128]⟩
/-- A stack of three 128×128 weights. -/
abbrev SW : Shape := ⟨3, ![3, 128, 128]⟩
/-- A stack of three bias rows. -/
abbrev SB : Shape := ⟨2, ![3, 128]⟩

/-- The dense map of layer `l`: node `i 0`'s row of `X` against column `i 1` of the `l`-th weight. -/
def dense (l : Fin 3) (X : SN.Idx → EReal) (W : SW.Idx → EReal) : SN.Idx → EReal :=
  fun i => ∑ k : Fin 128, X (ix2 (i 0) k) * W (ix3 l k (i 1))

/-- Row `l` of a bias stack, the same for every node. -/
def biasRow (l : Fin 3) (b : SB.Idx → EReal) : SN.Idx → EReal := fun i => b (ix2 l (i 1))

/-- A layer with its five summands grouped from the left:
    (((x₀ + a₁) + b₁) + a₂) + b₂, where x₀ = X·lnW + lnb. -/
def layerLeft (l : Fin 3) (A₁ A₂ : (SN.Idx → EReal) → SN.Idx → EReal)
    (lnW : SW.Idx → EReal) (lnb : SB.Idx → EReal) (c1W : SW.Idx → EReal) (c1b : SB.Idx → EReal)
    (c2W : SW.Idx → EReal) (c2b : SB.Idx → EReal) (X : SN.Idx → EReal) : SN.Idx → EReal :=
  fun i => ((((dense l X lnW i + biasRow l lnb i) + A₁ (dense l X c1W) i) + biasRow l c1b i)
    + A₂ (dense l X c2W) i) + biasRow l c2b i

/-- The same layer grouped by branch: (x₀ + (a₁ + b₁)) + (a₂ + b₂). -/
def layerBranch (l : Fin 3) (A₁ A₂ : (SN.Idx → EReal) → SN.Idx → EReal)
    (lnW : SW.Idx → EReal) (lnb : SB.Idx → EReal) (c1W : SW.Idx → EReal) (c1b : SB.Idx → EReal)
    (c2W : SW.Idx → EReal) (c2b : SB.Idx → EReal) (X : SN.Idx → EReal) : SN.Idx → EReal :=
  fun i => ((dense l X lnW i + biasRow l lnb i) + (A₁ (dense l X c1W) i + biasRow l c1b i))
    + (A₂ (dense l X c2W) i + biasRow l c2b i)

/-- The two groupings are one function: addition on the extended reals is associative. -/
theorem layerLeft_eq_layerBranch (l : Fin 3) (A₁ A₂ : (SN.Idx → EReal) → SN.Idx → EReal)
    (lnW : SW.Idx → EReal) (lnb : SB.Idx → EReal) (c1W : SW.Idx → EReal) (c1b : SB.Idx → EReal)
    (c2W : SW.Idx → EReal) (c2b : SB.Idx → EReal) (X : SN.Idx → EReal) :
    layerLeft l A₁ A₂ lnW lnb c1W c1b c2W c2b X = layerBranch l A₁ A₂ lnW lnb c1W c1b c2W c2b X := by
  funext i
  simp only [layerLeft, layerBranch, add_assoc]

/-- Three layers in a row. -/
def net (layer : Fin 3 → (SN.Idx → EReal) → SN.Idx → EReal) (X : SN.Idx → EReal) : SN.Idx → EReal :=
  layer 2 (layer 1 (layer 0 X))

/-! ## A row index read numpy-style -/

/-- A 32-bit row index that addresses one of 50000 rows, counted from the front (0 … 49999) or from the back
    (−50000 … −1). -/
def RowInRange (s : BitVec 32) : Prop := (BitVec.ofInt 32 (-50000)).sle s = true ∧ s.slt 50000#32 = true

/-- numpy's reading of a possibly negative row index: a negative one counts from the back. -/
def wrapRow (s : BitVec 32) : BitVec 32 := if s.slt 0#32 then s + 50000#32 else s

/-- A row index in range, once wrapped, lies in 0 … 49999. -/
theorem wrapRow_inb {s : BitVec 32} (h : RowInRange s) :
    (0#32).sle (wrapRow s) = true ∧ (wrapRow s).sle 49999#32 = true := by
  obtain ⟨h1, h2⟩ := h
  unfold wrapRow
  simp only [BitVec.sle, BitVec.slt, decide_eq_true_eq] at h1 h2 ⊢
  have e1 : (BitVec.ofInt 32 (-50000)).toInt = -50000 := by decide
  have e2 : (50000#32).toInt = 50000 := by decide
  have e3 : (0#32).toInt = 0 := by decide
  have e4 : (49999#32).toInt = 49999 := by decide
  rw [e1] at h1; rw [e2] at h2
  by_cases hn : s.toInt < 0
  · have hn' : s.toInt < (0#32).toInt := by rw [e3]; exact hn
    rw [if_pos hn']
    have e5 : (s + 50000#32).toInt = s.toInt + 50000 := by
      rw [BitVec.toInt_add, e2]
      have hp : ((2 ^ 32 : Nat) : Int) = 4294967296 := by norm_num
      exact Int.bmod_eq_of_le_mul_two (by rw [hp]; omega) (by rw [hp]; omega)
    rw [e5, e3, e4]; omega
  · have hn' : ¬ s.toInt < (0#32).toInt := by rw [e3]; exact hn
    rw [if_neg hn', e3, e4]; omega

end Cert.Spec

end
-- ==== Proof.KDefs.lean ====
/-
  The host-side pieces of one layer of the kernel's program, named once.

  Between its two pallas_calls a layer gathers rows of a dense product h : [50000, 128] at the edges' source
  indices (read numpy-style: a negative index counts from the back), scales row e by the edge weight w e, and
  adds the scaled rows into the destination rows (a scatter-add over zeros).  The kernel's program takes the rows
  through jnp.take, which ALSO tests the wrapped index against 0 … 49999 and answers a fill value where the test
  fails; where every source index addresses a row the test passes everywhere and the fill is never chosen.
-/
import proofs.«430380_j24318104830208_1_alg».proof.Proof.Gen.KernelIdeal
import proofs.«430380_j24318104830208_1_alg».proof.Proof.Spec
import Idealize.ShloMosaic.PureOps.Reduce
import Idealize.ShloMosaic.Lib.StableHlo.Predicate

set_option maxRecDepth 16384

noncomputable section

namespace Cert.KernelIdeal.Val

open Idealize.ShloMosaic Idealize.ShloMosaic.ValueIdx Cert.KernelIdeal Cert.KernelIdeal.Facts₀ Cert.KernelIdeal.Facts

variable {F : FTy → Type} [FloatOps F]

/-- The edges' source indices as a column of start indices, a negative index moved up by 50000. -/
def wrapCol (s : IVec S500000 32) : IVec S500000x1 32 :=
  broadcastInDim S500000x1 ![0] bcast_S500000_S500000x1_0
    (select (cmpi .slt s (broadcastInDim S500000 ![] bcast_S_S500000 (constantI S_ 32 0#32)))
      (addi s (broadcastInDim S500000 ![] bcast_S_S500000 (constantI S_ 32 50000#32))) s)

/-- jnp.take's range test of a column of start indices, laid along the 128 channels: 0 ≤ index ≤ 49999. -/
def inbMask (ix : IVec S500000x1 32) : IVec S500000x128 1 :=
  broadcastInDim S500000x128 ![0] bcast_S500000_S500000x128_0
    (Host.reduce IntOp.andi
      (andi (cmpi .sge ix (broadcastInDim S500000x1 ![] bcast_S_S500000x1 (constantI S_ 32 0#32)))
        (cmpi .sle ix (broadcastInDim S500000x1 ![0, 1] bcast_S1x1_S500000x1_0_1
          (broadcastInDim S1x1 ![1] bcast_S1_S1x1_1 (constantI S1 32 49999#32)))))
      (constantI S_ 1 1#1) reducesTo_S500000x1_S500000_d1 h_S_)

/-- The rows of `h` at the wrapped source indices (the gather clamps, as the machine's does). -/
def gatherRows (h : FVec F S50000x128 .f32) (s : IVec S500000 32) : FVec F S500000x128 .f32 :=
  Host.gather gather_S50000x128_S500000x1_S500000x128_1_0_n_n_0_1_1128 h (wrapCol s)

/-- jnp.take: the gathered rows where the range test passes, the fill value elsewhere. -/
def takeRows (h : FVec F S50000x128 .f32) (s : IVec S500000 32) : FVec F S500000x128 .f32 :=
  select (inbMask (wrapCol s)) (gatherRows h s)
    (broadcastInDim S500000x128 ![] bcast_S_S500000x128 (constant S_ .f32 0x7FC00000#32))

/-- Rows `g` scaled by the edge weights and added into the destination rows `d`, from zeros. -/
def scatterRows (g : FVec F S500000x128 .f32) (d : IVec S500000 32) (w : FVec F S500000 .f32) : FVec F S50000x128 .f32 :=
  Host.scatterAdd scatter_S50000x128_S500000x1_S500000x128_1_0_0_1
    (broadcastInDim S50000x128 ![] bcast_S_S50000x128 (constant S_ .f32 0x00000000#32))
    (broadcastInDim S500000x1 ![0] bcast_S500000_S500000x1_0 d)
    (mulf (broadcastInDim S500000x128 ![0, 1] bcast_S500000x1_S500000x128_0_1
      (broadcastInDim S500000x1 ![0] bcast_S500000_S500000x1_0 w)) g)

/-- The aggregation as the kernel's program writes it (through jnp.take). -/
def aggTake (s d : IVec S500000 32) (w : FVec F S500000 .f32) (h : FVec F S50000x128 .f32) : FVec F S50000x128 .f32 :=
  scatterRows (takeRows h s) d w

/-- The aggregation with a plain gather. -/
def agg (s d : IVec S500000 32) (w : FVec F S500000 .f32) (h : FVec F S50000x128 .f32) : FVec F S50000x128 .f32 :=
  scatterRows (gatherRows h s) d w

end Cert.KernelIdeal.Val

end
-- ==== Proof.KCuts.lean ====
/-
  The pieces the kernel's program cut out of its argument arrays before a layer runs: a row of an edge list, one
  128×128 weight of a stack of three, one bias row of a stack of three.
-/
import proofs.«430380_j24318104830208_1_alg».proof.Proof.Gen.KernelIdeal
import Idealize.ShloMosaic.PureOps.Ideal

set_option maxRecDepth 16384

noncomputable section

namespace Cert.KernelIdeal.Val

open Idealize.ShloMosaic Cert.KernelIdeal Cert.KernelIdeal.Gen

/-- Row `st 0` (0: sources, 1: destinations) of an edge list, as a vector of 500000 indices. -/
def edgeRow (st : Fin 2 → Nat) (h : S2x500000.Slices st S1x500000) (E : IVec S2x500000 32) : IVec S500000 32 :=
  shapeCast S500000 (extractStridedSlice S1x500000 st E h) shapeCasts_S1x500000_S500000

/-- One 128×128 weight of a stack (the cast to bf16 on the way is the identity at the extended reals). -/
def weightOf (st : Fin 3 → Nat) (h : S3x128x128.Slices st S1x128x128) (W : FVec Ideal S3x128x128 .f32) : FVec Ideal S128x128 .bf16 :=
  shapeCast S128x128 (extractStridedSlice S1x128x128 st (truncf .bf16 W bitsLt_bf16_f32) h) shapeCasts_S1x128x128_S128x128

/-- One bias row of a stack, as a 1×128 array. -/
def biasOf (st : Fin 2 → Nat) (h : S3x128.Slices st S1x128) (b : FVec Ideal S3x128 .f32) : FVec Ideal S1x128 .f32 :=
  shapeCast S1x128 (shapeCast S128 (extractStridedSlice S1x128 st b h) shapeCasts_S1x128_S128) shapeCasts_S128_S1x128

end Cert.KernelIdeal.Val

end
-- ==== Proof.KRegA0.lean ====
/-
  Region 0 (the first layer's three dense maps), whatever the buffers hold when it is entered.

  Grid point t stages rows 5000·t … 5000·t + 4999 of the feature array and the whole of each 128×128 weight and
  of the 1×128 bias row; its body writes, for each staged row r and column q,
      Σ_k x[r, k] · W[k, q]   (+ b[0, q] for the first output)
  (the matmul into a zero accumulator is the plain sum at the extended reals; the cast of x to bf16 is the
  identity there).  The ten row blocks tile the 50000 rows, so each output array ends as that function of the
  whole arrays.
-/
import proofs.«430380_j24318104830208_1_alg».proof.Proof.Gen.KernelIdeal.Frame
import proofs.«430380_j24318104830208_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

/-- Row `i 0` of `X` against column `i 1` of a 128×128 weight. -/
def rowsTimes (X : S50000x128.Idx → EReal) (W : S128x128.Idx → EReal) : S50000x128.Idx → EReal :=
  fun i => ∑ k : Fin 128, X (ix2 (i 0) k) * W (ix2 k (i 1))

/-! ## The contraction's operand indices, axis by axis

The product contracts the left operand's columns with the right operand's rows: at result index (p, q) and
contraction position k the left operand is read at (p, k) and the right one at (k, q). -/

theorem lhs_row (j : S5000x128.Idx) (k : dot_S5000x128_S128x128_S5000x128_1_0_0_1_n_n.contr.Idx) :
    (dot_S5000x128_S128x128_S5000x128_1_0_0_1_n_n.lhsIdx j k 0).val = (j 0).val := by
  simp [DotDims.lhsIdx, dot_S5000x128_S128x128_S5000x128_1_0_0_1_n_n]; rfl

theorem lhs_col (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single rfl j k

theorem rhs_row (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single rfl j k

theorem rhs_col (j : S5000x128.Idx) (k : dot_S5000x128_S128x128_S5000x128_1_0_0_1_n_n.contr.Idx) :
    (dot_S5000x128_S128x128_S5000x128_1_0_0_1_n_n.rhsIdx j k 1).val = (j 1).val := by
  simp [DotDims.rhsIdx, dot_S5000x128_S128x128_S5000x128_1_0_0_1_n_n]; rfl

/-- The block product into a zero accumulator, at row p and column q: the sum over the shared axis of the
    products of the entries (the contraction index re-indexed by its one coordinate). -/
theorem matmul_zero_at (x : FVec Ideal S5000x128 .bf16) (w : FVec Ideal S128x128 .bf16) (p : Fin 5000) (q : Fin 128) :
    matmul (F := Ideal) dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have l : dot_S5000x128_S128x128_S5000x128_1_0_0_1_n_n.lhsIdx (ix2 p q)
      ((contrEquiv1 dot_S5000x128_S128x128_S5000x128_1_0_0_1_n_n 128 rfl rfl).symm k) = ix2 p k := by
    funext a; apply Fin.ext
    match a with
    | ⟨0, _⟩ => exact lhs_row _ _
    | ⟨1, _⟩ => exact (lhs_col _ _).trans hk
  have r : dot_S5000x128_S128x128_S5000x128_1_0_0_1_n_n.rhsIdx (ix2 p q)
      ((contrEquiv1 dot_S5000x128_S128x128_S5000x128_1_0_0_1_n_n 128 rfl rfl).symm k) = ix2 k q := by
    funext a; apply Fin.ext
    match a with
    | ⟨0, _⟩ => exact (rhs_row _ _).trans hk
    | ⟨1, _⟩ => exact rhs_col _ _
  rw [l, r]

/-- The whole-block rectangle's offsets are zero on both axes. -/
theorem zero_offsets : (![0, 0] : Fin 2 → Nat) = fun _ => 0 := funext fun a => by fin_cases a <;> rfl

/-! # The region's own facts: stored values, staged blocks, write-backs, the tiling -/

namespace RegA0

/-! ## What the body stores, at row p and column q of the staged block -/

/-- The first output's stored value: the row of x against the column of w, plus the bias row's entry. -/
theorem pay_bias_at (x : Vec Ideal S5000x128 .f32) (w : Vec Ideal S128x128 .bf16) (b : Vec Ideal S1x128 .f32)
    (p : Fin 5000) (q : Fin 128) :
    k0_pay2 (F := Ideal) x w b (ix2 p q) = (∑ k : Fin 128, x (ix2 p k) * w (ix2 k q)) + b (ix2 (0 : Fin 1) q) := by
  unfold k0_pay2 k0_pay1
  simp only [shapeCast_self]
  rw [addf_apply, matmul_zero_at, broadcastTo_1b_ab_apply]
  simp only [truncf_apply]

/-- The second output's stored value: the row of x against the column of w. -/
theorem pay_plain3_at (x : Vec Ideal S5000x128 .f32) (w : Vec Ideal S128x128 .bf16) (p : Fin 5000) (q : Fin 128) :
    k0_pay3 (F := Ideal) x w (ix2 p q) = ∑ k : Fin 128, x (ix2 p k) * w (ix2 k q) := by
  unfold k0_pay3 k0_pay1
  simp only [shapeCast_self]
  rw [matmul_zero_at]
  simp only [truncf_apply]

/-- The third output's stored value: the same with its own weight. -/
theorem pay_plain4_at (x : Vec Ideal S5000x128 .f32) (w : Vec Ideal S128x128 .bf16) (p : Fin 5000) (q : Fin 128) :
    k0_pay4 (F := Ideal) x w (ix2 p q) = ∑ k : Fin 128, x (ix2 p k) * w (ix2 k q) := by
  unfold k0_pay4 k0_pay1
  simp only [shapeCast_self]
  rw [matmul_zero_at]
  simp only [truncf_apply]

/-! ## The grid's index maps, decided once -/

/-- Point t stages row block t of the features and of each output, and block (0, 0) of each weight and of the bias. -/
theorem point_blocks : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The region's arrays as it finds them -/

/-- The feature array. -/
abbrev featArr (c : Dev nD) : S50000x128.Idx → EReal := V c (Pipeline.arrRef spec0 0)
/-- The first weight. -/
abbrev wt1Arr (c : Dev nD) : S128x128.Idx → EReal := V c (Pipeline.arrRef spec0 1)
/-- The bias row. -/
abbrev biasArr (c : Dev nD) : S1x128.Idx → EReal := V c (Pipeline.arrRef spec0 2)
/-- The second weight. -/
abbrev wt3Arr (c : Dev nD) : S128x128.Idx → EReal := V c (Pipeline.arrRef spec0 3)
/-- The third weight. -/
abbrev wt4Arr (c : Dev nD) : S128x128.Idx → EReal := V c (Pipeline.arrRef spec0 4)

/-! ## Each staged input block, read off its array -/

/-- The feature block at point t is rows 5000·t … 5000·t + 4999 of the feature array. -/
theorem feat_blk_at (c : Dev nD) (t : Fin cfg0.N) (y : S5000x128.Idx) (i : S50000x128.Idx)
    (h0 : (i 0).val = t.val * 5000 + (y 0).val) (h1 : (i 1).val = (y 1).val) :
    (iblk0 V c 0 t : Vec Ideal S5000x128 .f32) y = featArr V c i := by
  obtain ⟨e0, e1, -⟩ := point_blocks t
  unfold iblk0
  rw [View.read_apply]
  show featArr V c (((cfg0.win 0).blk t).view.emb y) = _
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The first weight's block is the whole weight. -/
theorem wt1_blk_at (c : Dev nD) (t : Fin cfg0.N) (y i : S128x128.Idx)
    (h0 : (i 0).val = (y 0).val) (h1 : (i 1).val = (y 1).val) :
    (iblk0 V c 1 t : Vec Ideal S128x128 .bf16) y = wt1Arr V c i := by
  obtain ⟨-, -, e0, e1, -⟩ := point_blocks t
  unfold iblk0
  rw [View.read_apply]
  show wt1Arr V c (((cfg0.win 1).blk t).view.emb y) = _
  refine congrArg _ (funext fun a => Fin.ext ?_)
  match a with
  | ⟨0, _⟩ => show win0_1.index t (0 : Fin 2) * 128 + 1 * (y 0).val = (i 0).val; omega
  | ⟨1, _⟩ => show win0_1.index t (1 : Fin 2) * 128 + 1 * (y 1).val = (i 1).val; omega

/-- The bias block is the whole bias row. -/
theorem bias_blk_at (c : Dev nD) (t : Fin cfg0.N) (y i : S1x128.Idx)
    (h0 : (i 0).val = (y 0).val) (h1 : (i 1).val = (y 1).val) :
    (iblk0 V c 2 t : Vec Ideal S1x128 .f32) y = biasArr V c i := by
  obtain ⟨-, -, -, -, e0, e1, -⟩ := point_blocks t
  unfold iblk0
  rw [View.read_apply]
  show biasArr V c (((cfg0.win 2).blk t).view.emb y) = _
  refine congrArg _ (funext fun a => Fin.ext ?_)
  match a with
  | ⟨0, _⟩ => show win0_2.index t (0 : Fin 2) * 1 + 1 * (y 0).val = (i 0).val; omega
  | ⟨1, _⟩ => show win0_2.index t (1 : Fin 2) * 128 + 1 * (y 1).val = (i 1).val; omega

/-- The second weight's block is the whole weight. -/
theorem wt3_blk_at (c : Dev nD) (t : Fin cfg0.N) (y i : S128x128.Idx)
    (h0 : (i 0).val = (y 0).val) (h1 : (i 1).val = (y 1).val) :
    (iblk0 V c 3 t : Vec Ideal S128x128 .bf16) y = wt3Arr V c i := by
  obtain ⟨-, -, -, -, -, -, e0, e1, -⟩ := point_blocks t
  unfold iblk0
  rw [View.read_apply]
  show wt3Arr V c (((cfg0.win 3).blk t).view.emb y) = _
  refine congrArg _ (funext fun a => Fin.ext ?_)
  match a with
  | ⟨0, _⟩ => show win0_3.index t (0 : Fin 2) * 128 + 1 * (y 0).val = (i 0).val; omega
  | ⟨1, _⟩ => show win0_3.index t (1 : Fin 2) * 128 + 1 * (y 1).val = (i 1).val; omega

/-- The third weight's block is the whole weight. -/
theorem wt4_blk_at (c : Dev nD) (t : Fin cfg0.N) (y i : S128x128.Idx)
    (h0 : (i 0).val = (y 0).val) (h1 : (i 1).val = (y 1).val) :
    (iblk0 V c 4 t : Vec Ideal S128x128 .bf16) y = wt4Arr V c i := by
  obtain ⟨-, -, -, -, -, -, -, -, e0, e1, -⟩ := point_blocks t
  unfold iblk0
  rw [View.read_apply]
  show wt4Arr V c (((cfg0.win 4).blk t).view.emb y) = _
  refine congrArg _ (funext fun a => Fin.ext ?_)
  match a with
  | ⟨0, _⟩ => show win0_4.index t (0 : Fin 2) * 128 + 1 * (y 0).val = (i 0).val; omega
  | ⟨1, _⟩ => show win0_4.index t (1 : Fin 2) * 128 + 1 * (y 1).val = (i 1).val; omega

/-! ## The first output -/

/-- Where point t's block of the first output sits in its array: rows from 5000·t, all the columns. -/
theorem out5_emb (t : Fin cfg0.N) (p : Fin 5000) (q : Fin 128) :
    ((((cfg0.win 5).blk t).view.emb (ix2 p q) : S50000x128.Idx) 0).val = t.val * 5000 + p.val
    ∧ ((((cfg0.win 5).blk t).view.emb (ix2 p q) : S50000x128.Idx) 1).val = q.val := by
  have e := point_blocks t
  constructor
  · show win0_5.index t (0 : Fin 2) * 5000 + 1 * p.val = _; omega
  · show win0_5.index t (1 : Fin 2) * 128 + 1 * q.val = _; omega

/-- What point t writes back to the first output is its block of the whole-array function. -/
theorem flushed5_eq (c : Dev nD) (t : Fin cfg0.N) :
    (dat0 (F := Ideal) V c).flushed 5 t = ((cfg0.win 5).blk t).view.read (Elt Ideal)
      (fun i => rowsTimes (featArr V c) (wt1Arr V c) i + biasArr V c (ix2 0 (i 1))) := by
  show (cfg0.win 5).cut (grid0.coords t) ((dat0 (F := Ideal) V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  obtain ⟨r0, r1⟩ := out5_emb t p q
  show k0_pay2 (F := Ideal) (iblk0 V c 0 t) (iblk0 V c 1 t) (iblk0 V c 2 t) (ix2 p q) = _
  refine (pay_bias_at _ _ _ p q).trans ?_
  rw [View.read_apply]
  show _ = (fun i => rowsTimes (featArr V c) (wt1Arr V c) i + biasArr V c (ix2 0 (i 1))) (((cfg0.win 5).blk t).view.emb (ix2 p q))
  refine congrArg₂ (· + ·) (Finset.sum_congr rfl fun k _ => ?_) (bias_blk_at V c t _ _ rfl r1)
  exact congrArg₂ (· * ·) (feat_blk_at V c t _ _ r0 rfl) (wt1_blk_at V c t _ _ rfl r1)

/-- An index is in point t's block iff each coordinate is in the block's range on its axis. -/
theorem mem_out5 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v20_0).slice (win0_5.rect t)).set ↔ _
  rw [View.set_slice_whole, Rect.mem_set_unit]
  exact Iff.rfl

/-- Row r lies in the block of point r / 5000: the ten row blocks tile the array. -/
theorem cover5 (i : S50000x128.Idx) :
    ∃ t : Fin cfg0.N, (cfg0.win 5).flush t = true ∧ i ∈ ((cfg0.win 5).blk t).view.set := by
  have hi0 : (i 0).val < 50000 := idx2_lt0 i
  have hi1 : (i 1).val < 128 := idx2_lt1 i
  have hN : cfg0.N = 10 := N_0
  have ht : (i 0).val / 5000 < cfg0.N := by rw [hN]; omega
  have e := point_blocks ⟨(i 0).val / 5000, ht⟩
  refine ⟨⟨(i 0).val / 5000, ht⟩, flush0_5 _, ?_⟩
  rw [mem_out5]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    have : (⟨(i 0).val / 5000, ht⟩ : Fin cfg0.N).val = (i 0).val / 5000 := rfl
    omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    omega

/-! ## The second output -/

/-- Where point t's block of the second output sits in its array: rows from 5000·t, all the columns. -/
theorem out6_emb (t : Fin cfg0.N) (p : Fin 5000) (q : Fin 128) :
    ((((cfg0.win 6).blk t).view.emb (ix2 p q) : S50000x128.Idx) 0).val = t.val * 5000 + p.val
    ∧ ((((cfg0.win 6).blk t).view.emb (ix2 p q) : S50000x128.Idx) 1).val = q.val := by
  have e := point_blocks t
  constructor
  · show win0_6.index t (0 : Fin 2) * 5000 + 1 * p.val = _; omega
  · show win0_6.index t (1 : Fin 2) * 128 + 1 * q.val = _; omega

/-- What point t writes back to the second output is its block of the whole-array function. -/
theorem flushed6_eq (c : Dev nD) (t : Fin cfg0.N) :
    (dat0 (F := Ideal) V c).flushed 6 t = ((cfg0.win 6).blk t).view.read (Elt Ideal)
      (rowsTimes (featArr V c) (wt3Arr V c)) := by
  show (cfg0.win 6).cut (grid0.coords t) ((dat0 (F := Ideal) V c).after 6 t) = _
  rw [after0_6]
  unfold out0_6
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  obtain ⟨r0, r1⟩ := out6_emb t p q
  show k0_pay3 (F := Ideal) (iblk0 V c 0 t) (iblk0 V c 3 t) (ix2 p q) = _
  refine (pay_plain3_at _ _ p q).trans ?_
  rw [View.read_apply]
  show _ = (rowsTimes (featArr V c) (wt3Arr V c)) (((cfg0.win 6).blk t).view.emb (ix2 p q))
  refine Finset.sum_congr rfl fun k _ => ?_
  exact congrArg₂ (· * ·) (feat_blk_at V c t _ _ r0 rfl) (wt3_blk_at V c t _ _ rfl r1)

/-- An index is in point t's block iff each coordinate is in the block's range on its axis. -/
theorem mem_out6 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v20_1).slice (win0_6.rect t)).set ↔ _
  rw [View.set_slice_whole, Rect.mem_set_unit]
  exact Iff.rfl

/-- Row r lies in the block of point r / 5000: the ten row blocks tile the array. -/
theorem cover6 (i : S50000x128.Idx) :
    ∃ t : Fin cfg0.N, (cfg0.win 6).flush t = true ∧ i ∈ ((cfg0.win 6).blk t).view.set := by
  have hi0 : (i 0).val < 50000 := idx2_lt0 i
  have hi1 : (i 1).val < 128 := idx2_lt1 i
  have hN : cfg0.N = 10 := N_0
  have ht : (i 0).val / 5000 < cfg0.N := by rw [hN]; omega
  have e := point_blocks ⟨(i 0).val / 5000, ht⟩
  refine ⟨⟨(i 0).val / 5000, ht⟩, flush0_6 _, ?_⟩
  rw [mem_out6]
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    have : (⟨(i 0).val / 5000, ht⟩ : Fin cfg0.N).val = (i 0).val / 5000 := rfl
    omega
  | ⟨1, _⟩ =>
    show win0_6.index ⟨(i 0).val / 5000, ht⟩ (1 : Fin 2) * 128 ≤ (i 1).val
      ∧ (i 1).val < win0_6.index ⟨(i 0).val / 5000, ht⟩ (1 : Fin 2) * 128 + 128
    omega

/-! ## The third output -/

/-- Where point t's block of the third output sits in its array: rows from 5000·t, all the columns. -/
theorem out7_emb (t : Fin cfg0.N) (p : Fin 5000) (q : Fin 128) :
    ((((cfg0.win 7).blk t).view.emb (ix2 p q) : S50000x128.Idx) 0).val = t.val * 5000 + p.val
    ∧ ((((cfg0.win 7).blk t).view.emb (ix2 p q) : S50000x128.Idx) 1).val = q.val := by
  have e := point_blocks t
  constructor
  · show win0_7.index t (0 : Fin 2) * 5000 + 1 * p.val = _; omega
  · show win0_7.index t (1 : Fin 2) * 128 + 1 * q.val = _; omega

/-- What point t writes back to the third output is its block of the whole-array function. -/
theorem flushed7_eq (c : Dev nD) (t : Fin cfg0.N) :
    (dat0 (F := Ideal) V c).flushed 7 t = ((cfg0.win 7).blk t).view.read (Elt Ideal)
      (rowsTimes (featArr V c) (wt4Arr V c)) := by
  show (cfg0.win 7).cut (grid0.coords t) ((dat0 (F := Ideal) V c).after 7 t) = _
  rw [after0_7]
  unfold out0_7
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  obtain ⟨r0, r1⟩ := out7_emb t p q
  show k0_pay4 (F := Ideal) (iblk0 V c 0 t) (iblk0 V c 4 t) (ix2 p q) = _
  refine (pay_plain4_at _ _ p q).trans ?_
  rw [View.read_apply]
  show _ = (rowsTimes (featArr V c) (wt4Arr V c)) (((cfg0.win 7).blk t).view.emb (ix2 p q))
  refine Finset.sum_congr rfl fun k _ => ?_
  exact congrArg₂ (· * ·) (feat_blk_at V c t _ _ r0 rfl) (wt4_blk_at V c t _ _ rfl r1)

/-- An index is in point t's block iff each coordinate is in the block's range on its axis. -/
theorem mem_out7 (t : Fin cfg0.N) (i : S50000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v20_2).slice (win0_7.rect t)).set ↔ _
  rw [View.set_slice_whole, Rect.mem_set_unit]
  exact Iff.rfl

/-- Row r lies in the block of point r / 5000: the ten row blocks tile the array. -/
theorem cover7 (i : S50000x128.Idx) :
    ∃ t : Fin cfg0.N, (cfg0.win 7).flush t = true ∧ i ∈ ((cfg0.win 7).blk t).view.set := by
  have hi0 : (i 0).val < 50000 := idx2_lt0 i
  have hi1 : (i 1).val < 128 := idx2_lt1 i
  have hN : cfg0.N = 10 := N_0
  have ht : (i 0).val / 5000 < cfg0.N := by rw [hN]; omega
  have e := point_blocks ⟨(i 0).val / 5000, ht⟩
  refine ⟨⟨(i 0).val / 5000, ht⟩, flush0_7 _, ?_⟩
  rw [mem_out7]
  intro a
  match a with
  | ⟨0, _⟩ =>
    show win0_7.index ⟨(i 0).val / 5000, ht⟩ (0 : Fin 2) * 5000 ≤ (i 0).val
      ∧ (i 0).val < win0_7.index ⟨(i 0).val / 5000, ht⟩ (0 : Fin 2) * 5000 + 5000
    have : (⟨(i 0).val / 5000, ht⟩ : Fin cfg0.N).val = (i 0).val / 5000 := rfl
    omega
  | ⟨1, _⟩ =>
    show win0_7.index ⟨(i 0).val / 5000, ht⟩ (1 : Fin 2) * 128 ≤ (i 1).val
      ∧ (i 1).val < win0_7.index ⟨(i 0).val / 5000, ht⟩ (1 : Fin 2) * 128 + 128
    omega

end RegA0

/-! ## The three output arrays after the region -/

/-- The first output: the dense map plus the bias row. -/
theorem regA0_out5 (c : Dev nD) :
    (dat0 (F := Ideal) V c).arrAt 5 cfg0.N
      = fun i => rowsTimes (V c (Pipeline.arrRef spec0 0)) (V c (Pipeline.arrRef spec0 1)) i
          + (V c (Pipeline.arrRef spec0 2) : S1x128.Idx → EReal) (ix2 0 (i 1)) :=
  (dat0 (F := Ideal) V c).arrAt_eq_of_cover 5 _ (fun t _ => RegA0.flushed5_eq V c t) RegA0.cover5

/-- The second output: the dense map with the fourth window's weight. -/
theorem regA0_out6 (c : Dev nD) :
    (dat0 (F := Ideal) V c).arrAt 6 cfg0.N = rowsTimes (V c (Pipeline.arrRef spec0 0)) (V c (Pipeline.arrRef spec0 3)) :=
  (dat0 (F := Ideal) V c).arrAt_eq_of_cover 6 _ (fun t _ => RegA0.flushed6_eq V c t) RegA0.cover6

/-- The third output: the dense map with the fifth window's weight. -/
theorem regA0_out7 (c : Dev nD) :
    (dat0 (F := Ideal) V c).arrAt 7 cfg0.N = rowsTimes (V c (Pipeline.arrRef spec0 0)) (V c (Pipeline.arrRef spec0 4)) :=
  (dat0 (F := Ideal) V c).arrAt_eq_of_cover 7 _ (fun t _ => RegA0.flushed7_eq V c t) RegA0.cover7

end Cert.KernelIdeal.Val

end
-- ==== Proof.KRegC1.lean ====
/-
  Region 1 (the first layer's combine), whatever the buffers hold when it is entered.

  Grid point t stages rows 5000·t … 5000·t + 4999 of three [50000, 128] arrays and the whole of two 1×128 bias
  rows; its body writes x₀ + a₁ + b₁ + a₂ + b₂ entry by entry, grouped from the left.  The ten row blocks tile
  the rows, so the output array ends as that function of the whole arrays.
-/
import proofs.«430380_j24318104830208_1_alg».proof.Proof.Gen.KernelIdeal.Frame
import proofs.«430380_j24318104830208_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The five summands, grouped from the left; the two bias rows are the same for every node. -/
def combine (x0 a1 a2 : S50000x128.Idx → EReal) (b1 b2 : S1x128.Idx → EReal) : S50000x128.Idx → EReal :=
  fun i => (((x0 i + a1 i) + b1 (ix2 0 (i 1))) + a2 i) + b2 (ix2 0 (i 1))

namespace RegC1

/-- The zero offsets of a whole-block access, as the constant function. -/
theorem zero_offsets : (![0, 0] : Fin 2 → Nat) = fun _ => 0 :=
  funext fun a => by match a with | ⟨0, _⟩ => rfl | ⟨1, _⟩ => rfl

/-- The body's result at row p, lane q of a block: the five summands there, each bias row read at lane q. -/
theorem body_at (x0 a1 : Vec Ideal S5000x128 .f32) (b1 : Vec Ideal S1x128 .f32) (a2 : Vec Ideal S5000x128 .f32)
    (b2 : Vec Ideal S1x128 .f32) (p : Fin 5000) (q : Fin 128) :
    k1_pay1 x0 a1 b1 a2 b2 (ix2 p q)
      = (((x0 (ix2 p q) + a1 (ix2 p q)) + b1 (ix2 0 q)) + a2 (ix2 p q)) + b2 (ix2 0 q) := by
  unfold k1_pay1
  simp only [shapeCast_self]
  rw [addf_apply, addf_apply, addf_apply, addf_apply, broadcastTo_1b_ab_apply, broadcastTo_1b_ab_apply]

/-- Where the windows sit at point t: the output's block is (t, 0), the three row-blocked inputs move with it, and
    the two bias rows stay at block (0, 0). -/
theorem index_facts : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The body's result at row p, lane q of a block whose entries are those of whole arrays at row r: the five-summand
    function of the arrays at row r, lane q. -/
theorem body_eq (x0 a1 : Vec Ideal S5000x128 .f32) (b1 : Vec Ideal S1x128 .f32) (a2 : Vec Ideal S5000x128 .f32)
    (b2 : Vec Ideal S1x128 .f32) (p : Fin 5000) (q : Fin 128)
    (X0 X1 X2 : S50000x128.Idx → EReal) (B1 B2 : S1x128.Idx → EReal) (r : Fin 50000)
    (h0 : x0 (ix2 p q) = X0 (ix2 r q)) (h1 : a1 (ix2 p q) = X1 (ix2 r q)) (h2 : a2 (ix2 p q) = X2 (ix2 r q))
    (h3 : b1 (ix2 0 q) = B1 (ix2 0 q)) (h4 : b2 (ix2 0 q) = B2 (ix2 0 q)) :
    k1_pay1 x0 a1 b1 a2 b2 (ix2 p q) = combine X0 X1 X2 B1 B2 (ix2 r q) := by
  rw [body_at, h0, h1, h2, h3, h4]
  rfl

/-- Row p, lane q of the first row-blocked input's block at point t is row 5000·t + p, lane q of its array. -/
theorem rows0_at (c : Dev nD) (t : Fin cfg1.N) (p : Fin 5000) (q : Fin 128) (r : Fin 50000)
    (hr : r.val = t.val * 5000 + p.val) :
    (iblk1 (F := Ideal) V c 0 t : Vec Ideal S5000x128 .f32) (ix2 p q)
      = (V c (Pipeline.arrRef spec1 0) : S50000x128.Idx → EReal) (ix2 r q) := by
  obtain ⟨-, -, h00, h01, h10, h11, h20, h21, -⟩ := index_facts t
  unfold iblk1
  rw [View.read_apply]
  show V c (Pipeline.arrRef spec1 0) (((cfg1.win 0).blk t).view.emb (ix2 p q)) = _
  congr 1
  funext a
  apply Fin.ext
  match a with
  | ⟨0, _⟩ => show win1_0.index t (0 : Fin 2) * 5000 + 1 * p.val = r.val; rw [h00, hr]; omega
  | ⟨1, _⟩ => show win1_0.index t (1 : Fin 2) * 128 + 1 * q.val = q.val; rw [h01]; omega

/-- Row p, lane q of the second row-blocked input's block at point t is row 5000·t + p, lane q of its array. -/
theorem rows1_at (c : Dev nD) (t : Fin cfg1.N) (p : Fin 5000) (q : Fin 128) (r : Fin 50000)
    (hr : r.val = t.val * 5000 + p.val) :
    (iblk1 (F := Ideal) V c 1 t : Vec Ideal S5000x128 .f32) (ix2 p q)
      = (V c (Pipeline.arrRef spec1 1) : S50000x128.Idx → EReal) (ix2 r q) := by
  obtain ⟨-, -, h00, h01, h10, h11, h20, h21, -⟩ := index_facts t
  unfold iblk1
  rw [View.read_apply]
  show V c (Pipeline.arrRef spec1 1) (((cfg1.win 1).blk t).view.emb (ix2 p q)) = _
  congr 1
  funext a
  apply Fin.ext
  match a with
  | ⟨0, _⟩ => show win1_1.index t (0 : Fin 2) * 5000 + 1 * p.val = r.val; rw [h10, hr]; omega
  | ⟨1, _⟩ => show win1_1.index t (1 : Fin 2) * 128 + 1 * q.val = q.val; rw [h11]; omega

/-- Row p, lane q of the third row-blocked input's block at point t is row 5000·t + p, lane q of its array. -/
theorem rows2_at (c : Dev nD) (t : Fin cfg1.N) (p : Fin 5000) (q : Fin 128) (r : Fin 50000)
    (hr : r.val = t.val * 5000 + p.val) :
    (iblk1 (F := Ideal) V c 2 t : Vec Ideal S5000x128 .f32) (ix2 p q)
      = (V c (Pipeline.arrRef spec1 2) : S50000x128.Idx → EReal) (ix2 r q) := by
  obtain ⟨-, -, h00, h01, h10, h11, h20, h21, -⟩ := index_facts t
  unfold iblk1
  rw [View.read_apply]
  show V c (Pipeline.arrRef spec1 2) (((cfg1.win 2).blk t).view.emb (ix2 p q)) = _
  congr 1
  funext a
  apply Fin.ext
  match a with
  | ⟨0, _⟩ => show win1_2.index t (0 : Fin 2) * 5000 + 1 * p.val = r.val; rw [h20, hr]; omega
  | ⟨1, _⟩ => show win1_2.index t (1 : Fin 2) * 128 + 1 * q.val = q.val; rw [h21]; omega

/-- Lane q of the first bias row's block, at any point, is lane q of the row itself. -/
theorem bias3_at (c : Dev nD) (t : Fin cfg1.N) (q : Fin 128) :
    (iblk1 (F := Ideal) V c 3 t : Vec Ideal S1x128 .f32) (ix2 0 q)
      = (V c (Pipeline.arrRef spec1 3) : S1x128.Idx → EReal) (ix2 0 q) := by
  obtain ⟨-, -, -, -, -, -, -, -, h30, h31, h40, h41⟩ := index_facts t
  unfold iblk1
  rw [View.read_apply]
  show V c (Pipeline.arrRef spec1 3) (((cfg1.win 3).blk t).view.emb (ix2 0 q)) = _
  congr 1
  funext a
  apply Fin.ext
  match a with
  | ⟨0, _⟩ => show win1_3.index t (0 : Fin 2) * 1 + 1 * (0 : Fin 1).val = (0 : Fin 1).val; rw [h30]; rfl
  | ⟨1, _⟩ => show win1_3.index t (1 : Fin 2) * 128 + 1 * q.val = q.val; rw [h31]; omega

/-- Lane q of the second bias row's block, at any point, is lane q of the row itself. -/
theorem bias4_at (c : Dev nD) (t : Fin cfg1.N) (q : Fin 128) :
    (iblk1 (F := Ideal) V c 4 t : Vec Ideal S1x128 .f32) (ix2 0 q)
      = (V c (Pipeline.arrRef spec1 4) : S1x128.Idx → EReal) (ix2 0 q) := by
  obtain ⟨-, -, -, -, -, -, -, -, h30, h31, h40, h41⟩ := index_facts t
  unfold iblk1
  rw [View.read_apply]
  show V c (Pipeline.arrRef spec1 4) (((cfg1.win 4).blk t).view.emb (ix2 0 q)) = _
  congr 1
  funext a
  apply Fin.ext
  match a with
  | ⟨0, _⟩ => show win1_4.index t (0 : Fin 2) * 1 + 1 * (0 : Fin 1).val = (0 : Fin 1).val; rw [h40]; rfl
  | ⟨1, _⟩ => show win1_4.index t (1 : Fin 2) * 128 + 1 * q.val = q.val; rw [h41]; omega

/-- Row p, lane q of the output's block at point t sits at row 5000·t + p, lane q of the array. -/
theorem out_at (t : Fin cfg1.N) (p : Fin 5000) (q : Fin 128) (r : Fin 50000) (hr : r.val = t.val * 5000 + p.val) :
    @Eq S50000x128.Idx (((cfg1.win 5).blk t).view.emb (ix2 p q)) (ix2 r q) := by
  obtain ⟨e0, e1, -⟩ := index_facts t
  funext a
  apply Fin.ext
  match a with
  | ⟨0, _⟩ => show win1_5.index t (0 : Fin 2) * 5000 + 1 * p.val = r.val; rw [e0, hr]; omega
  | ⟨1, _⟩ => show win1_5.index t (1 : Fin 2) * 128 + 1 * q.val = q.val; rw [e1]; omega

set_option maxHeartbeats 1000000 in
/-- What point t writes back is block t of the five-summand function of the whole arrays. -/
theorem written_block (c : Dev nD) (t : Fin cfg1.N) :
    (dat1 (F := Ideal) V c).flushed 5 t = ((cfg1.win 5).blk t).view.read (Elt Ideal)
      (combine (V c (Pipeline.arrRef spec1 0)) (V c (Pipeline.arrRef spec1 1)) (V c (Pipeline.arrRef spec1 2))
          (V c (Pipeline.arrRef spec1 3)) (V c (Pipeline.arrRef spec1 4))) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  have hN : cfg1.N = 10 := N_1
  have hlt : t.val * 5000 + p.val < 50000 := by have := t.isLt; have := p.isLt; omega
  show k1_pay1 (iblk1 V c 0 t) (iblk1 V c 1 t) (iblk1 V c 3 t) (iblk1 V c 2 t) (iblk1 V c 4 t) (ix2 p q)
    = combine (V c (Pipeline.arrRef spec1 0)) (V c (Pipeline.arrRef spec1 1)) (V c (Pipeline.arrRef spec1 2))
          (V c (Pipeline.arrRef spec1 3)) (V c (Pipeline.arrRef spec1 4)) (((cfg1.win 5).blk t).view.emb (ix2 p q))
  rw [out_at t p q ⟨_, hlt⟩ rfl]
  have r0 := rows0_at V c t p q ⟨_, hlt⟩ rfl
  have r1 := rows1_at V c t p q ⟨_, hlt⟩ rfl
  have r2 := rows2_at V c t p q ⟨_, hlt⟩ rfl
  have b3 := bias3_at V c t q
  have b4 := bias4_at V c t q
  exact body_eq _ _ _ _ _ p q _ _ _ _ _ _ r0 r1 r2 b3 b4

/-- An index of the array lies in point t's block exactly when each coordinate lies in the block's range. -/
theorem mem_block (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v41).slice (win1_5.rect t)).set ↔ _
  rw [View.set_slice_whole, Rect.mem_set_unit]
  exact Iff.rfl

/-- The ten row blocks tile the rows: row r lies in the block of point r / 5000. -/
theorem rows_covered (i : S50000x128.Idx) :
    ∃ t : Fin cfg1.N, (cfg1.win 5).flush t = true ∧ i ∈ ((cfg1.win 5).blk t).view.set := by
  have hN : cfg1.N = 10 := N_1
  have hi0 : (i 0).val < 50000 := idx2_lt0 i
  have hi1 : (i 1).val < 128 := idx2_lt1 i
  obtain ⟨t, ht⟩ : ∃ t : Fin cfg1.N, t.val = (i 0).val / 5000 := ⟨⟨(i 0).val / 5000, by rw [hN]; omega⟩, rfl⟩
  refine ⟨t, flush1_5 t, ?_⟩
  rw [mem_block]
  obtain ⟨e0, e1, -⟩ := index_facts t
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 128 ≤ (i 1).val ∧ (i 1).val < win1_5.index t (1 : Fin 2) * 128 + 128
    rw [e1]; omega

end RegC1

/-- The output array after the region: every row is written by the one point whose block holds it. -/
theorem regC1_out5 (c : Dev nD) :
    (dat1 (F := Ideal) V c).arrAt 5 cfg1.N
      = combine (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5
    (combine (V c (Pipeline.arrRef spec1 0)) (V c (Pipeline.arrRef spec1 1)) (V c (Pipeline.arrRef spec1 2))
      (V c (Pipeline.arrRef spec1 3)) (V c (Pipeline.arrRef spec1 4)))
    (fun t _ => RegC1.written_block V c t) RegC1.rows_covered

end Cert.KernelIdeal.Val

end
-- ==== Proof.KSlices.lean ====
/-
  A weight cut out of a stack, read at an entry, is the stack's entry at that layer; so the dense map of a block of
  rows against the cut weight is the layer's dense map, and a cut bias row is the layer's bias at every node.
-/
import proofs.«430380_j24318104830208_1_alg».proof.Proof.KCuts
import proofs.«430380_j24318104830208_1_alg».proof.Proof.KRegA0
import proofs.«430380_j24318104830208_1_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.ValueIdx Cert.KernelIdeal Cert.KernelIdeal.Gen
open scoped BigOperators

/-- Entry (k, q) of the weight cut at layer `l` is entry (l, k, q) of the stack. -/
theorem weightOf_apply (l : Fin 3) (st : Fin 3 → Nat) (hst : st = ![l.val, 0, 0]) (h : S3x128x128.Slices st S1x128x128)
    (W : FVec Ideal S3x128x128 .f32) (k q : Fin 128) : weightOf st h W (ix2 k q) = W (ix3 l k q) := by
  subst hst
  unfold weightOf
  -- dropping the unit axis reads the cut at (0, k, q)
  refine (shapeCast_1ab_ab_apply _ _ k q).trans ?_
  -- the cut at (0, k, q) is the stack at (l + 0, 0 + k, 0 + q); the cast to bf16 is the identity here
  refine (extractStridedSlice_apply _ _ _ (ix3 (0 : Fin 1) k q) (ix3 l k q) (fun ax => ?_)).trans
    (truncf_apply W _ (ix3 l k q))
  match ax with
  | ⟨0, _⟩ => exact (Nat.add_zero _).symm
  | ⟨1, _⟩ => exact (Nat.zero_add _).symm
  | ⟨2, _⟩ => exact (Nat.zero_add _).symm

/-- Entry (0, q) of the bias row cut at layer `l` is entry (l, q) of the stack. -/
theorem biasOf_apply (l : Fin 3) (st : Fin 2 → Nat) (hst : st = ![l.val, 0]) (h : S3x128.Slices st S1x128)
    (b : FVec Ideal S3x128 .f32) (q : Fin 128) : biasOf st h b (ix2 0 q) = b (ix2 l q) := by
  subst hst
  unfold biasOf
  -- re-expanding the flat row reads it at q; the flat row at q is the cut at (0, q)
  refine (shapeCast_a_1a_apply _ _ (0 : Fin 1) q).trans ?_
  refine (shapeCast_1a_a_apply _ _ q).trans ?_
  -- the cut at (0, q) is the stack at (l + 0, 0 + q)
  refine extractStridedSlice_apply _ _ _ (ix2 (0 : Fin 1) q) (ix2 l q) (fun ax => ?_)
  match ax with
  | ⟨0, _⟩ => exact (Nat.add_zero _).symm
  | ⟨1, _⟩ => exact (Nat.zero_add _).symm

/-- Rows against the cut weight: the layer's dense map. -/
theorem rowsTimes_weightOf (l : Fin 3) (st : Fin 3 → Nat) (hst : st = ![l.val, 0, 0]) (h : S3x128x128.Slices st S1x128x128)
    (X : S50000x128.Idx → EReal) (W : FVec Ideal S3x128x128 .f32) :
    rowsTimes X (weightOf st h W) = Cert.Spec.dense l X W := by
  funext i
  unfold rowsTimes Cert.Spec.dense
  exact Finset.sum_congr rfl fun k _ => by rw [weightOf_apply l st hst h W k (i 1)]

/-- The cut bias row at a node: the layer's bias row. -/
theorem biasOf_row (l : Fin 3) (st : Fin 2 → Nat) (hst : st = ![l.val, 0]) (h : S3x128.Slices st S1x128)
    (b : FVec Ideal S3x128 .f32) (i : S50000x128.Idx) : biasOf st h b (ix2 0 (i 1)) = Cert.Spec.biasRow l b i := by
  unfold Cert.Spec.biasRow
  exact biasOf_apply l st hst h b (i 1)

end Cert.KernelIdeal.Val

end
-- ==== Proof.KLayer0.lean ====
/-
  Layer 0 of the kernel's program, read off its run.

  The run's buffer contents at each boundary are a fold through @main (the generated W0 … W24).  Layer 0 is: the
  host lines that cut weight 0 and bias row 0 out of the stacks and the index rows out of the edge lists; region 0
  (three dense maps); the host lines of the two edge aggregations and of the two bias rows; region 1 (the
  combine).  Each buffer a region reads is walked back to the launch memory, and the regions' whole-array
  functions are composed: the layer's output array is `Spec.layerLeft 0` of the launch arrays.
-/
import proofs.«430380_j24318104830208_1_alg».proof.Proof.Gen.KernelIdeal.Frame
import proofs.«430380_j24318104830208_1_alg».proof.Proof.KDefs
import proofs.«430380_j24318104830208_1_alg».proof.Proof.KCuts
import proofs.«430380_j24318104830208_1_alg».proof.Proof.KRegA0
import proofs.«430380_j24318104830208_1_alg».proof.Proof.KRegC1
import proofs.«430380_j24318104830208_1_alg».proof.Proof.KSlices
import Idealize.ShloMosaic.Lib.StableHlo.Run

set_option maxRecDepth 16384

noncomputable section

namespace Cert.KernelIdeal.Val

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg)

/-! ## The entry of region 0: the buffers its windows stage, walked back to the launch memory -/

theorem W1_arg0 (c : Dev nD) : W1 m ρ c (Proc.devRef .tc main_arg0) = m ((c : Thread nD τ).loc main_arg0) := by
  show StableHlo.after hostOps0 (W0 m ρ c) _ = _
  simp only [hostOps0]
  after_results_simp

theorem W1_v12 (c : Dev nD) : W1 m ρ c (Proc.devRef .tc main_v12)
    = weightOf ![0, 0, 0] slices_S3x128x128_S1x128x128_0_0_0 (m ((c : Thread nD τ).loc main_arg3)) := by
  show StableHlo.after hostOps0 (W0 m ρ c) _ = _
  simp only [hostOps0]
  after_results_simp
  rfl

theorem W1_v17 (c : Dev nD) : W1 m ρ c (Proc.devRef .tc main_v17)
    = weightOf ![0, 0, 0] slices_S3x128x128_S1x128x128_0_0_0 (m ((c : Thread nD τ).loc main_arg5)) := by
  show StableHlo.after hostOps0 (W0 m ρ c) _ = _
  simp only [hostOps0]
  after_results_simp
  rfl

theorem W1_v19 (c : Dev nD) : W1 m ρ c (Proc.devRef .tc main_v19)
    = weightOf ![0, 0, 0] slices_S3x128x128_S1x128x128_0_0_0 (m ((c : Thread nD τ).loc main_arg7)) := by
  show StableHlo.after hostOps0 (W0 m ρ c) _ = _
  simp only [hostOps0]
  after_results_simp
  rfl

theorem W1_v15 (c : Dev nD) : W1 m ρ c (Proc.devRef .tc main_v15)
    = biasOf ![0, 0] slices_S3x128_S1x128_0_0 (m ((c : Thread nD τ).loc main_arg4)) := by
  show StableHlo.after hostOps0 (W0 m ρ c) _ = _
  simp only [hostOps0]
  after_results_simp
  rfl

theorem W1_v1 (c : Dev nD) : W1 m ρ c (Proc.devRef .tc main_v1)
    = edgeRow ![0, 0] slices_S2x500000_S1x500000_0_0 (m ((c : Thread nD τ).loc main_arg9)) := by
  show StableHlo.after hostOps0 (W0 m ρ c) _ = _
  simp only [hostOps0]
  after_results_simp
  rfl

theorem W1_v3 (c : Dev nD) : W1 m ρ c (Proc.devRef .tc main_v3)
    = edgeRow ![1, 0] slices_S2x500000_S1x500000_1_0 (m ((c : Thread nD τ).loc main_arg9)) := by
  show StableHlo.after hostOps0 (W0 m ρ c) _ = _
  simp only [hostOps0]
  after_results_simp
  rfl

theorem W1_v5 (c : Dev nD) : W1 m ρ c (Proc.devRef .tc main_v5)
    = edgeRow ![0, 0] slices_S2x500000_S1x500000_0_0 (m ((c : Thread nD τ).loc main_arg10)) := by
  show StableHlo.after hostOps0 (W0 m ρ c) _ = _
  simp only [hostOps0]
  after_results_simp
  rfl

theorem W1_v7 (c : Dev nD) : W1 m ρ c (Proc.devRef .tc main_v7)
    = edgeRow ![1, 0] slices_S2x500000_S1x500000_1_0 (m ((c : Thread nD τ).loc main_arg10)) := by
  show StableHlo.after hostOps0 (W0 m ρ c) _ = _
  simp only [hostOps0]
  after_results_simp
  rfl

/-! ## Region 0's three outputs, and the buffers region 0 leaves alone -/

theorem W2_v20_0 (c : Dev nD) : W2 m ρ c (Proc.devRef .tc main_v20_0)
    = fun i => Cert.Spec.dense 0 (m ((c : Thread nD τ).loc main_arg0)) (m ((c : Thread nD τ).loc main_arg3)) i
        + Cert.Spec.biasRow 0 (m ((c : Thread nD τ).loc main_arg4)) i := by
  have e := (W2_arr m ρ c 5).trans (regA0_out5 (V1 m ρ) c)
  have e0 : V1 m ρ c (Pipeline.arrRef spec0 0) = m ((c : Thread nD τ).loc main_arg0) := W1_arg0 m ρ c
  have e1 : V1 m ρ c (Pipeline.arrRef spec0 1) = weightOf ![0, 0, 0] slices_S3x128x128_S1x128x128_0_0_0 (m ((c : Thread nD τ).loc main_arg3)) := W1_v12 m ρ c
  have e2 : V1 m ρ c (Pipeline.arrRef spec0 2) = biasOf ![0, 0] slices_S3x128_S1x128_0_0 (m ((c : Thread nD τ).loc main_arg4)) := W1_v15 m ρ c
  rw [e0, e1, e2] at e
  refine e.trans (funext fun i => ?_)
  exact congrArg₂ (· + ·) (congrFun (rowsTimes_weightOf 0 ![0, 0, 0] rfl _ _ _) i) (biasOf_row 0 ![0, 0] rfl _ _ i)

theorem W2_v20_1 (c : Dev nD) : W2 m ρ c (Proc.devRef .tc main_v20_1)
    = Cert.Spec.dense 0 (m ((c : Thread nD τ).loc main_arg0)) (m ((c : Thread nD τ).loc main_arg5)) := by
  have e := (W2_arr m ρ c 6).trans (regA0_out6 (V1 m ρ) c)
  have e0 : V1 m ρ c (Pipeline.arrRef spec0 0) = m ((c : Thread nD τ).loc main_arg0) := W1_arg0 m ρ c
  have e3 : V1 m ρ c (Pipeline.arrRef spec0 3) = weightOf ![0, 0, 0] slices_S3x128x128_S1x128x128_0_0_0 (m ((c : Thread nD τ).loc main_arg5)) := W1_v17 m ρ c
  rw [e0, e3] at e
  exact e.trans (rowsTimes_weightOf 0 ![0, 0, 0] rfl _ _ _)

theorem W2_v20_2 (c : Dev nD) : W2 m ρ c (Proc.devRef .tc main_v20_2)
    = Cert.Spec.dense 0 (m ((c : Thread nD τ).loc main_arg0)) (m ((c : Thread nD τ).loc main_arg7)) := by
  have e := (W2_arr m ρ c 7).trans (regA0_out7 (V1 m ρ) c)
  have e0 : V1 m ρ c (Pipeline.arrRef spec0 0) = m ((c : Thread nD τ).loc main_arg0) := W1_arg0 m ρ c
  have e4 : V1 m ρ c (Pipeline.arrRef spec0 4) = weightOf ![0, 0, 0] slices_S3x128x128_S1x128x128_0_0_0 (m ((c : Thread nD τ).loc main_arg7)) := W1_v19 m ρ c
  rw [e0, e4] at e
  exact e.trans (rowsTimes_weightOf 0 ![0, 0, 0] rfl _ _ _)

/-- A buffer that is none of region 0's arrays and that the first host lines do not write is as launched. -/
theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) _ = _
    simp only [hostOps0]
    after_results_simp)
theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) _ = _
    simp only [hostOps0]
    after_results_simp)
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) _ = _
    simp only [hostOps0]
    after_results_simp)
theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) _ = _
    simp only [hostOps0]
    after_results_simp)
theorem W2_v1 (c : Dev nD) : W2 m ρ c (Proc.devRef .tc main_v1)
    = edgeRow ![0, 0] slices_S2x500000_S1x500000_0_0 (m ((c : Thread nD τ).loc main_arg9)) :=
  (W2_of_ne m ρ c main_v1 (by decide)).trans (W1_v1 m ρ c)
theorem W2_v3 (c : Dev nD) : W2 m ρ c (Proc.devRef .tc main_v3)
    = edgeRow ![1, 0] slices_S2x500000_S1x500000_1_0 (m ((c : Thread nD τ).loc main_arg9)) :=
  (W2_of_ne m ρ c main_v3 (by decide)).trans (W1_v3 m ρ c)
theorem W2_v5 (c : Dev nD) : W2 m ρ c (Proc.devRef .tc main_v5)
    = edgeRow ![0, 0] slices_S2x500000_S1x500000_0_0 (m ((c : Thread nD τ).loc main_arg10)) :=
  (W2_of_ne m ρ c main_v5 (by decide)).trans (W1_v5 m ρ c)
theorem W2_v7 (c : Dev nD) : W2 m ρ c (Proc.devRef .tc main_v7)
    = edgeRow ![1, 0] slices_S2x500000_S1x500000_1_0 (m ((c : Thread nD τ).loc main_arg10)) :=
  (W2_of_ne m ρ c main_v7 (by decide)).trans (W1_v7 m ρ c)

/-! ## The entry of region 1: the host lines between the regions, read back to region 0's exit -/

theorem W7_v20_0 (c : Dev nD) : W7 m ρ c (Proc.devRef .tc main_v20_0) = W2 m ρ c (Proc.devRef .tc main_v20_0) := by
  show StableHlo.after hostOps1_4 (StableHlo.after hostOps1_3 (StableHlo.after hostOps1_2 (StableHlo.after hostOps1_1 (StableHlo.after hostOps1 (W2 m ρ c))))) _ = _
  simp only [hostOps1_4, hostOps1_3, hostOps1_2, hostOps1_1, hostOps1]
  after_results_simp

theorem W7_v27 (c : Dev nD) : W7 m ρ c (Proc.devRef .tc main_v27)
    = aggTake (F := Ideal) (W2 m ρ c (Proc.devRef .tc main_v1)) (W2 m ρ c (Proc.devRef .tc main_v3))
        (W2 m ρ c (Proc.devRef .tc main_arg1)) (W2 m ρ c (Proc.devRef .tc main_v20_1)) := by
  show StableHlo.after hostOps1_4 (StableHlo.after hostOps1_3 (StableHlo.after hostOps1_2 (StableHlo.after hostOps1_1 (StableHlo.after hostOps1 (W2 m ρ c))))) _ = _
  simp only [hostOps1_4, hostOps1_3, hostOps1_2, hostOps1_1, hostOps1]
  after_results_simp
  simp only [TRef.toBuf, TRef.ofBuf, cast_cast, cast_eq]
  rfl

theorem W7_v34 (c : Dev nD) : W7 m ρ c (Proc.devRef .tc main_v34)
    = aggTake (F := Ideal) (W2 m ρ c (Proc.devRef .tc main_v5)) (W2 m ρ c (Proc.devRef .tc main_v7))
        (W2 m ρ c (Proc.devRef .tc main_arg2)) (W2 m ρ c (Proc.devRef .tc main_v20_2)) := by
  show StableHlo.after hostOps1_4 (StableHlo.after hostOps1_3 (StableHlo.after hostOps1_2 (StableHlo.after hostOps1_1 (StableHlo.after hostOps1 (W2 m ρ c))))) _ = _
  simp only [hostOps1_4, hostOps1_3, hostOps1_2, hostOps1_1, hostOps1]
  after_results_simp
  simp only [TRef.toBuf, TRef.ofBuf, cast_cast, cast_eq]
  rfl

theorem W7_v37 (c : Dev nD) : W7 m ρ c (Proc.devRef .tc main_v37)
    = biasOf ![0, 0] slices_S3x128_S1x128_0_0 (W2 m ρ c (Proc.devRef .tc main_arg6)) := by
  show StableHlo.after hostOps1_4 (StableHlo.after hostOps1_3 (StableHlo.after hostOps1_2 (StableHlo.after hostOps1_1 (StableHlo.after hostOps1 (W2 m ρ c))))) _ = _
  simp only [hostOps1_4, hostOps1_3, hostOps1_2, hostOps1_1, hostOps1]
  after_results_simp
  rfl

theorem W7_v40 (c : Dev nD) : W7 m ρ c (Proc.devRef .tc main_v40)
    = biasOf ![0, 0] slices_S3x128_S1x128_0_0 (W2 m ρ c (Proc.devRef .tc main_arg8)) := by
  show StableHlo.after hostOps1_4 (StableHlo.after hostOps1_3 (StableHlo.after hostOps1_2 (StableHlo.after hostOps1_1 (StableHlo.after hostOps1 (W2 m ρ c))))) _ = _
  simp only [hostOps1_4, hostOps1_3, hostOps1_2, hostOps1_1, hostOps1]
  after_results_simp
  rfl

/-! ## The layer -/

/-- The array region 1 leaves in its output buffer is layer 0 of the launch arrays, the aggregations as the
    program writes them (through jnp.take). -/
theorem layer0 (c : Dev nD) : W8 m ρ c (Proc.devRef .tc main_v41)
    = Cert.Spec.layerLeft 0
        (aggTake (F := Ideal) (edgeRow ![0, 0] slices_S2x500000_S1x500000_0_0 (m ((c : Thread nD τ).loc main_arg9)))
          (edgeRow ![1, 0] slices_S2x500000_S1x500000_1_0 (m ((c : Thread nD τ).loc main_arg9))) (m ((c : Thread nD τ).loc main_arg1)))
        (aggTake (F := Ideal) (edgeRow ![0, 0] slices_S2x500000_S1x500000_0_0 (m ((c : Thread nD τ).loc main_arg10)))
          (edgeRow ![1, 0] slices_S2x500000_S1x500000_1_0 (m ((c : Thread nD τ).loc main_arg10))) (m ((c : Thread nD τ).loc main_arg2)))
        (m ((c : Thread nD τ).loc main_arg3)) (m ((c : Thread nD τ).loc main_arg4))
        (m ((c : Thread nD τ).loc main_arg5)) (m ((c : Thread nD τ).loc main_arg6))
        (m ((c : Thread nD τ).loc main_arg7)) (m ((c : Thread nD τ).loc main_arg8))
        (m ((c : Thread nD τ).loc main_arg0)) := by
  have e := (W8_arr m ρ c 5).trans (regC1_out5 (V7 m ρ) c)
  have e0 : V7 m ρ c (Pipeline.arrRef spec1 0) = _ := (W7_v20_0 m ρ c).trans (W2_v20_0 m ρ c)
  have e1 : V7 m ρ c (Pipeline.arrRef spec1 1) = _ := W7_v27 m ρ c
  have e2 : V7 m ρ c (Pipeline.arrRef spec1 2) = _ := W7_v34 m ρ c
  have e3 : V7 m ρ c (Pipeline.arrRef spec1 3) = _ := W7_v37 m ρ c
  have e4 : V7 m ρ c (Pipeline.arrRef spec1 4) = _ := W7_v40 m ρ c
  rw [e0, e1, e2, e3, e4, W2_v1, W2_v3, W2_v5, W2_v7, W2_arg1, W2_arg2, W2_arg6, W2_arg8, W2_v20_1, W2_v20_2] at e
  refine e.trans (funext fun i => ?_)
  unfold combine Cert.Spec.layerLeft
  exact congrArg₂ (· + ·) (congrArg₂ (· + ·) (congrArg₂ (· + ·) rfl (biasOf_row 0 ![0, 0] rfl _ _ i)) rfl) (biasOf_row 0 ![0, 0] rfl _ _ i)

end Cert.KernelIdeal.Val

end
-- ==== Proof.KKeep1.lean ====
/-
  The buffers that outlive the first layer of the kernel's program: the three weight stacks cast once, the four
  index rows cut out of the edge lists, and the argument arrays the later layers read.  No region of the first layer
  and no host line of it writes them, so each holds at the first layer's end (region 1's exit) what the very first
  host lines left in it, a function of the launch memory alone.
-/
import proofs.«430380_j24318104830208_1_alg».proof.Proof.Gen.KernelIdeal.Frame
import proofs.«430380_j24318104830208_1_alg».proof.Proof.KDefs
import proofs.«430380_j24318104830208_1_alg».proof.Proof.KCuts
import Idealize.ShloMosaic.Lib.StableHlo.Run

set_option maxRecDepth 16384

noncomputable section

namespace Cert.KernelIdeal.Val

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg)

/-! ## What the first host lines left, and what they did not touch -/

/-- Through the first host lines (one stretch from the launch memory). -/
local macro "first_lines" : tactic => `(tactic| (
  show StableHlo.after hostOps0 (W0 _ _ _) _ = _
  simp only [hostOps0]
  after_results_simp))

/-- Through the host lines between regions 0 and 1 (five stretches from region 0's exit). -/
local macro "lines_0_1" : tactic => `(tactic| (
  show StableHlo.after hostOps1_4 (StableHlo.after hostOps1_3 (StableHlo.after hostOps1_2 (StableHlo.after hostOps1_1 (StableHlo.after hostOps1 (W2 _ _ _))))) _ = _
  simp only [hostOps1_4, hostOps1_3, hostOps1_2, hostOps1_1, hostOps1]
  after_results_simp))

theorem W1_v8 (c : Dev nD) : W1 m ρ c (Proc.devRef .tc main_v8) = (truncf .bf16 (m ((c : Thread nD τ).loc main_arg3)) bitsLt_bf16_f32 : FVec Ideal S3x128x128 .bf16) := by
  first_lines
theorem W1_v9 (c : Dev nD) : W1 m ρ c (Proc.devRef .tc main_v9) = (truncf .bf16 (m ((c : Thread nD τ).loc main_arg5)) bitsLt_bf16_f32 : FVec Ideal S3x128x128 .bf16) := by
  first_lines
theorem W1_v10 (c : Dev nD) : W1 m ρ c (Proc.devRef .tc main_v10) = (truncf .bf16 (m ((c : Thread nD τ).loc main_arg7)) bitsLt_bf16_f32 : FVec Ideal S3x128x128 .bf16) := by
  first_lines
theorem W1_arg1 (c : Dev nD) : W1 m ρ c (Proc.devRef .tc main_arg1) = (m ((c : Thread nD τ).loc main_arg1)) := by first_lines
theorem W1_arg2 (c : Dev nD) : W1 m ρ c (Proc.devRef .tc main_arg2) = (m ((c : Thread nD τ).loc main_arg2)) := by first_lines
theorem W1_arg4 (c : Dev nD) : W1 m ρ c (Proc.devRef .tc main_arg4) = (m ((c : Thread nD τ).loc main_arg4)) := by first_lines
theorem W1_arg6 (c : Dev nD) : W1 m ρ c (Proc.devRef .tc main_arg6) = (m ((c : Thread nD τ).loc main_arg6)) := by first_lines
theorem W1_arg8 (c : Dev nD) : W1 m ρ c (Proc.devRef .tc main_arg8) = (m ((c : Thread nD τ).loc main_arg8)) := by first_lines
theorem W1_row_v1 (c : Dev nD) : W1 m ρ c (Proc.devRef .tc main_v1) = edgeRow ![0, 0] slices_S2x500000_S1x500000_0_0 (m ((c : Thread nD τ).loc main_arg9)) := by
  first_lines; rfl
theorem W1_row_v3 (c : Dev nD) : W1 m ρ c (Proc.devRef .tc main_v3) = edgeRow ![1, 0] slices_S2x500000_S1x500000_1_0 (m ((c : Thread nD τ).loc main_arg9)) := by
  first_lines; rfl
theorem W1_row_v5 (c : Dev nD) : W1 m ρ c (Proc.devRef .tc main_v5) = edgeRow ![0, 0] slices_S2x500000_S1x500000_0_0 (m ((c : Thread nD τ).loc main_arg10)) := by
  first_lines; rfl
theorem W1_row_v7 (c : Dev nD) : W1 m ρ c (Proc.devRef .tc main_v7) = edgeRow ![1, 0] slices_S2x500000_S1x500000_1_0 (m ((c : Thread nD τ).loc main_arg10)) := by
  first_lines; rfl

/-- A buffer that is no array of regions 0 and 1 and that no host line up to region 1 writes holds at region 1's
    exit what the first host lines left in it. -/
theorem W8_v8 (c : Dev nD) : W8 m ρ c (Proc.devRef .tc main_v8) = (truncf .bf16 (m ((c : Thread nD τ).loc main_arg3)) bitsLt_bf16_f32 : FVec Ideal S3x128x128 .bf16) :=
  (W8_of_ne m ρ c main_v8 (by decide)).trans (((by lines_0_1) : W7 m ρ c (Proc.devRef .tc main_v8) = W2 m ρ c (Proc.devRef .tc main_v8)).trans
    ((W2_of_ne m ρ c main_v8 (by decide)).trans (W1_v8 m ρ c)))
theorem W8_v9 (c : Dev nD) : W8 m ρ c (Proc.devRef .tc main_v9) = (truncf .bf16 (m ((c : Thread nD τ).loc main_arg5)) bitsLt_bf16_f32 : FVec Ideal S3x128x128 .bf16) :=
  (W8_of_ne m ρ c main_v9 (by decide)).trans (((by lines_0_1) : W7 m ρ c (Proc.devRef .tc main_v9) = W2 m ρ c (Proc.devRef .tc main_v9)).trans
    ((W2_of_ne m ρ c main_v9 (by decide)).trans (W1_v9 m ρ c)))
theorem W8_v10 (c : Dev nD) : W8 m ρ c (Proc.devRef .tc main_v10) = (truncf .bf16 (m ((c : Thread nD τ).loc main_arg7)) bitsLt_bf16_f32 : FVec Ideal S3x128x128 .bf16) :=
  (W8_of_ne m ρ c main_v10 (by decide)).trans (((by lines_0_1) : W7 m ρ c (Proc.devRef .tc main_v10) = W2 m ρ c (Proc.devRef .tc main_v10)).trans
    ((W2_of_ne m ρ c main_v10 (by decide)).trans (W1_v10 m ρ c)))
theorem W8_arg1 (c : Dev nD) : W8 m ρ c (Proc.devRef .tc main_arg1) = (m ((c : Thread nD τ).loc main_arg1)) :=
  (W8_of_ne m ρ c main_arg1 (by decide)).trans (((by lines_0_1) : W7 m ρ c (Proc.devRef .tc main_arg1) = W2 m ρ c (Proc.devRef .tc main_arg1)).trans
    ((W2_of_ne m ρ c main_arg1 (by decide)).trans (W1_arg1 m ρ c)))
theorem W8_arg2 (c : Dev nD) : W8 m ρ c (Proc.devRef .tc main_arg2) = (m ((c : Thread nD τ).loc main_arg2)) :=
  (W8_of_ne m ρ c main_arg2 (by decide)).trans (((by lines_0_1) : W7 m ρ c (Proc.devRef .tc main_arg2) = W2 m ρ c (Proc.devRef .tc main_arg2)).trans
    ((W2_of_ne m ρ c main_arg2 (by decide)).trans (W1_arg2 m ρ c)))
theorem W8_arg4 (c : Dev nD) : W8 m ρ c (Proc.devRef .tc main_arg4) = (m ((c : Thread nD τ).loc main_arg4)) :=
  (W8_of_ne m ρ c main_arg4 (by decide)).trans (((by lines_0_1) : W7 m ρ c (Proc.devRef .tc main_arg4) = W2 m ρ c (Proc.devRef .tc main_arg4)).trans
    ((W2_of_ne m ρ c main_arg4 (by decide)).trans (W1_arg4 m ρ c)))
theorem W8_arg6 (c : Dev nD) : W8 m ρ c (Proc.devRef .tc main_arg6) = (m ((c : Thread nD τ).loc main_arg6)) :=
  (W8_of_ne m ρ c main_arg6 (by decide)).trans (((by lines_0_1) : W7 m ρ c (Proc.devRef .tc main_arg6) = W2 m ρ c (Proc.devRef .tc main_arg6)).trans
    ((W2_of_ne m ρ c main_arg6 (by decide)).trans (W1_arg6 m ρ c)))
theorem W8_arg8 (c : Dev nD) : W8 m ρ c (Proc.devRef .tc main_arg8) = (m ((c : Thread nD τ).loc main_arg8)) :=
  (W8_of_ne m ρ c main_arg8 (by decide)).trans (((by lines_0_1) : W7 m ρ c (Proc.devRef .tc main_arg8) = W2 m ρ c (Proc.devRef .tc main_arg8)).trans
    ((W2_of_ne m ρ c main_arg8 (by decide)).trans (W1_arg8 m ρ c)))
theorem W8_v1 (c : Dev nD) : W8 m ρ c (Proc.devRef .tc main_v1) = edgeRow ![0, 0] slices_S2x500000_S1x500000_0_0 (m ((c : Thread nD τ).loc main_arg9)) :=
  (W8_of_ne m ρ c main_v1 (by decide)).trans (((by lines_0_1) : W7 m ρ c (Proc.devRef .tc main_v1) = W2 m ρ c (Proc.devRef .tc main_v1)).trans
    ((W2_of_ne m ρ c main_v1 (by decide)).trans (W1_row_v1 m ρ c)))
theorem W8_v3 (c : Dev nD) : W8 m ρ c (Proc.devRef .tc main_v3) = edgeRow ![1, 0] slices_S2x500000_S1x500000_1_0 (m ((c : Thread nD τ).loc main_arg9)) :=
  (W8_of_ne m ρ c main_v3 (by decide)).trans (((by lines_0_1) : W7 m ρ c (Proc.devRef .tc main_v3) = W2 m ρ c (Proc.devRef .tc main_v3)).trans
    ((W2_of_ne m ρ c main_v3 (by decide)).trans (W1_row_v3 m ρ c)))
theorem W8_v5 (c : Dev nD) : W8 m ρ c (Proc.devRef .tc main_v5) = edgeRow ![0, 0] slices_S2x500000_S1x500000_0_0 (m ((c : Thread nD τ).loc main_arg10)) :=
  (W8_of_ne m ρ c main_v5 (by decide)).trans (((by lines_0_1) : W7 m ρ c (Proc.devRef .tc main_v5) = W2 m ρ c (Proc.devRef .tc main_v5)).trans
    ((W2_of_ne m ρ c main_v5 (by decide)).trans (W1_row_v5 m ρ c)))
theorem W8_v7 (c : Dev nD) : W8 m ρ c (Proc.devRef .tc main_v7) = edgeRow ![1, 0] slices_S2x500000_S1x500000_1_0 (m ((c : Thread nD τ).loc main_arg10)) :=
  (W8_of_ne m ρ c main_v7 (by decide)).trans (((by lines_0_1) : W7 m ρ c (Proc.devRef .tc main_v7) = W2 m ρ c (Proc.devRef .tc main_v7)).trans
    ((W2_of_ne m ρ c main_v7 (by decide)).trans (W1_row_v7 m ρ c)))

end Cert.KernelIdeal.Val

end
-- ==== Proof.KRegA2.lean ====
/-
  Region 2 (the second layer's three dense maps), whatever the buffers hold when it is entered.

  The same body as the first layer's on the same grid: grid point t stages rows 5000·t … 5000·t + 4999 of the
  layer's input array and the whole of each 128×128 weight and of the 1×128 bias row, and writes, for each staged
  row r and column q,
      Σ_k x[r, k] · W[k, q]   (+ b[0, q] for the first output).
  The ten row blocks tile the 50000 rows, so each output array ends as that function of the whole arrays.
-/
import proofs.«430380_j24318104830208_1_alg».proof.Proof.KRegA0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

/-! # The region's own facts: stored values, staged blocks, write-backs, the tiling -/

namespace RegA2

/-! ## What the body stores, at row p and column q of the staged block -/

/-- The first output's stored value: the row of x against the column of w, plus the bias row's entry. -/
theorem pay_bias_at (x : Vec Ideal S5000x128 .f32) (w : Vec Ideal S128x128 .bf16) (b : Vec Ideal S1x128 .f32)
    (p : Fin 5000) (q : Fin 128) :
    k2_pay2 (F := Ideal) x w b (ix2 p q) = (∑ k : Fin 128, x (ix2 p k) * w (ix2 k q)) + b (ix2 (0 : Fin 1) q) := by
  unfold k2_pay2 k2_pay1
  simp only [shapeCast_self]
  rw [addf_apply, matmul_zero_at, broadcastTo_1b_ab_apply]
  simp only [truncf_apply]

/-- The second output's stored value: the row of x against the column of w. -/
theorem pay_plain3_at (x : Vec Ideal S5000x128 .f32) (w : Vec Ideal S128x128 .bf16) (p : Fin 5000) (q : Fin 128) :
    k2_pay3 (F := Ideal) x w (ix2 p q) = ∑ k : Fin 128, x (ix2 p k) * w (ix2 k q) := by
  unfold k2_pay3 k2_pay1
  simp only [shapeCast_self]
  rw [matmul_zero_at]
  simp only [truncf_apply]

/-- The third output's stored value: the same with its own weight. -/
theorem pay_plain4_at (x : Vec Ideal S5000x128 .f32) (w : Vec Ideal S128x128 .bf16) (p : Fin 5000) (q : Fin 128) :
    k2_pay4 (F := Ideal) x w (ix2 p q) = ∑ k : Fin 128, x (ix2 p k) * w (ix2 k q) := by
  unfold k2_pay4 k2_pay1
  simp only [shapeCast_self]
  rw [matmul_zero_at]
  simp only [truncf_apply]

/-! ## The grid's index maps, decided once -/

/-- Point t stages row block t of the features and of each output, and block (0, 0) of each weight and of the bias. -/
theorem point_blocks : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-! ## The region's arrays as it finds them -/

/-- The feature array. -/
abbrev featArr (c : Dev nD) : S50000x128.Idx → EReal := V c (Pipeline.arrRef spec2 0)
/-- The first weight. -/
abbrev wt1Arr (c : Dev nD) : S128x128.Idx → EReal := V c (Pipeline.arrRef spec2 1)
/-- The bias row. -/
abbrev biasArr (c : Dev nD) : S1x128.Idx → EReal := V c (Pipeline.arrRef spec2 2)
/-- The second weight. -/
abbrev wt3Arr (c : Dev nD) : S128x128.Idx → EReal := V c (Pipeline.arrRef spec2 3)
/-- The third weight. -/
abbrev wt4Arr (c : Dev nD) : S128x128.Idx → EReal := V c (Pipeline.arrRef spec2 4)

/-! ## Each staged input block, read off its array -/

/-- The feature block at point t is rows 5000·t … 5000·t + 4999 of the feature array. -/
theorem feat_blk_at (c : Dev nD) (t : Fin cfg2.N) (y : S5000x128.Idx) (i : S50000x128.Idx)
    (h0 : (i 0).val = t.val * 5000 + (y 0).val) (h1 : (i 1).val = (y 1).val) :
    (iblk2 V c 0 t : Vec Ideal S5000x128 .f32) y = featArr V c i := by
  obtain ⟨e0, e1, -⟩ := point_blocks t
  unfold iblk2
  rw [View.read_apply]
  show featArr V c (((cfg2.win 0).blk t).view.emb y) = _
  refine congrArg _ (funext fun a => Fin.ext ?_)
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- The first weight's block is the whole weight. -/
theorem wt1_blk_at (c : Dev nD) (t : Fin cfg2.N) (y i : S128x128.Idx)
    (h0 : (i 0).val = (y 0).val) (h1 : (i 1).val = (y 1).val) :
    (iblk2 V c 1 t : Vec Ideal S128x128 .bf16) y = wt1Arr V c i := by
  obtain ⟨-, -, e0, e1, -⟩ := point_blocks t
  unfold iblk2
  rw [View.read_apply]
  show wt1Arr V c (((cfg2.win 1).blk t).view.emb y) = _
  refine congrArg _ (funext fun a => Fin.ext ?_)
  match a with
  | ⟨0, _⟩ => show win2_1.index t (0 : Fin 2) * 128 + 1 * (y 0).val = (i 0).val; omega
  | ⟨1, _⟩ => show win2_1.index t (1 : Fin 2) * 128 + 1 * (y 1).val = (i 1).val; omega

/-- The bias block is the whole bias row. -/
theorem bias_blk_at (c : Dev nD) (t : Fin cfg2.N) (y i : S1x128.Idx)
    (h0 : (i 0).val = (y 0).val) (h1 : (i 1).val = (y 1).val) :
    (iblk2 V c 2 t : Vec Ideal S1x128 .f32) y = biasArr V c i := by
  obtain ⟨-, -, -, -, e0, e1, -⟩ := point_blocks t
  unfold iblk2
  rw [View.read_apply]
  show biasArr V c (((cfg2.win 2).blk t).view.emb y) = _
  refine congrArg _ (funext fun a => Fin.ext ?_)
  match a with
  | ⟨0, _⟩ => show win2_2.index t (0 : Fin 2) * 1 + 1 * (y 0).val = (i 0).val; omega
  | ⟨1, _⟩ => show win2_2.index t (1 : Fin 2) * 128 + 1 * (y 1).val = (i 1).val; omega

/-- The second weight's block is the whole weight. -/
theorem wt3_blk_at (c : Dev nD) (t : Fin cfg2.N) (y i : S128x128.Idx)
    (h0 : (i 0).val = (y 0).val) (h1 : (i 1).val = (y 1).val) :
    (iblk2 V c 3 t : Vec Ideal S128x128 .bf16) y = wt3Arr V c i := by
  obtain ⟨-, -, -, -, -, -, e0, e1, -⟩ := point_blocks t
  unfold iblk2
  rw [View.read_apply]
  show wt3Arr V c (((cfg2.win 3).blk t).view.emb y) = _
  refine congrArg _ (funext fun a => Fin.ext ?_)
  match a with
  | ⟨0, _⟩ => show win2_3.index t (0 : Fin 2) * 128 + 1 * (y 0).val = (i 0).val; omega
  | ⟨1, _⟩ => show win2_3.index t (1 : Fin 2) * 128 + 1 * (y 1).val = (i 1).val; omega

/-- The third weight's block is the whole weight. -/
theorem wt4_blk_at (c : Dev nD) (t : Fin cfg2.N) (y i : S128x128.Idx)
    (h0 : (i 0).val = (y 0).val) (h1 : (i 1).val = (y 1).val) :
    (iblk2 V c 4 t : Vec Ideal S128x128 .bf16) y = wt4Arr V c i := by
  obtain ⟨-, -, -, -, -, -, -, -, e0, e1, -⟩ := point_blocks t
  unfold iblk2
  rw [View.read_apply]
  show wt4Arr V c (((cfg2.win 4).blk t).view.emb y) = _
  refine congrArg _ (funext fun a => Fin.ext ?_)
  match a with
  | ⟨0, _⟩ => show win2_4.index t (0 : Fin 2) * 128 + 1 * (y 0).val = (i 0).val; omega
  | ⟨1, _⟩ => show win2_4.index t (1 : Fin 2) * 128 + 1 * (y 1).val = (i 1).val; omega

/-! ## The first output -/

/-- Where point t's block of the first output sits in its array: rows from 5000·t, all the columns. -/
theorem out5_emb (t : Fin cfg2.N) (p : Fin 5000) (q : Fin 128) :
    ((((cfg2.win 5).blk t).view.emb (ix2 p q) : S50000x128.Idx) 0).val = t.val * 5000 + p.val
    ∧ ((((cfg2.win 5).blk t).view.emb (ix2 p q) : S50000x128.Idx) 1).val = q.val := by
  have e := point_blocks t
  constructor
  · show win2_5.index t (0 : Fin 2) * 5000 + 1 * p.val = _; omega
  · show win2_5.index t (1 : Fin 2) * 128 + 1 * q.val = _; omega

/-- What point t writes back to the first output is its block of the whole-array function. -/
theorem flushed5_eq (c : Dev nD) (t : Fin cfg2.N) :
    (dat2 (F := Ideal) V c).flushed 5 t = ((cfg2.win 5).blk t).view.read (Elt Ideal)
      (fun i => rowsTimes (featArr V c) (wt1Arr V c) i + biasArr V c (ix2 0 (i 1))) := by
  show (cfg2.win 5).cut (grid2.coords t) ((dat2 (F := Ideal) V c).after 5 t) = _
  rw [after2_5]
  unfold out2_5
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  obtain ⟨r0, r1⟩ := out5_emb t p q
  show k2_pay2 (F := Ideal) (iblk2 V c 0 t) (iblk2 V c 1 t) (iblk2 V c 2 t) (ix2 p q) = _
  refine (pay_bias_at _ _ _ p q).trans ?_
  rw [View.read_apply]
  show _ = (fun i => rowsTimes (featArr V c) (wt1Arr V c) i + biasArr V c (ix2 0 (i 1))) (((cfg2.win 5).blk t).view.emb (ix2 p q))
  refine congrArg₂ (· + ·) (Finset.sum_congr rfl fun k _ => ?_) (bias_blk_at V c t _ _ rfl r1)
  exact congrArg₂ (· * ·) (feat_blk_at V c t _ _ r0 rfl) (wt1_blk_at V c t _ _ rfl r1)

/-- An index is in point t's block iff each coordinate is in the block's range on its axis. -/
theorem mem_out5 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v51_0).slice (win2_5.rect t)).set ↔ _
  rw [View.set_slice_whole, Rect.mem_set_unit]
  exact Iff.rfl

/-- Row r lies in the block of point r / 5000: the ten row blocks tile the array. -/
theorem cover5 (i : S50000x128.Idx) :
    ∃ t : Fin cfg2.N, (cfg2.win 5).flush t = true ∧ i ∈ ((cfg2.win 5).blk t).view.set := by
  have hi0 : (i 0).val < 50000 := idx2_lt0 i
  have hi1 : (i 1).val < 128 := idx2_lt1 i
  have hN : cfg2.N = 10 := N_2
  have ht : (i 0).val / 5000 < cfg2.N := by rw [hN]; omega
  have e := point_blocks ⟨(i 0).val / 5000, ht⟩
  refine ⟨⟨(i 0).val / 5000, ht⟩, flush2_5 _, ?_⟩
  rw [mem_out5]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    have : (⟨(i 0).val / 5000, ht⟩ : Fin cfg2.N).val = (i 0).val / 5000 := rfl
    omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    omega

/-! ## The second output -/

/-- Where point t's block of the second output sits in its array: rows from 5000·t, all the columns. -/
theorem out6_emb (t : Fin cfg2.N) (p : Fin 5000) (q : Fin 128) :
    ((((cfg2.win 6).blk t).view.emb (ix2 p q) : S50000x128.Idx) 0).val = t.val * 5000 + p.val
    ∧ ((((cfg2.win 6).blk t).view.emb (ix2 p q) : S50000x128.Idx) 1).val = q.val := by
  have e := point_blocks t
  constructor
  · show win2_6.index t (0 : Fin 2) * 5000 + 1 * p.val = _; omega
  · show win2_6.index t (1 : Fin 2) * 128 + 1 * q.val = _; omega

/-- What point t writes back to the second output is its block of the whole-array function. -/
theorem flushed6_eq (c : Dev nD) (t : Fin cfg2.N) :
    (dat2 (F := Ideal) V c).flushed 6 t = ((cfg2.win 6).blk t).view.read (Elt Ideal)
      (rowsTimes (featArr V c) (wt3Arr V c)) := by
  show (cfg2.win 6).cut (grid2.coords t) ((dat2 (F := Ideal) V c).after 6 t) = _
  rw [after2_6]
  unfold out2_6
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  obtain ⟨r0, r1⟩ := out6_emb t p q
  show k2_pay3 (F := Ideal) (iblk2 V c 0 t) (iblk2 V c 3 t) (ix2 p q) = _
  refine (pay_plain3_at _ _ p q).trans ?_
  rw [View.read_apply]
  show _ = (rowsTimes (featArr V c) (wt3Arr V c)) (((cfg2.win 6).blk t).view.emb (ix2 p q))
  refine Finset.sum_congr rfl fun k _ => ?_
  exact congrArg₂ (· * ·) (feat_blk_at V c t _ _ r0 rfl) (wt3_blk_at V c t _ _ rfl r1)

/-- An index is in point t's block iff each coordinate is in the block's range on its axis. -/
theorem mem_out6 (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v51_1).slice (win2_6.rect t)).set ↔ _
  rw [View.set_slice_whole, Rect.mem_set_unit]
  exact Iff.rfl

/-- Row r lies in the block of point r / 5000: the ten row blocks tile the array. -/
theorem cover6 (i : S50000x128.Idx) :
    ∃ t : Fin cfg2.N, (cfg2.win 6).flush t = true ∧ i ∈ ((cfg2.win 6).blk t).view.set := by
  have hi0 : (i 0).val < 50000 := idx2_lt0 i
  have hi1 : (i 1).val < 128 := idx2_lt1 i
  have hN : cfg2.N = 10 := N_2
  have ht : (i 0).val / 5000 < cfg2.N := by rw [hN]; omega
  have e := point_blocks ⟨(i 0).val / 5000, ht⟩
  refine ⟨⟨(i 0).val / 5000, ht⟩, flush2_6 _, ?_⟩
  rw [mem_out6]
  intro a
  match a with
  | ⟨0, _⟩ =>
    show win2_6.index ⟨(i 0).val / 5000, ht⟩ (0 : Fin 2) * 5000 ≤ (i 0).val
      ∧ (i 0).val < win2_6.index ⟨(i 0).val / 5000, ht⟩ (0 : Fin 2) * 5000 + 5000
    have : (⟨(i 0).val / 5000, ht⟩ : Fin cfg2.N).val = (i 0).val / 5000 := rfl
    omega
  | ⟨1, _⟩ =>
    show win2_6.index ⟨(i 0).val / 5000, ht⟩ (1 : Fin 2) * 128 ≤ (i 1).val
      ∧ (i 1).val < win2_6.index ⟨(i 0).val / 5000, ht⟩ (1 : Fin 2) * 128 + 128
    omega

/-! ## The third output -/

/-- Where point t's block of the third output sits in its array: rows from 5000·t, all the columns. -/
theorem out7_emb (t : Fin cfg2.N) (p : Fin 5000) (q : Fin 128) :
    ((((cfg2.win 7).blk t).view.emb (ix2 p q) : S50000x128.Idx) 0).val = t.val * 5000 + p.val
    ∧ ((((cfg2.win 7).blk t).view.emb (ix2 p q) : S50000x128.Idx) 1).val = q.val := by
  have e := point_blocks t
  constructor
  · show win2_7.index t (0 : Fin 2) * 5000 + 1 * p.val = _; omega
  · show win2_7.index t (1 : Fin 2) * 128 + 1 * q.val = _; omega

/-- What point t writes back to the third output is its block of the whole-array function. -/
theorem flushed7_eq (c : Dev nD) (t : Fin cfg2.N) :
    (dat2 (F := Ideal) V c).flushed 7 t = ((cfg2.win 7).blk t).view.read (Elt Ideal)
      (rowsTimes (featArr V c) (wt4Arr V c)) := by
  show (cfg2.win 7).cut (grid2.coords t) ((dat2 (F := Ideal) V c).after 7 t) = _
  rw [after2_7]
  unfold out2_7
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  obtain ⟨r0, r1⟩ := out7_emb t p q
  show k2_pay4 (F := Ideal) (iblk2 V c 0 t) (iblk2 V c 4 t) (ix2 p q) = _
  refine (pay_plain4_at _ _ p q).trans ?_
  rw [View.read_apply]
  show _ = (rowsTimes (featArr V c) (wt4Arr V c)) (((cfg2.win 7).blk t).view.emb (ix2 p q))
  refine Finset.sum_congr rfl fun k _ => ?_
  exact congrArg₂ (· * ·) (feat_blk_at V c t _ _ r0 rfl) (wt4_blk_at V c t _ _ rfl r1)

/-- An index is in point t's block iff each coordinate is in the block's range on its axis. -/
theorem mem_out7 (t : Fin cfg2.N) (i : S50000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v51_2).slice (win2_7.rect t)).set ↔ _
  rw [View.set_slice_whole, Rect.mem_set_unit]
  exact Iff.rfl

/-- Row r lies in the block of point r / 5000: the ten row blocks tile the array. -/
theorem cover7 (i : S50000x128.Idx) :
    ∃ t : Fin cfg2.N, (cfg2.win 7).flush t = true ∧ i ∈ ((cfg2.win 7).blk t).view.set := by
  have hi0 : (i 0).val < 50000 := idx2_lt0 i
  have hi1 : (i 1).val < 128 := idx2_lt1 i
  have hN : cfg2.N = 10 := N_2
  have ht : (i 0).val / 5000 < cfg2.N := by rw [hN]; omega
  have e := point_blocks ⟨(i 0).val / 5000, ht⟩
  refine ⟨⟨(i 0).val / 5000, ht⟩, flush2_7 _, ?_⟩
  rw [mem_out7]
  intro a
  match a with
  | ⟨0, _⟩ =>
    show win2_7.index ⟨(i 0).val / 5000, ht⟩ (0 : Fin 2) * 5000 ≤ (i 0).val
      ∧ (i 0).val < win2_7.index ⟨(i 0).val / 5000, ht⟩ (0 : Fin 2) * 5000 + 5000
    have : (⟨(i 0).val / 5000, ht⟩ : Fin cfg2.N).val = (i 0).val / 5000 := rfl
    omega
  | ⟨1, _⟩ =>
    show win2_7.index ⟨(i 0).val / 5000, ht⟩ (1 : Fin 2) * 128 ≤ (i 1).val
      ∧ (i 1).val < win2_7.index ⟨(i 0).val / 5000, ht⟩ (1 : Fin 2) * 128 + 128
    omega

end RegA2

/-! ## The three output arrays after the region -/

/-- The first output: the dense map plus the bias row. -/
theorem regA2_out5 (c : Dev nD) :
    (dat2 (F := Ideal) V c).arrAt 5 cfg2.N
      = fun i => rowsTimes (V c (Pipeline.arrRef spec2 0)) (V c (Pipeline.arrRef spec2 1)) i
          + (V c (Pipeline.arrRef spec2 2) : S1x128.Idx → EReal) (ix2 0 (i 1)) :=
  (dat2 (F := Ideal) V c).arrAt_eq_of_cover 5 _ (fun t _ => RegA2.flushed5_eq V c t) RegA2.cover5

/-- The second output: the dense map with the fourth window's weight. -/
theorem regA2_out6 (c : Dev nD) :
    (dat2 (F := Ideal) V c).arrAt 6 cfg2.N = rowsTimes (V c (Pipeline.arrRef spec2 0)) (V c (Pipeline.arrRef spec2 3)) :=
  (dat2 (F := Ideal) V c).arrAt_eq_of_cover 6 _ (fun t _ => RegA2.flushed6_eq V c t) RegA2.cover6

/-- The third output: the dense map with the fifth window's weight. -/
theorem regA2_out7 (c : Dev nD) :
    (dat2 (F := Ideal) V c).arrAt 7 cfg2.N = rowsTimes (V c (Pipeline.arrRef spec2 0)) (V c (Pipeline.arrRef spec2 4)) :=
  (dat2 (F := Ideal) V c).arrAt_eq_of_cover 7 _ (fun t _ => RegA2.flushed7_eq V c t) RegA2.cover7

end Cert.KernelIdeal.Val

end
-- ==== Proof.KRegC3.lean ====
/-
  Region 3 (the second layer's combine), whatever the buffers hold when it is entered.

  Grid point t stages rows 5000·t … 5000·t + 4999 of three [50000, 128] arrays and the whole of two 1×128 bias
  rows; its body writes x₀ + a₁ + b₁ + a₂ + b₂ entry by entry, grouped from the left.  The ten row blocks tile
  the rows, so the output array ends as that function of the whole arrays.
-/
import proofs.«430380_j24318104830208_1_alg».proof.Proof.Gen.KernelIdeal.Frame
import proofs.«430380_j24318104830208_1_alg».proof.Proof.Spec
import proofs.«430380_j24318104830208_1_alg».proof.Proof.KRegC1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

namespace RegC3

/-- The zero offsets of a whole-block access, as the constant function. -/
theorem zero_offsets : (![0, 0] : Fin 2 → Nat) = fun _ => 0 :=
  funext fun a => by match a with | ⟨0, _⟩ => rfl | ⟨1, _⟩ => rfl

/-- The body's result at row p, lane q of a block: the five summands there, each bias row read at lane q. -/
theorem body_at (x0 a1 : Vec Ideal S5000x128 .f32) (b1 : Vec Ideal S1x128 .f32) (a2 : Vec Ideal S5000x128 .f32)
    (b2 : Vec Ideal S1x128 .f32) (p : Fin 5000) (q : Fin 128) :
    k3_pay1 x0 a1 b1 a2 b2 (ix2 p q)
      = (((x0 (ix2 p q) + a1 (ix2 p q)) + b1 (ix2 0 q)) + a2 (ix2 p q)) + b2 (ix2 0 q) := by
  unfold k3_pay1
  simp only [shapeCast_self]
  rw [addf_apply, addf_apply, addf_apply, addf_apply, broadcastTo_1b_ab_apply, broadcastTo_1b_ab_apply]

/-- Where the windows sit at point t: the output's block is (t, 0), the three row-blocked inputs move with it, and
    the two bias rows stay at block (0, 0). -/
theorem index_facts : ∀ t : Fin cfg3.N,
    win3_5.index t (0 : Fin 2) = t.val ∧ win3_5.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- The body's result at row p, lane q of a block whose entries are those of whole arrays at row r: the five-summand
    function of the arrays at row r, lane q. -/
theorem body_eq (x0 a1 : Vec Ideal S5000x128 .f32) (b1 : Vec Ideal S1x128 .f32) (a2 : Vec Ideal S5000x128 .f32)
    (b2 : Vec Ideal S1x128 .f32) (p : Fin 5000) (q : Fin 128)
    (X0 X1 X2 : S50000x128.Idx → EReal) (B1 B2 : S1x128.Idx → EReal) (r : Fin 50000)
    (h0 : x0 (ix2 p q) = X0 (ix2 r q)) (h1 : a1 (ix2 p q) = X1 (ix2 r q)) (h2 : a2 (ix2 p q) = X2 (ix2 r q))
    (h3 : b1 (ix2 0 q) = B1 (ix2 0 q)) (h4 : b2 (ix2 0 q) = B2 (ix2 0 q)) :
    k3_pay1 x0 a1 b1 a2 b2 (ix2 p q) = combine X0 X1 X2 B1 B2 (ix2 r q) := by
  rw [body_at, h0, h1, h2, h3, h4]
  rfl

/-- Row p, lane q of the first row-blocked input's block at point t is row 5000·t + p, lane q of its array. -/
theorem rows0_at (c : Dev nD) (t : Fin cfg3.N) (p : Fin 5000) (q : Fin 128) (r : Fin 50000)
    (hr : r.val = t.val * 5000 + p.val) :
    (iblk3 (F := Ideal) V c 0 t : Vec Ideal S5000x128 .f32) (ix2 p q)
      = (V c (Pipeline.arrRef spec3 0) : S50000x128.Idx → EReal) (ix2 r q) := by
  obtain ⟨-, -, h00, h01, h10, h11, h20, h21, -⟩ := index_facts t
  unfold iblk3
  rw [View.read_apply]
  show V c (Pipeline.arrRef spec3 0) (((cfg3.win 0).blk t).view.emb (ix2 p q)) = _
  congr 1
  funext a
  apply Fin.ext
  match a with
  | ⟨0, _⟩ => show win3_0.index t (0 : Fin 2) * 5000 + 1 * p.val = r.val; rw [h00, hr]; omega
  | ⟨1, _⟩ => show win3_0.index t (1 : Fin 2) * 128 + 1 * q.val = q.val; rw [h01]; omega

/-- Row p, lane q of the second row-blocked input's block at point t is row 5000·t + p, lane q of its array. -/
theorem rows1_at (c : Dev nD) (t : Fin cfg3.N) (p : Fin 5000) (q : Fin 128) (r : Fin 50000)
    (hr : r.val = t.val * 5000 + p.val) :
    (iblk3 (F := Ideal) V c 1 t : Vec Ideal S5000x128 .f32) (ix2 p q)
      = (V c (Pipeline.arrRef spec3 1) : S50000x128.Idx → EReal) (ix2 r q) := by
  obtain ⟨-, -, h00, h01, h10, h11, h20, h21, -⟩ := index_facts t
  unfold iblk3
  rw [View.read_apply]
  show V c (Pipeline.arrRef spec3 1) (((cfg3.win 1).blk t).view.emb (ix2 p q)) = _
  congr 1
  funext a
  apply Fin.ext
  match a with
  | ⟨0, _⟩ => show win3_1.index t (0 : Fin 2) * 5000 + 1 * p.val = r.val; rw [h10, hr]; omega
  | ⟨1, _⟩ => show win3_1.index t (1 : Fin 2) * 128 + 1 * q.val = q.val; rw [h11]; omega

/-- Row p, lane q of the third row-blocked input's block at point t is row 5000·t + p, lane q of its array. -/
theorem rows2_at (c : Dev nD) (t : Fin cfg3.N) (p : Fin 5000) (q : Fin 128) (r : Fin 50000)
    (hr : r.val = t.val * 5000 + p.val) :
    (iblk3 (F := Ideal) V c 2 t : Vec Ideal S5000x128 .f32) (ix2 p q)
      = (V c (Pipeline.arrRef spec3 2) : S50000x128.Idx → EReal) (ix2 r q) := by
  obtain ⟨-, -, h00, h01, h10, h11, h20, h21, -⟩ := index_facts t
  unfold iblk3
  rw [View.read_apply]
  show V c (Pipeline.arrRef spec3 2) (((cfg3.win 2).blk t).view.emb (ix2 p q)) = _
  congr 1
  funext a
  apply Fin.ext
  match a with
  | ⟨0, _⟩ => show win3_2.index t (0 : Fin 2) * 5000 + 1 * p.val = r.val; rw [h20, hr]; omega
  | ⟨1, _⟩ => show win3_2.index t (1 : Fin 2) * 128 + 1 * q.val = q.val; rw [h21]; omega

/-- Lane q of the first bias row's block, at any point, is lane q of the row itself. -/
theorem bias3_at (c : Dev nD) (t : Fin cfg3.N) (q : Fin 128) :
    (iblk3 (F := Ideal) V c 3 t : Vec Ideal S1x128 .f32) (ix2 0 q)
      = (V c (Pipeline.arrRef spec3 3) : S1x128.Idx → EReal) (ix2 0 q) := by
  obtain ⟨-, -, -, -, -, -, -, -, h30, h31, h40, h41⟩ := index_facts t
  unfold iblk3
  rw [View.read_apply]
  show V c (Pipeline.arrRef spec3 3) (((cfg3.win 3).blk t).view.emb (ix2 0 q)) = _
  congr 1
  funext a
  apply Fin.ext
  match a with
  | ⟨0, _⟩ => show win3_3.index t (0 : Fin 2) * 1 + 1 * (0 : Fin 1).val = (0 : Fin 1).val; rw [h30]; rfl
  | ⟨1, _⟩ => show win3_3.index t (1 : Fin 2) * 128 + 1 * q.val = q.val; rw [h31]; omega

/-- Lane q of the second bias row's block, at any point, is lane q of the row itself. -/
theorem bias4_at (c : Dev nD) (t : Fin cfg3.N) (q : Fin 128) :
    (iblk3 (F := Ideal) V c 4 t : Vec Ideal S1x128 .f32) (ix2 0 q)
      = (V c (Pipeline.arrRef spec3 4) : S1x128.Idx → EReal) (ix2 0 q) := by
  obtain ⟨-, -, -, -, -, -, -, -, h30, h31, h40, h41⟩ := index_facts t
  unfold iblk3
  rw [View.read_apply]
  show V c (Pipeline.arrRef spec3 4) (((cfg3.win 4).blk t).view.emb (ix2 0 q)) = _
  congr 1
  funext a
  apply Fin.ext
  match a with
  | ⟨0, _⟩ => show win3_4.index t (0 : Fin 2) * 1 + 1 * (0 : Fin 1).val = (0 : Fin 1).val; rw [h40]; rfl
  | ⟨1, _⟩ => show win3_4.index t (1 : Fin 2) * 128 + 1 * q.val = q.val; rw [h41]; omega

/-- Row p, lane q of the output's block at point t sits at row 5000·t + p, lane q of the array. -/
theorem out_at (t : Fin cfg3.N) (p : Fin 5000) (q : Fin 128) (r : Fin 50000) (hr : r.val = t.val * 5000 + p.val) :
    @Eq S50000x128.Idx (((cfg3.win 5).blk t).view.emb (ix2 p q)) (ix2 r q) := by
  obtain ⟨e0, e1, -⟩ := index_facts t
  funext a
  apply Fin.ext
  match a with
  | ⟨0, _⟩ => show win3_5.index t (0 : Fin 2) * 5000 + 1 * p.val = r.val; rw [e0, hr]; omega
  | ⟨1, _⟩ => show win3_5.index t (1 : Fin 2) * 128 + 1 * q.val = q.val; rw [e1]; omega

set_option maxHeartbeats 1000000 in
/-- What point t writes back is block t of the five-summand function of the whole arrays. -/
theorem written_block (c : Dev nD) (t : Fin cfg3.N) :
    (dat3 (F := Ideal) V c).flushed 5 t = ((cfg3.win 5).blk t).view.read (Elt Ideal)
      (combine (V c (Pipeline.arrRef spec3 0)) (V c (Pipeline.arrRef spec3 1)) (V c (Pipeline.arrRef spec3 2))
          (V c (Pipeline.arrRef spec3 3)) (V c (Pipeline.arrRef spec3 4))) := by
  show (cfg3.win 5).cut (grid3.coords t) ((dat3 V c).after 5 t) = _
  rw [after3_5]
  unfold out3_5
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  have hN : cfg3.N = 10 := N_3
  have hlt : t.val * 5000 + p.val < 50000 := by have := t.isLt; have := p.isLt; omega
  show k3_pay1 (iblk3 V c 0 t) (iblk3 V c 1 t) (iblk3 V c 3 t) (iblk3 V c 2 t) (iblk3 V c 4 t) (ix2 p q)
    = combine (V c (Pipeline.arrRef spec3 0)) (V c (Pipeline.arrRef spec3 1)) (V c (Pipeline.arrRef spec3 2))
          (V c (Pipeline.arrRef spec3 3)) (V c (Pipeline.arrRef spec3 4)) (((cfg3.win 5).blk t).view.emb (ix2 p q))
  rw [out_at t p q ⟨_, hlt⟩ rfl]
  have r0 := rows0_at V c t p q ⟨_, hlt⟩ rfl
  have r1 := rows1_at V c t p q ⟨_, hlt⟩ rfl
  have r2 := rows2_at V c t p q ⟨_, hlt⟩ rfl
  have b3 := bias3_at V c t q
  have b4 := bias4_at V c t q
  exact body_eq _ _ _ _ _ p q _ _ _ _ _ _ r0 r1 r2 b3 b4

/-- An index of the array lies in point t's block exactly when each coordinate lies in the block's range. -/
theorem mem_block (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v72).slice (win3_5.rect t)).set ↔ _
  rw [View.set_slice_whole, Rect.mem_set_unit]
  exact Iff.rfl

/-- The ten row blocks tile the rows: row r lies in the block of point r / 5000. -/
theorem rows_covered (i : S50000x128.Idx) :
    ∃ t : Fin cfg3.N, (cfg3.win 5).flush t = true ∧ i ∈ ((cfg3.win 5).blk t).view.set := by
  have hN : cfg3.N = 10 := N_3
  have hi0 : (i 0).val < 50000 := idx2_lt0 i
  have hi1 : (i 1).val < 128 := idx2_lt1 i
  obtain ⟨t, ht⟩ : ∃ t : Fin cfg3.N, t.val = (i 0).val / 5000 := ⟨⟨(i 0).val / 5000, by rw [hN]; omega⟩, rfl⟩
  refine ⟨t, flush3_5 t, ?_⟩
  rw [mem_block]
  obtain ⟨e0, e1, -⟩ := index_facts t
  intro a
  match a with
  | ⟨0, _⟩ =>
    show win3_5.index t (0 : Fin 2) * 5000 ≤ (i 0).val ∧ (i 0).val < win3_5.index t (0 : Fin 2) * 5000 + 5000
    rw [e0, ht]; omega
  | ⟨1, _⟩ =>
    show win3_5.index t (1 : Fin 2) * 128 ≤ (i 1).val ∧ (i 1).val < win3_5.index t (1 : Fin 2) * 128 + 128
    rw [e1]; omega

end RegC3

/-- The output array after the region: every row is written by the one point whose block holds it. -/
theorem regC3_out5 (c : Dev nD) :
    (dat3 (F := Ideal) V c).arrAt 5 cfg3.N
      = combine (V c (Pipeline.arrRef spec3 0)) (V c (Pipeline.arrRef spec3 1)) (V c (Pipeline.arrRef spec3 2))
          (V c (Pipeline.arrRef spec3 3)) (V c (Pipeline.arrRef spec3 4)) :=
  (dat3 (F := Ideal) V c).arrAt_eq_of_cover 5
    (combine (V c (Pipeline.arrRef spec3 0)) (V c (Pipeline.arrRef spec3 1)) (V c (Pipeline.arrRef spec3 2))
      (V c (Pipeline.arrRef spec3 3)) (V c (Pipeline.arrRef spec3 4)))
    (fun t _ => RegC3.written_block V c t) RegC3.rows_covered

end Cert.KernelIdeal.Val

end
-- ==== Proof.KLayer1.lean ====
/-
  Layer 1 of the kernel's program, read off its run.

  Its input array is the previous layer's output (the buffer the previous combine region wrote).  The weights and
  bias rows of the layer are cut out of the stacks by the host lines before the layer's first region; then as for
  the first layer: three dense maps, the two edge aggregations over the same index rows and edge weights, the
  combine.  The layer's output array is `Cert.Spec.layerLeft 1` of its input array and the launch arrays.
-/
import proofs.«430380_j24318104830208_1_alg».proof.Proof.Gen.KernelIdeal.Frame
import proofs.«430380_j24318104830208_1_alg».proof.Proof.KDefs
import proofs.«430380_j24318104830208_1_alg».proof.Proof.KCuts
import proofs.«430380_j24318104830208_1_alg».proof.Proof.KKeep1
import proofs.«430380_j24318104830208_1_alg».proof.Proof.KRegA2
import proofs.«430380_j24318104830208_1_alg».proof.Proof.KRegC3
import proofs.«430380_j24318104830208_1_alg».proof.Proof.KSlices
import Idealize.ShloMosaic.Lib.StableHlo.Run

set_option maxRecDepth 16384

noncomputable section

namespace Cert.KernelIdeal.Val

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg)

/-- Through the host lines before the layer's first region (one stretch from the previous region's exit). -/
local macro "lines_before" : tactic => `(tactic| (
  show StableHlo.after hostOps2 (W8 _ _ _) _ = _
  simp only [hostOps2]
  after_results_simp))

/-- Through the host lines between the layer's two regions (five stretches from the first region's exit). -/
local macro "lines_between" : tactic => `(tactic| (
  show StableHlo.after hostOps3_4 (StableHlo.after hostOps3_3 (StableHlo.after hostOps3_2 (StableHlo.after hostOps3_1 (StableHlo.after hostOps3 (W10 _ _ _))))) _ = _
  simp only [hostOps3_4, hostOps3_3, hostOps3_2, hostOps3_1, hostOps3]
  after_results_simp))

/-! ## The entry of the layer's first region -/

theorem W9_v41 (c : Dev nD) : W9 m ρ c (Proc.devRef .tc main_v41) = W8 m ρ c (Proc.devRef .tc main_v41) := by
  lines_before

theorem W9_v43 (c : Dev nD) : W9 m ρ c (Proc.devRef .tc main_v43)
    = weightOf ![1, 0, 0] slices_S3x128x128_S1x128x128_1_0_0 (m ((c : Thread nD τ).loc main_arg3)) := by
  lines_before
  rw [W8_v8 m ρ c]
  rfl

theorem W9_v48 (c : Dev nD) : W9 m ρ c (Proc.devRef .tc main_v48)
    = weightOf ![1, 0, 0] slices_S3x128x128_S1x128x128_1_0_0 (m ((c : Thread nD τ).loc main_arg5)) := by
  lines_before
  rw [W8_v9 m ρ c]
  rfl

theorem W9_v50 (c : Dev nD) : W9 m ρ c (Proc.devRef .tc main_v50)
    = weightOf ![1, 0, 0] slices_S3x128x128_S1x128x128_1_0_0 (m ((c : Thread nD τ).loc main_arg7)) := by
  lines_before
  rw [W8_v10 m ρ c]
  rfl

theorem W9_v46 (c : Dev nD) : W9 m ρ c (Proc.devRef .tc main_v46)
    = biasOf ![1, 0] slices_S3x128_S1x128_1_0 (m ((c : Thread nD τ).loc main_arg4)) := by
  lines_before
  rw [W8_arg4 m ρ c]
  rfl

/-! ## The first region's three outputs, and the buffers it leaves alone -/

theorem W10_v51_0 (c : Dev nD) : W10 m ρ c (Proc.devRef .tc main_v51_0)
    = fun i => Cert.Spec.dense 1 (W8 m ρ c (Proc.devRef .tc main_v41)) (m ((c : Thread nD τ).loc main_arg3)) i
        + Cert.Spec.biasRow 1 (m ((c : Thread nD τ).loc main_arg4)) i := by
  have e := (W10_arr m ρ c 5).trans (regA2_out5 (V9 m ρ) c)
  have e0 : V9 m ρ c (Pipeline.arrRef spec2 0) = W8 m ρ c (Proc.devRef .tc main_v41) := W9_v41 m ρ c
  have e1 : V9 m ρ c (Pipeline.arrRef spec2 1) = weightOf ![1, 0, 0] slices_S3x128x128_S1x128x128_1_0_0 (m ((c : Thread nD τ).loc main_arg3)) := W9_v43 m ρ c
  have e2 : V9 m ρ c (Pipeline.arrRef spec2 2) = biasOf ![1, 0] slices_S3x128_S1x128_1_0 (m ((c : Thread nD τ).loc main_arg4)) := W9_v46 m ρ c
  rw [e0, e1, e2] at e
  refine e.trans (funext fun i => ?_)
  exact congrArg₂ (· + ·) (congrFun (rowsTimes_weightOf 1 ![1, 0, 0] rfl _ _ _) i) (biasOf_row 1 ![1, 0] rfl _ _ i)

theorem W10_v51_1 (c : Dev nD) : W10 m ρ c (Proc.devRef .tc main_v51_1)
    = Cert.Spec.dense 1 (W8 m ρ c (Proc.devRef .tc main_v41)) (m ((c : Thread nD τ).loc main_arg5)) := by
  have e := (W10_arr m ρ c 6).trans (regA2_out6 (V9 m ρ) c)
  have e0 : V9 m ρ c (Pipeline.arrRef spec2 0) = W8 m ρ c (Proc.devRef .tc main_v41) := W9_v41 m ρ c
  have e3 : V9 m ρ c (Pipeline.arrRef spec2 3) = weightOf ![1, 0, 0] slices_S3x128x128_S1x128x128_1_0_0 (m ((c : Thread nD τ).loc main_arg5)) := W9_v48 m ρ c
  rw [e0, e3] at e
  exact e.trans (rowsTimes_weightOf 1 ![1, 0, 0] rfl _ _ _)

theorem W10_v51_2 (c : Dev nD) : W10 m ρ c (Proc.devRef .tc main_v51_2)
    = Cert.Spec.dense 1 (W8 m ρ c (Proc.devRef .tc main_v41)) (m ((c : Thread nD τ).loc main_arg7)) := by
  have e := (W10_arr m ρ c 7).trans (regA2_out7 (V9 m ρ) c)
  have e0 : V9 m ρ c (Pipeline.arrRef spec2 0) = W8 m ρ c (Proc.devRef .tc main_v41) := W9_v41 m ρ c
  have e4 : V9 m ρ c (Pipeline.arrRef spec2 4) = weightOf ![1, 0, 0] slices_S3x128x128_S1x128x128_1_0_0 (m ((c : Thread nD τ).loc main_arg7)) := W9_v50 m ρ c
  rw [e0, e4] at e
  exact e.trans (rowsTimes_weightOf 1 ![1, 0, 0] rfl _ _ _)

theorem W10_arg1 (c : Dev nD) : W10 m ρ c (Proc.devRef .tc main_arg1) = (m ((c : Thread nD τ).loc main_arg1)) :=
  (W10_of_ne m ρ c main_arg1 (by decide)).trans (((by lines_before) : W9 m ρ c (Proc.devRef .tc main_arg1) = W8 m ρ c (Proc.devRef .tc main_arg1)).trans (W8_arg1 m ρ c))
theorem W10_arg2 (c : Dev nD) : W10 m ρ c (Proc.devRef .tc main_arg2) = (m ((c : Thread nD τ).loc main_arg2)) :=
  (W10_of_ne m ρ c main_arg2 (by decide)).trans (((by lines_before) : W9 m ρ c (Proc.devRef .tc main_arg2) = W8 m ρ c (Proc.devRef .tc main_arg2)).trans (W8_arg2 m ρ c))
theorem W10_arg6 (c : Dev nD) : W10 m ρ c (Proc.devRef .tc main_arg6) = (m ((c : Thread nD τ).loc main_arg6)) :=
  (W10_of_ne m ρ c main_arg6 (by decide)).trans (((by lines_before) : W9 m ρ c (Proc.devRef .tc main_arg6) = W8 m ρ c (Proc.devRef .tc main_arg6)).trans (W8_arg6 m ρ c))
theorem W10_arg8 (c : Dev nD) : W10 m ρ c (Proc.devRef .tc main_arg8) = (m ((c : Thread nD τ).loc main_arg8)) :=
  (W10_of_ne m ρ c main_arg8 (by decide)).trans (((by lines_before) : W9 m ρ c (Proc.devRef .tc main_arg8) = W8 m ρ c (Proc.devRef .tc main_arg8)).trans (W8_arg8 m ρ c))
theorem W10_v1 (c : Dev nD) : W10 m ρ c (Proc.devRef .tc main_v1) = edgeRow ![0, 0] slices_S2x500000_S1x500000_0_0 (m ((c : Thread nD τ).loc main_arg9)) :=
  (W10_of_ne m ρ c main_v1 (by decide)).trans (((by lines_before) : W9 m ρ c (Proc.devRef .tc main_v1) = W8 m ρ c (Proc.devRef .tc main_v1)).trans (W8_v1 m ρ c))
theorem W10_v3 (c : Dev nD) : W10 m ρ c (Proc.devRef .tc main_v3) = edgeRow ![1, 0] slices_S2x500000_S1x500000_1_0 (m ((c : Thread nD τ).loc main_arg9)) :=
  (W10_of_ne m ρ c main_v3 (by decide)).trans (((by lines_before) : W9 m ρ c (Proc.devRef .tc main_v3) = W8 m ρ c (Proc.devRef .tc main_v3)).trans (W8_v3 m ρ c))
theorem W10_v5 (c : Dev nD) : W10 m ρ c (Proc.devRef .tc main_v5) = edgeRow ![0, 0] slices_S2x500000_S1x500000_0_0 (m ((c : Thread nD τ).loc main_arg10)) :=
  (W10_of_ne m ρ c main_v5 (by decide)).trans (((by lines_before) : W9 m ρ c (Proc.devRef .tc main_v5) = W8 m ρ c (Proc.devRef .tc main_v5)).trans (W8_v5 m ρ c))
theorem W10_v7 (c : Dev nD) : W10 m ρ c (Proc.devRef .tc main_v7) = edgeRow ![1, 0] slices_S2x500000_S1x500000_1_0 (m ((c : Thread nD τ).loc main_arg10)) :=
  (W10_of_ne m ρ c main_v7 (by decide)).trans (((by lines_before) : W9 m ρ c (Proc.devRef .tc main_v7) = W8 m ρ c (Proc.devRef .tc main_v7)).trans (W8_v7 m ρ c))

/-! ## The entry of the layer's second region: the host lines between the regions -/

theorem W15_v51_0 (c : Dev nD) : W15 m ρ c (Proc.devRef .tc main_v51_0) = W10 m ρ c (Proc.devRef .tc main_v51_0) := by
  lines_between

theorem W15_v58 (c : Dev nD) : W15 m ρ c (Proc.devRef .tc main_v58)
    = aggTake (F := Ideal) (W10 m ρ c (Proc.devRef .tc main_v1)) (W10 m ρ c (Proc.devRef .tc main_v3))
        (W10 m ρ c (Proc.devRef .tc main_arg1)) (W10 m ρ c (Proc.devRef .tc main_v51_1)) := by
  lines_between
  simp only [TRef.toBuf, TRef.ofBuf, cast_cast, cast_eq]
  rfl

theorem W15_v65 (c : Dev nD) : W15 m ρ c (Proc.devRef .tc main_v65)
    = aggTake (F := Ideal) (W10 m ρ c (Proc.devRef .tc main_v5)) (W10 m ρ c (Proc.devRef .tc main_v7))
        (W10 m ρ c (Proc.devRef .tc main_arg2)) (W10 m ρ c (Proc.devRef .tc main_v51_2)) := by
  lines_between
  simp only [TRef.toBuf, TRef.ofBuf, cast_cast, cast_eq]
  rfl

theorem W15_v68 (c : Dev nD) : W15 m ρ c (Proc.devRef .tc main_v68)
    = biasOf ![1, 0] slices_S3x128_S1x128_1_0 (W10 m ρ c (Proc.devRef .tc main_arg6)) := by
  lines_between
  rfl

theorem W15_v71 (c : Dev nD) : W15 m ρ c (Proc.devRef .tc main_v71)
    = biasOf ![1, 0] slices_S3x128_S1x128_1_0 (W10 m ρ c (Proc.devRef .tc main_arg8)) := by
  lines_between
  rfl

/-! ## The layer -/

/-- The array the layer's second region leaves in its output buffer is the layer's function of its input array and the
    launch arrays, the aggregations as the program writes them (through jnp.take). -/
theorem layer1 (c : Dev nD) : W16 m ρ c (Proc.devRef .tc main_v72)
    = Cert.Spec.layerLeft 1
        (aggTake (F := Ideal) (edgeRow ![0, 0] slices_S2x500000_S1x500000_0_0 (m ((c : Thread nD τ).loc main_arg9)))
          (edgeRow ![1, 0] slices_S2x500000_S1x500000_1_0 (m ((c : Thread nD τ).loc main_arg9))) (m ((c : Thread nD τ).loc main_arg1)))
        (aggTake (F := Ideal) (edgeRow ![0, 0] slices_S2x500000_S1x500000_0_0 (m ((c : Thread nD τ).loc main_arg10)))
          (edgeRow ![1, 0] slices_S2x500000_S1x500000_1_0 (m ((c : Thread nD τ).loc main_arg10))) (m ((c : Thread nD τ).loc main_arg2)))
        (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
        (W8 m ρ c (Proc.devRef .tc main_v41)) := by
  have e := (W16_arr m ρ c 5).trans (regC3_out5 (V15 m ρ) c)
  have e0 : V15 m ρ c (Pipeline.arrRef spec3 0) = _ := (W15_v51_0 m ρ c).trans (W10_v51_0 m ρ c)
  have e1 : V15 m ρ c (Pipeline.arrRef spec3 1) = _ := W15_v58 m ρ c
  have e2 : V15 m ρ c (Pipeline.arrRef spec3 2) = _ := W15_v65 m ρ c
  have e3 : V15 m ρ c (Pipeline.arrRef spec3 3) = _ := W15_v68 m ρ c
  have e4 : V15 m ρ c (Pipeline.arrRef spec3 4) = _ := W15_v71 m ρ c
  rw [e0, e1, e2, e3, e4, W10_v1, W10_v3, W10_v5, W10_v7, W10_arg1, W10_arg2, W10_arg6, W10_arg8, W10_v51_1, W10_v51_2] at e
  refine e.trans (funext fun i => ?_)
  unfold combine Cert.Spec.layerLeft
  exact congrArg₂ (· + ·) (congrArg₂ (· + ·) (congrArg₂ (· + ·) rfl (biasOf_row 1 ![1, 0] rfl _ _ i)) rfl) (biasOf_row 1 ![1, 0] rfl _ _ i)

end Cert.KernelIdeal.Val

end
-- ==== Proof.KKeep2.lean ====
/-
  The buffers that outlive the second layer of the kernel's program: the same weight stacks, index rows and argument
  arrays as after the first layer.  No region of the second layer and no host line of it writes them, so each holds at
  the second layer's end (region 3's exit) what it held at the first layer's end.
-/
import proofs.«430380_j24318104830208_1_alg».proof.Proof.Gen.KernelIdeal.Frame
import proofs.«430380_j24318104830208_1_alg».proof.Proof.KCuts
import proofs.«430380_j24318104830208_1_alg».proof.Proof.KKeep1
import proofs.«430380_j24318104830208_1_alg».proof.Proof.KLayer1
import Idealize.ShloMosaic.Lib.StableHlo.Run

set_option maxRecDepth 16384

noncomputable section

namespace Cert.KernelIdeal.Val

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg)

/-- Through the host lines between regions 1 and 2 (one stretch from region 1's exit). -/
local macro "lines_1_2" : tactic => `(tactic| (
  show StableHlo.after hostOps2 (W8 _ _ _) _ = _
  simp only [hostOps2]
  after_results_simp))

/-- Through the host lines between regions 2 and 3 (five stretches from region 2's exit). -/
local macro "lines_2_3" : tactic => `(tactic| (
  show StableHlo.after hostOps3_4 (StableHlo.after hostOps3_3 (StableHlo.after hostOps3_2 (StableHlo.after hostOps3_1 (StableHlo.after hostOps3 (W10 _ _ _))))) _ = _
  simp only [hostOps3_4, hostOps3_3, hostOps3_2, hostOps3_1, hostOps3]
  after_results_simp))

/-! ## At region 2's exit: the four that layer 1 itself did not need there -/

theorem W10_v8 (c : Dev nD) : W10 m ρ c (Proc.devRef .tc main_v8) = (truncf .bf16 (m ((c : Thread nD τ).loc main_arg3)) bitsLt_bf16_f32 : FVec Ideal S3x128x128 .bf16) :=
  (W10_of_ne m ρ c main_v8 (by decide)).trans (((by lines_1_2) : W9 m ρ c (Proc.devRef .tc main_v8) = W8 m ρ c (Proc.devRef .tc main_v8)).trans (W8_v8 m ρ c))
theorem W10_v9 (c : Dev nD) : W10 m ρ c (Proc.devRef .tc main_v9) = (truncf .bf16 (m ((c : Thread nD τ).loc main_arg5)) bitsLt_bf16_f32 : FVec Ideal S3x128x128 .bf16) :=
  (W10_of_ne m ρ c main_v9 (by decide)).trans (((by lines_1_2) : W9 m ρ c (Proc.devRef .tc main_v9) = W8 m ρ c (Proc.devRef .tc main_v9)).trans (W8_v9 m ρ c))
theorem W10_v10 (c : Dev nD) : W10 m ρ c (Proc.devRef .tc main_v10) = (truncf .bf16 (m ((c : Thread nD τ).loc main_arg7)) bitsLt_bf16_f32 : FVec Ideal S3x128x128 .bf16) :=
  (W10_of_ne m ρ c main_v10 (by decide)).trans (((by lines_1_2) : W9 m ρ c (Proc.devRef .tc main_v10) = W8 m ρ c (Proc.devRef .tc main_v10)).trans (W8_v10 m ρ c))
theorem W10_arg4 (c : Dev nD) : W10 m ρ c (Proc.devRef .tc main_arg4) = (m ((c : Thread nD τ).loc main_arg4)) :=
  (W10_of_ne m ρ c main_arg4 (by decide)).trans (((by lines_1_2) : W9 m ρ c (Proc.devRef .tc main_arg4) = W8 m ρ c (Proc.devRef .tc main_arg4)).trans (W8_arg4 m ρ c))

/-! ## At region 3's exit -/

theorem W16_v8 (c : Dev nD) : W16 m ρ c (Proc.devRef .tc main_v8) = (truncf .bf16 (m ((c : Thread nD τ).loc main_arg3)) bitsLt_bf16_f32 : FVec Ideal S3x128x128 .bf16) :=
  (W16_of_ne m ρ c main_v8 (by decide)).trans (((by lines_2_3) : W15 m ρ c (Proc.devRef .tc main_v8) = W10 m ρ c (Proc.devRef .tc main_v8)).trans (W10_v8 m ρ c))
theorem W16_v9 (c : Dev nD) : W16 m ρ c (Proc.devRef .tc main_v9) = (truncf .bf16 (m ((c : Thread nD τ).loc main_arg5)) bitsLt_bf16_f32 : FVec Ideal S3x128x128 .bf16) :=
  (W16_of_ne m ρ c main_v9 (by decide)).trans (((by lines_2_3) : W15 m ρ c (Proc.devRef .tc main_v9) = W10 m ρ c (Proc.devRef .tc main_v9)).trans (W10_v9 m ρ c))
theorem W16_v10 (c : Dev nD) : W16 m ρ c (Proc.devRef .tc main_v10) = (truncf .bf16 (m ((c : Thread nD τ).loc main_arg7)) bitsLt_bf16_f32 : FVec Ideal S3x128x128 .bf16) :=
  (W16_of_ne m ρ c main_v10 (by decide)).trans (((by lines_2_3) : W15 m ρ c (Proc.devRef .tc main_v10) = W10 m ρ c (Proc.devRef .tc main_v10)).trans (W10_v10 m ρ c))
theorem W16_arg1 (c : Dev nD) : W16 m ρ c (Proc.devRef .tc main_arg1) = (m ((c : Thread nD τ).loc main_arg1)) :=
  (W16_of_ne m ρ c main_arg1 (by decide)).trans (((by lines_2_3) : W15 m ρ c (Proc.devRef .tc main_arg1) = W10 m ρ c (Proc.devRef .tc main_arg1)).trans (W10_arg1 m ρ c))
theorem W16_arg2 (c : Dev nD) : W16 m ρ c (Proc.devRef .tc main_arg2) = (m ((c : Thread nD τ).loc main_arg2)) :=
  (W16_of_ne m ρ c main_arg2 (by decide)).trans (((by lines_2_3) : W15 m ρ c (Proc.devRef .tc main_arg2) = W10 m ρ c (Proc.devRef .tc main_arg2)).trans (W10_arg2 m ρ c))
theorem W16_arg4 (c : Dev nD) : W16 m ρ c (Proc.devRef .tc main_arg4) = (m ((c : Thread nD τ).loc main_arg4)) :=
  (W16_of_ne m ρ c main_arg4 (by decide)).trans (((by lines_2_3) : W15 m ρ c (Proc.devRef .tc main_arg4) = W10 m ρ c (Proc.devRef .tc main_arg4)).trans (W10_arg4 m ρ c))
theorem W16_arg6 (c : Dev nD) : W16 m ρ c (Proc.devRef .tc main_arg6) = (m ((c : Thread nD τ).loc main_arg6)) :=
  (W16_of_ne m ρ c main_arg6 (by decide)).trans (((by lines_2_3) : W15 m ρ c (Proc.devRef .tc main_arg6) = W10 m ρ c (Proc.devRef .tc main_arg6)).trans (W10_arg6 m ρ c))
theorem W16_arg8 (c : Dev nD) : W16 m ρ c (Proc.devRef .tc main_arg8) = (m ((c : Thread nD τ).loc main_arg8)) :=
  (W16_of_ne m ρ c main_arg8 (by decide)).trans (((by lines_2_3) : W15 m ρ c (Proc.devRef .tc main_arg8) = W10 m ρ c (Proc.devRef .tc main_arg8)).trans (W10_arg8 m ρ c))
theorem W16_v1 (c : Dev nD) : W16 m ρ c (Proc.devRef .tc main_v1) = edgeRow ![0, 0] slices_S2x500000_S1x500000_0_0 (m ((c : Thread nD τ).loc main_arg9)) :=
  (W16_of_ne m ρ c main_v1 (by decide)).trans (((by lines_2_3) : W15 m ρ c (Proc.devRef .tc main_v1) = W10 m ρ c (Proc.devRef .tc main_v1)).trans (W10_v1 m ρ c))
theorem W16_v3 (c : Dev nD) : W16 m ρ c (Proc.devRef .tc main_v3) = edgeRow ![1, 0] slices_S2x500000_S1x500000_1_0 (m ((c : Thread nD τ).loc main_arg9)) :=
  (W16_of_ne m ρ c main_v3 (by decide)).trans (((by lines_2_3) : W15 m ρ c (Proc.devRef .tc main_v3) = W10 m ρ c (Proc.devRef .tc main_v3)).trans (W10_v3 m ρ c))
theorem W16_v5 (c : Dev nD) : W16 m ρ c (Proc.devRef .tc main_v5) = edgeRow ![0, 0] slices_S2x500000_S1x500000_0_0 (m ((c : Thread nD τ).loc main_arg10)) :=
  (W16_of_ne m ρ c main_v5 (by decide)).trans (((by lines_2_3) : W15 m ρ c (Proc.devRef .tc main_v5) = W10 m ρ c (Proc.devRef .tc main_v5)).trans (W10_v5 m ρ c))
theorem W16_v7 (c : Dev nD) : W16 m ρ c (Proc.devRef .tc main_v7) = edgeRow ![1, 0] slices_S2x500000_S1x500000_1_0 (m ((c : Thread nD τ).loc main_arg10)) :=
  (W16_of_ne m ρ c main_v7 (by decide)).trans (((by lines_2_3) : W15 m ρ c (Proc.devRef .tc main_v7) = W10 m ρ c (Proc.devRef .tc main_v7)).trans (W10_v7 m ρ c))

end Cert.KernelIdeal.Val

end
-- ==== Proof.KRegA4.lean ====
/-
  Region 4 (the third layer's three dense maps), whatever the buffers hold when it is entered.

  The same body as the first layer's on the same grid: grid point t stages rows 5000·t … 5000·t + 4999 of the
  layer's input array and the whole of each 128×128 weight and of the 1×128 bias row, and writes, for each staged
  row r and column q,
      Σ_k x[r, k] · W[k, q]   (+ b[0, q] for the first output).
  The ten row blocks tile the 50000 rows, so each output array ends as that function of the whole arrays.
-/
import proofs.«430380_j24318104830208_1_alg».proof.Proof.KRegA0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

/-! # The region's own facts: stored values, staged blocks, write-backs, the tiling -/

namespace RegA4

/-! ## What the body stores, at row p and column q of the staged block -/

/-- The first output's stored value: the row of x against the column of w, plus the bias row's entry. -/
theorem pay_bias_at (x : Vec Ideal S5000x128 .f32) (w : Vec Ideal S128x128 .bf16) (b : Vec Ideal S1x128 .f32)
    (p : Fin 5000) (q : Fin 128) :
    k4_pay2 (F := Ideal) x w b (ix2 p q) = (∑ k : Fin 128, x (ix2 p k) * w (ix2 k q)) + b (ix2 (0 : Fin 1) q) := by
  unfold k4_pay2 k4_pay1
  simp only [shapeCast_self]
  rw [addf_apply, matmul_zero_at, broadcastTo_1b_ab_apply]
  simp only [truncf_apply]

/-- The second output's stored value: the row of x against the column of w. -/
theorem pay_plain3_at (x : Vec Ideal S5000x128 .f32) (w : Vec Ideal S128x128 .bf16) (p : Fin 5000) (q : Fin 128) :
    k4_pay3 (F := Ideal) x w (ix2 p q) = ∑ k : Fin 128, x (ix2 p k) * w (ix2 k q) := by
  unfold k4_pay3 k4_pay1
  simp only [shapeCast_self]
  rw [matmul_zero_at]
  simp only [truncf_apply]

/-- The third output's stored value: the same with its own weight. -/
theorem pay_plain4_at (x : Vec Ideal S5000x128 .f32) (w : Vec Ideal S128x128 .bf16) (p : Fin 5000) (q : Fin 128) :
    k4_pay4 (F := Ideal) x w (ix2 p q) = ∑ k : Fin 128, x (ix2 p k) * w (ix2 k q) := by
  unfold k4_pay4 k4_pay1
  simp only [shapeCast_self]
  rw [matmul_zero_at]
  simp only [truncf_apply]

/-! ## The grid's index maps, decided once -/

/-- Point t stages row block t of the features and of each output, and block (0, 0) of each weight and of the bias. -/
theorem point_blocks : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0 :=
  (by decide +kernel : ∀ t : Fin grid4.N, _)

/-! ## The region's arrays as it finds them -/

/-- The feature array. -/
abbrev featArr (c : Dev nD) : S50000x128.Idx → EReal := V c (Pipeline.arrRef spec4 0)
/-- The first weight. -/
abbrev wt1Arr (c : Dev nD) : S128x128.Idx → EReal := V c (Pipeline.arrRef spec4 1)
/-- The bias row. -/
abbrev biasArr (c : Dev nD) : S1x128.Idx → EReal := V c (Pipeline.arrRef spec4 2)
/-- The second weight. -/
abbrev wt3Arr (c : Dev nD) : S128x128.Idx → EReal := V c (Pipeline.arrRef spec4 3)
/-- The third weight. -/
abbrev wt4Arr (c : Dev nD) : S128x128.Idx → EReal := V c (Pipeline.arrRef spec4 4)

/-! ## Each staged input block, read off its array -/

/-- The feature block at point t is rows 5000·t … 5000·t + 4999 of the feature array. -/
theorem feat_blk_at (c : Dev nD) (t : Fin cfg4.N) (y : S5000x128.Idx) (i : S50000x128.Idx)
    (h0 : (i 0).val = t.val * 5000 + (y 0).val) (h1 : (i 1).val = (y 1).val) :
    (iblk4 V c 0 t : Vec Ideal S5000x128 .f32) y = featArr V c i := by
  obtain ⟨e0, e1, -⟩ := point_blocks t
  unfold iblk4
  rw [View.read_apply]
  show featArr V c (((cfg4.win 0).blk t).view.emb y) = _
  refine congrArg _ (funext fun a => Fin.ext ?_)
  match a with
  | ⟨0, _⟩ => show win4_0.index t (0 : Fin 2) * 5000 + 1 * (y 0).val = (i 0).val; omega
  | ⟨1, _⟩ => show win4_0.index t (1 : Fin 2) * 128 + 1 * (y 1).val = (i 1).val; omega

/-- The first weight's block is the whole weight. -/
theorem wt1_blk_at (c : Dev nD) (t : Fin cfg4.N) (y i : S128x128.Idx)
    (h0 : (i 0).val = (y 0).val) (h1 : (i 1).val = (y 1).val) :
    (iblk4 V c 1 t : Vec Ideal S128x128 .bf16) y = wt1Arr V c i := by
  obtain ⟨-, -, e0, e1, -⟩ := point_blocks t
  unfold iblk4
  rw [View.read_apply]
  show wt1Arr V c (((cfg4.win 1).blk t).view.emb y) = _
  refine congrArg _ (funext fun a => Fin.ext ?_)
  match a with
  | ⟨0, _⟩ => show win4_1.index t (0 : Fin 2) * 128 + 1 * (y 0).val = (i 0).val; omega
  | ⟨1, _⟩ => show win4_1.index t (1 : Fin 2) * 128 + 1 * (y 1).val = (i 1).val; omega

/-- The bias block is the whole bias row. -/
theorem bias_blk_at (c : Dev nD) (t : Fin cfg4.N) (y i : S1x128.Idx)
    (h0 : (i 0).val = (y 0).val) (h1 : (i 1).val = (y 1).val) :
    (iblk4 V c 2 t : Vec Ideal S1x128 .f32) y = biasArr V c i := by
  obtain ⟨-, -, -, -, e0, e1, -⟩ := point_blocks t
  unfold iblk4
  rw [View.read_apply]
  show biasArr V c (((cfg4.win 2).blk t).view.emb y) = _
  refine congrArg _ (funext fun a => Fin.ext ?_)
  match a with
  | ⟨0, _⟩ => show win4_2.index t (0 : Fin 2) * 1 + 1 * (y 0).val = (i 0).val; omega
  | ⟨1, _⟩ => show win4_2.index t (1 : Fin 2) * 128 + 1 * (y 1).val = (i 1).val; omega

/-- The second weight's block is the whole weight. -/
theorem wt3_blk_at (c : Dev nD) (t : Fin cfg4.N) (y i : S128x128.Idx)
    (h0 : (i 0).val = (y 0).val) (h1 : (i 1).val = (y 1).val) :
    (iblk4 V c 3 t : Vec Ideal S128x128 .bf16) y = wt3Arr V c i := by
  obtain ⟨-, -, -, -, -, -, e0, e1, -⟩ := point_blocks t
  unfold iblk4
  rw [View.read_apply]
  show wt3Arr V c (((cfg4.win 3).blk t).view.emb y) = _
  refine congrArg _ (funext fun a => Fin.ext ?_)
  match a with
  | ⟨0, _⟩ => show win4_3.index t (0 : Fin 2) * 128 + 1 * (y 0).val = (i 0).val; omega
  | ⟨1, _⟩ => show win4_3.index t (1 : Fin 2) * 128 + 1 * (y 1).val = (i 1).val; omega

/-- The third weight's block is the whole weight. -/
theorem wt4_blk_at (c : Dev nD) (t : Fin cfg4.N) (y i : S128x128.Idx)
    (h0 : (i 0).val = (y 0).val) (h1 : (i 1).val = (y 1).val) :
    (iblk4 V c 4 t : Vec Ideal S128x128 .bf16) y = wt4Arr V c i := by
  obtain ⟨-, -, -, -, -, -, -, -, e0, e1, -⟩ := point_blocks t
  unfold iblk4
  rw [View.read_apply]
  show wt4Arr V c (((cfg4.win 4).blk t).view.emb y) = _
  refine congrArg _ (funext fun a => Fin.ext ?_)
  match a with
  | ⟨0, _⟩ => show win4_4.index t (0 : Fin 2) * 128 + 1 * (y 0).val = (i 0).val; omega
  | ⟨1, _⟩ => show win4_4.index t (1 : Fin 2) * 128 + 1 * (y 1).val = (i 1).val; omega

/-! ## The first output -/

/-- Where point t's block of the first output sits in its array: rows from 5000·t, all the columns. -/
theorem out5_emb (t : Fin cfg4.N) (p : Fin 5000) (q : Fin 128) :
    ((((cfg4.win 5).blk t).view.emb (ix2 p q) : S50000x128.Idx) 0).val = t.val * 5000 + p.val
    ∧ ((((cfg4.win 5).blk t).view.emb (ix2 p q) : S50000x128.Idx) 1).val = q.val := by
  have e := point_blocks t
  constructor
  · show win4_5.index t (0 : Fin 2) * 5000 + 1 * p.val = _; omega
  · show win4_5.index t (1 : Fin 2) * 128 + 1 * q.val = _; omega

/-- What point t writes back to the first output is its block of the whole-array function. -/
theorem flushed5_eq (c : Dev nD) (t : Fin cfg4.N) :
    (dat4 (F := Ideal) V c).flushed 5 t = ((cfg4.win 5).blk t).view.read (Elt Ideal)
      (fun i => rowsTimes (featArr V c) (wt1Arr V c) i + biasArr V c (ix2 0 (i 1))) := by
  show (cfg4.win 5).cut (grid4.coords t) ((dat4 (F := Ideal) V c).after 5 t) = _
  rw [after4_5]
  unfold out4_5
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  obtain ⟨r0, r1⟩ := out5_emb t p q
  show k4_pay2 (F := Ideal) (iblk4 V c 0 t) (iblk4 V c 1 t) (iblk4 V c 2 t) (ix2 p q) = _
  refine (pay_bias_at _ _ _ p q).trans ?_
  rw [View.read_apply]
  show _ = (fun i => rowsTimes (featArr V c) (wt1Arr V c) i + biasArr V c (ix2 0 (i 1))) (((cfg4.win 5).blk t).view.emb (ix2 p q))
  refine congrArg₂ (· + ·) (Finset.sum_congr rfl fun k _ => ?_) (bias_blk_at V c t _ _ rfl r1)
  exact congrArg₂ (· * ·) (feat_blk_at V c t _ _ r0 rfl) (wt1_blk_at V c t _ _ rfl r1)

/-- An index is in point t's block iff each coordinate is in the block's range on its axis. -/
theorem mem_out5 (t : Fin cfg4.N) (i : S50000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v82_0).slice (win4_5.rect t)).set ↔ _
  rw [View.set_slice_whole, Rect.mem_set_unit]
  exact Iff.rfl

/-- Row r lies in the block of point r / 5000: the ten row blocks tile the array. -/
theorem cover5 (i : S50000x128.Idx) :
    ∃ t : Fin cfg4.N, (cfg4.win 5).flush t = true ∧ i ∈ ((cfg4.win 5).blk t).view.set := by
  have hi0 : (i 0).val < 50000 := idx2_lt0 i
  have hi1 : (i 1).val < 128 := idx2_lt1 i
  have hN : cfg4.N = 10 := N_4
  have ht : (i 0).val / 5000 < cfg4.N := by rw [hN]; omega
  have e := point_blocks ⟨(i 0).val / 5000, ht⟩
  refine ⟨⟨(i 0).val / 5000, ht⟩, flush4_5 _, ?_⟩
  rw [mem_out5]
  intro a
  match a with
  | ⟨0, _⟩ =>
    show win4_5.index ⟨(i 0).val / 5000, ht⟩ (0 : Fin 2) * 5000 ≤ (i 0).val
      ∧ (i 0).val < win4_5.index ⟨(i 0).val / 5000, ht⟩ (0 : Fin 2) * 5000 + 5000
    have : (⟨(i 0).val / 5000, ht⟩ : Fin cfg4.N).val = (i 0).val / 5000 := rfl
    omega
  | ⟨1, _⟩ =>
    show win4_5.index ⟨(i 0).val / 5000, ht⟩ (1 : Fin 2) * 128 ≤ (i 1).val
      ∧ (i 1).val < win4_5.index ⟨(i 0).val / 5000, ht⟩ (1 : Fin 2) * 128 + 128
    omega

/-! ## The second output -/

/-- Where point t's block of the second output sits in its array: rows from 5000·t, all the columns. -/
theorem out6_emb (t : Fin cfg4.N) (p : Fin 5000) (q : Fin 128) :
    ((((cfg4.win 6).blk t).view.emb (ix2 p q) : S50000x128.Idx) 0).val = t.val * 5000 + p.val
    ∧ ((((cfg4.win 6).blk t).view.emb (ix2 p q) : S50000x128.Idx) 1).val = q.val := by
  have e := point_blocks t
  constructor
  · show win4_6.index t (0 : Fin 2) * 5000 + 1 * p.val = _; omega
  · show win4_6.index t (1 : Fin 2) * 128 + 1 * q.val = _; omega

/-- What point t writes back to the second output is its block of the whole-array function. -/
theorem flushed6_eq (c : Dev nD) (t : Fin cfg4.N) :
    (dat4 (F := Ideal) V c).flushed 6 t = ((cfg4.win 6).blk t).view.read (Elt Ideal)
      (rowsTimes (featArr V c) (wt3Arr V c)) := by
  show (cfg4.win 6).cut (grid4.coords t) ((dat4 (F := Ideal) V c).after 6 t) = _
  rw [after4_6]
  unfold out4_6
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  obtain ⟨r0, r1⟩ := out6_emb t p q
  show k4_pay3 (F := Ideal) (iblk4 V c 0 t) (iblk4 V c 3 t) (ix2 p q) = _
  refine (pay_plain3_at _ _ p q).trans ?_
  rw [View.read_apply]
  show _ = (rowsTimes (featArr V c) (wt3Arr V c)) (((cfg4.win 6).blk t).view.emb (ix2 p q))
  refine Finset.sum_congr rfl fun k _ => ?_
  exact congrArg₂ (· * ·) (feat_blk_at V c t _ _ r0 rfl) (wt3_blk_at V c t _ _ rfl r1)

/-- An index is in point t's block iff each coordinate is in the block's range on its axis. -/
theorem mem_out6 (t : Fin cfg4.N) (i : S50000x128.Idx) :
    i ∈ ((cfg4.win 6).blk t).view.set ↔ ∀ a : Fin 2, win4_6.index t a * S5000x128.size a ≤ (i a).val
      ∧ (i a).val < win4_6.index t a * S5000x128.size a + S5000x128.size a := by
  show i ∈ ((View.whole main_v82_1).slice (win4_6.rect t)).set ↔ _
  rw [View.set_slice_whole, Rect.mem_set_unit]
  exact Iff.rfl

/-- Row r lies in the block of point r / 5000: the ten row blocks tile the array. -/
theorem cover6 (i : S50000x128.Idx) :
    ∃ t : Fin cfg4.N, (cfg4.win 6).flush t = true ∧ i ∈ ((cfg4.win 6).blk t).view.set := by
  have hi0 : (i 0).val < 50000 := idx2_lt0 i
  have hi1 : (i 1).val < 128 := idx2_lt1 i
  have hN : cfg4.N = 10 := N_4
  have ht : (i 0).val / 5000 < cfg4.N := by rw [hN]; omega
  have e := point_blocks ⟨(i 0).val / 5000, ht⟩
  refine ⟨⟨(i 0).val / 5000, ht⟩, flush4_6 _, ?_⟩
  rw [mem_out6]
  intro a
  match a with
  | ⟨0, _⟩ =>
    show win4_6.index ⟨(i 0).val / 5000, ht⟩ (0 : Fin 2) * 5000 ≤ (i 0).val
      ∧ (i 0).val < win4_6.index ⟨(i 0).val / 5000, ht⟩ (0 : Fin 2) * 5000 + 5000
    have : (⟨(i 0).val / 5000, ht⟩ : Fin cfg4.N).val = (i 0).val / 5000 := rfl
    omega
  | ⟨1, _⟩ =>
    show win4_6.index ⟨(i 0).val / 5000, ht⟩ (1 : Fin 2) * 128 ≤ (i 1).val
      ∧ (i 1).val < win4_6.index ⟨(i 0).val / 5000, ht⟩ (1 : Fin 2) * 128 + 128
    omega

/-! ## The third output -/

/-- Where point t's block of the third output sits in its array: rows from 5000·t, all the columns. -/
theorem out7_emb (t : Fin cfg4.N) (p : Fin 5000) (q : Fin 128) :
    ((((cfg4.win 7).blk t).view.emb (ix2 p q) : S50000x128.Idx) 0).val = t.val * 5000 + p.val
    ∧ ((((cfg4.win 7).blk t).view.emb (ix2 p q) : S50000x128.Idx) 1).val = q.val := by
  have e := point_blocks t
  constructor
  · show win4_7.index t (0 : Fin 2) * 5000 + 1 * p.val = _; omega
  · show win4_7.index t (1 : Fin 2) * 128 + 1 * q.val = _; omega

/-- What point t writes back to the third output is its block of the whole-array function. -/
theorem flushed7_eq (c : Dev nD) (t : Fin cfg4.N) :
    (dat4 (F := Ideal) V c).flushed 7 t = ((cfg4.win 7).blk t).view.read (Elt Ideal)
      (rowsTimes (featArr V c) (wt4Arr V c)) := by
  show (cfg4.win 7).cut (grid4.coords t) ((dat4 (F := Ideal) V c).after 7 t) = _
  rw [after4_7]
  unfold out4_7
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  obtain ⟨r0, r1⟩ := out7_emb t p q
  show k4_pay4 (F := Ideal) (iblk4 V c 0 t) (iblk4 V c 4 t) (ix2 p q) = _
  refine (pay_plain4_at _ _ p q).trans ?_
  rw [View.read_apply]
  show _ = (rowsTimes (featArr V c) (wt4Arr V c)) (((cfg4.win 7).blk t).view.emb (ix2 p q))
  refine Finset.sum_congr rfl fun k _ => ?_
  exact congrArg₂ (· * ·) (feat_blk_at V c t _ _ r0 rfl) (wt4_blk_at V c t _ _ rfl r1)

/-- An index is in point t's block iff each coordinate is in the block's range on its axis. -/
theorem mem_out7 (t : Fin cfg4.N) (i : S50000x128.Idx) :
    i ∈ ((cfg4.win 7).blk t).view.set ↔ ∀ a : Fin 2, win4_7.index t a * S5000x128.size a ≤ (i a).val
      ∧ (i a).val < win4_7.index t a * S5000x128.size a + S5000x128.size a := by
  show i ∈ ((View.whole main_v82_2).slice (win4_7.rect t)).set ↔ _
  rw [View.set_slice_whole, Rect.mem_set_unit]
  exact Iff.rfl

/-- Row r lies in the block of point r / 5000: the ten row blocks tile the array. -/
theorem cover7 (i : S50000x128.Idx) :
    ∃ t : Fin cfg4.N, (cfg4.win 7).flush t = true ∧ i ∈ ((cfg4.win 7).blk t).view.set := by
  have hi0 : (i 0).val < 50000 := idx2_lt0 i
  have hi1 : (i 1).val < 128 := idx2_lt1 i
  have hN : cfg4.N = 10 := N_4
  have ht : (i 0).val / 5000 < cfg4.N := by rw [hN]; omega
  have e := point_blocks ⟨(i 0).val / 5000, ht⟩
  refine ⟨⟨(i 0).val / 5000, ht⟩, flush4_7 _, ?_⟩
  rw [mem_out7]
  intro a
  match a with
  | ⟨0, _⟩ =>
    show win4_7.index ⟨(i 0).val / 5000, ht⟩ (0 : Fin 2) * 5000 ≤ (i 0).val
      ∧ (i 0).val < win4_7.index ⟨(i 0).val / 5000, ht⟩ (0 : Fin 2) * 5000 + 5000
    have : (⟨(i 0).val / 5000, ht⟩ : Fin cfg4.N).val = (i 0).val / 5000 := rfl
    omega
  | ⟨1, _⟩ =>
    show win4_7.index ⟨(i 0).val / 5000, ht⟩ (1 : Fin 2) * 128 ≤ (i 1).val
      ∧ (i 1).val < win4_7.index ⟨(i 0).val / 5000, ht⟩ (1 : Fin 2) * 128 + 128
    omega

end RegA4

/-! ## The three output arrays after the region -/

/-- The first output: the dense map plus the bias row. -/
theorem regA4_out5 (c : Dev nD) :
    (dat4 (F := Ideal) V c).arrAt 5 cfg4.N
      = fun i => rowsTimes (V c (Pipeline.arrRef spec4 0)) (V c (Pipeline.arrRef spec4 1)) i
          + (V c (Pipeline.arrRef spec4 2) : S1x128.Idx → EReal) (ix2 0 (i 1)) :=
  (dat4 (F := Ideal) V c).arrAt_eq_of_cover 5 _ (fun t _ => RegA4.flushed5_eq V c t) RegA4.cover5

/-- The second output: the dense map with the fourth window's weight. -/
theorem regA4_out6 (c : Dev nD) :
    (dat4 (F := Ideal) V c).arrAt 6 cfg4.N = rowsTimes (V c (Pipeline.arrRef spec4 0)) (V c (Pipeline.arrRef spec4 3)) :=
  (dat4 (F := Ideal) V c).arrAt_eq_of_cover 6 _ (fun t _ => RegA4.flushed6_eq V c t) RegA4.cover6

/-- The third output: the dense map with the fifth window's weight. -/
theorem regA4_out7 (c : Dev nD) :
    (dat4 (F := Ideal) V c).arrAt 7 cfg4.N = rowsTimes (V c (Pipeline.arrRef spec4 0)) (V c (Pipeline.arrRef spec4 4)) :=
  (dat4 (F := Ideal) V c).arrAt_eq_of_cover 7 _ (fun t _ => RegA4.flushed7_eq V c t) RegA4.cover7

end Cert.KernelIdeal.Val

end
-- ==== Proof.KRegC5.lean ====
/-
  Region 5 (the third layer's combine), whatever the buffers hold when it is entered.

  Grid point t stages rows 5000·t … 5000·t + 4999 of three [50000, 128] arrays and the whole of two 1×128 bias
  rows; its body writes x₀ + a₁ + b₁ + a₂ + b₂ entry by entry, grouped from the left.  The ten row blocks tile
  the rows, so the output array ends as that function of the whole arrays.
-/
import proofs.«430380_j24318104830208_1_alg».proof.Proof.Gen.KernelIdeal.Frame
import proofs.«430380_j24318104830208_1_alg».proof.Proof.Spec
import proofs.«430380_j24318104830208_1_alg».proof.Proof.KRegC1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

namespace RegC5

/-- The zero offsets of a whole-block access, as the constant function. -/
theorem zero_offsets : (![0, 0] : Fin 2 → Nat) = fun _ => 0 :=
  funext fun a => by match a with | ⟨0, _⟩ => rfl | ⟨1, _⟩ => rfl

/-- The body's result at row p, lane q of a block: the five summands there, each bias row read at lane q. -/
theorem body_at (x0 a1 : Vec Ideal S5000x128 .f32) (b1 : Vec Ideal S1x128 .f32) (a2 : Vec Ideal S5000x128 .f32)
    (b2 : Vec Ideal S1x128 .f32) (p : Fin 5000) (q : Fin 128) :
    k5_pay1 x0 a1 b1 a2 b2 (ix2 p q)
      = (((x0 (ix2 p q) + a1 (ix2 p q)) + b1 (ix2 0 q)) + a2 (ix2 p q)) + b2 (ix2 0 q) := by
  unfold k5_pay1
  simp only [shapeCast_self]
  rw [addf_apply, addf_apply, addf_apply, addf_apply, broadcastTo_1b_ab_apply, broadcastTo_1b_ab_apply]

/-- Where the windows sit at point t: the output's block is (t, 0), the three row-blocked inputs move with it, and
    the two bias rows stay at block (0, 0). -/
theorem index_facts : ∀ t : Fin cfg5.N,
    win5_5.index t (0 : Fin 2) = t.val ∧ win5_5.index t (1 : Fin 2) = 0
    ∧ win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- The body's result at row p, lane q of a block whose entries are those of whole arrays at row r: the five-summand
    function of the arrays at row r, lane q. -/
theorem body_eq (x0 a1 : Vec Ideal S5000x128 .f32) (b1 : Vec Ideal S1x128 .f32) (a2 : Vec Ideal S5000x128 .f32)
    (b2 : Vec Ideal S1x128 .f32) (p : Fin 5000) (q : Fin 128)
    (X0 X1 X2 : S50000x128.Idx → EReal) (B1 B2 : S1x128.Idx → EReal) (r : Fin 50000)
    (h0 : x0 (ix2 p q) = X0 (ix2 r q)) (h1 : a1 (ix2 p q) = X1 (ix2 r q)) (h2 : a2 (ix2 p q) = X2 (ix2 r q))
    (h3 : b1 (ix2 0 q) = B1 (ix2 0 q)) (h4 : b2 (ix2 0 q) = B2 (ix2 0 q)) :
    k5_pay1 x0 a1 b1 a2 b2 (ix2 p q) = combine X0 X1 X2 B1 B2 (ix2 r q) := by
  rw [body_at, h0, h1, h2, h3, h4]
  rfl

/-- Row p, lane q of the first row-blocked input's block at point t is row 5000·t + p, lane q of its array. -/
theorem rows0_at (c : Dev nD) (t : Fin cfg5.N) (p : Fin 5000) (q : Fin 128) (r : Fin 50000)
    (hr : r.val = t.val * 5000 + p.val) :
    (iblk5 (F := Ideal) V c 0 t : Vec Ideal S5000x128 .f32) (ix2 p q)
      = (V c (Pipeline.arrRef spec5 0) : S50000x128.Idx → EReal) (ix2 r q) := by
  obtain ⟨-, -, h00, h01, h10, h11, h20, h21, -⟩ := index_facts t
  unfold iblk5
  rw [View.read_apply]
  show V c (Pipeline.arrRef spec5 0) (((cfg5.win 0).blk t).view.emb (ix2 p q)) = _
  congr 1
  funext a
  apply Fin.ext
  match a with
  | ⟨0, _⟩ => show win5_0.index t (0 : Fin 2) * 5000 + 1 * p.val = r.val; rw [h00, hr]; omega
  | ⟨1, _⟩ => show win5_0.index t (1 : Fin 2) * 128 + 1 * q.val = q.val; rw [h01]; omega

/-- Row p, lane q of the second row-blocked input's block at point t is row 5000·t + p, lane q of its array. -/
theorem rows1_at (c : Dev nD) (t : Fin cfg5.N) (p : Fin 5000) (q : Fin 128) (r : Fin 50000)
    (hr : r.val = t.val * 5000 + p.val) :
    (iblk5 (F := Ideal) V c 1 t : Vec Ideal S5000x128 .f32) (ix2 p q)
      = (V c (Pipeline.arrRef spec5 1) : S50000x128.Idx → EReal) (ix2 r q) := by
  obtain ⟨-, -, h00, h01, h10, h11, h20, h21, -⟩ := index_facts t
  unfold iblk5
  rw [View.read_apply]
  show V c (Pipeline.arrRef spec5 1) (((cfg5.win 1).blk t).view.emb (ix2 p q)) = _
  congr 1
  funext a
  apply Fin.ext
  match a with
  | ⟨0, _⟩ => show win5_1.index t (0 : Fin 2) * 5000 + 1 * p.val = r.val; rw [h10, hr]; omega
  | ⟨1, _⟩ => show win5_1.index t (1 : Fin 2) * 128 + 1 * q.val = q.val; rw [h11]; omega

/-- Row p, lane q of the third row-blocked input's block at point t is row 5000·t + p, lane q of its array. -/
theorem rows2_at (c : Dev nD) (t : Fin cfg5.N) (p : Fin 5000) (q : Fin 128) (r : Fin 50000)
    (hr : r.val = t.val * 5000 + p.val) :
    (iblk5 (F := Ideal) V c 2 t : Vec Ideal S5000x128 .f32) (ix2 p q)
      = (V c (Pipeline.arrRef spec5 2) : S50000x128.Idx → EReal) (ix2 r q) := by
  obtain ⟨-, -, h00, h01, h10, h11, h20, h21, -⟩ := index_facts t
  unfold iblk5
  rw [View.read_apply]
  show V c (Pipeline.arrRef spec5 2) (((cfg5.win 2).blk t).view.emb (ix2 p q)) = _
  congr 1
  funext a
  apply Fin.ext
  match a with
  | ⟨0, _⟩ => show win5_2.index t (0 : Fin 2) * 5000 + 1 * p.val = r.val; rw [h20, hr]; omega
  | ⟨1, _⟩ => show win5_2.index t (1 : Fin 2) * 128 + 1 * q.val = q.val; rw [h21]; omega

/-- Lane q of the first bias row's block, at any point, is lane q of the row itself. -/
theorem bias3_at (c : Dev nD) (t : Fin cfg5.N) (q : Fin 128) :
    (iblk5 (F := Ideal) V c 3 t : Vec Ideal S1x128 .f32) (ix2 0 q)
      = (V c (Pipeline.arrRef spec5 3) : S1x128.Idx → EReal) (ix2 0 q) := by
  obtain ⟨-, -, -, -, -, -, -, -, h30, h31, h40, h41⟩ := index_facts t
  unfold iblk5
  rw [View.read_apply]
  show V c (Pipeline.arrRef spec5 3) (((cfg5.win 3).blk t).view.emb (ix2 0 q)) = _
  congr 1
  funext a
  apply Fin.ext
  match a with
  | ⟨0, _⟩ => show win5_3.index t (0 : Fin 2) * 1 + 1 * (0 : Fin 1).val = (0 : Fin 1).val; rw [h30]; rfl
  | ⟨1, _⟩ => show win5_3.index t (1 : Fin 2) * 128 + 1 * q.val = q.val; rw [h31]; omega

/-- Lane q of the second bias row's block, at any point, is lane q of the row itself. -/
theorem bias4_at (c : Dev nD) (t : Fin cfg5.N) (q : Fin 128) :
    (iblk5 (F := Ideal) V c 4 t : Vec Ideal S1x128 .f32) (ix2 0 q)
      = (V c (Pipeline.arrRef spec5 4) : S1x128.Idx → EReal) (ix2 0 q) := by
  obtain ⟨-, -, -, -, -, -, -, -, h30, h31, h40, h41⟩ := index_facts t
  unfold iblk5
  rw [View.read_apply]
  show V c (Pipeline.arrRef spec5 4) (((cfg5.win 4).blk t).view.emb (ix2 0 q)) = _
  congr 1
  funext a
  apply Fin.ext
  match a with
  | ⟨0, _⟩ => show win5_4.index t (0 : Fin 2) * 1 + 1 * (0 : Fin 1).val = (0 : Fin 1).val; rw [h40]; rfl
  | ⟨1, _⟩ => show win5_4.index t (1 : Fin 2) * 128 + 1 * q.val = q.val; rw [h41]; omega

/-- Row p, lane q of the output's block at point t sits at row 5000·t + p, lane q of the array. -/
theorem out_at (t : Fin cfg5.N) (p : Fin 5000) (q : Fin 128) (r : Fin 50000) (hr : r.val = t.val * 5000 + p.val) :
    @Eq S50000x128.Idx (((cfg5.win 5).blk t).view.emb (ix2 p q)) (ix2 r q) := by
  obtain ⟨e0, e1, -⟩ := index_facts t
  funext a
  apply Fin.ext
  match a with
  | ⟨0, _⟩ => show win5_5.index t (0 : Fin 2) * 5000 + 1 * p.val = r.val; rw [e0, hr]; omega
  | ⟨1, _⟩ => show win5_5.index t (1 : Fin 2) * 128 + 1 * q.val = q.val; rw [e1]; omega

set_option maxHeartbeats 1000000 in
/-- What point t writes back is block t of the five-summand function of the whole arrays. -/
theorem written_block (c : Dev nD) (t : Fin cfg5.N) :
    (dat5 (F := Ideal) V c).flushed 5 t = ((cfg5.win 5).blk t).view.read (Elt Ideal)
      (combine (V c (Pipeline.arrRef spec5 0)) (V c (Pipeline.arrRef spec5 1)) (V c (Pipeline.arrRef spec5 2))
          (V c (Pipeline.arrRef spec5 3)) (V c (Pipeline.arrRef spec5 4))) := by
  show (cfg5.win 5).cut (grid5.coords t) ((dat5 V c).after 5 t) = _
  rw [after5_5]
  unfold out5_5
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  have hN : cfg5.N = 10 := N_5
  have hlt : t.val * 5000 + p.val < 50000 := by have := t.isLt; have := p.isLt; omega
  show k5_pay1 (iblk5 V c 0 t) (iblk5 V c 1 t) (iblk5 V c 3 t) (iblk5 V c 2 t) (iblk5 V c 4 t) (ix2 p q)
    = combine (V c (Pipeline.arrRef spec5 0)) (V c (Pipeline.arrRef spec5 1)) (V c (Pipeline.arrRef spec5 2))
          (V c (Pipeline.arrRef spec5 3)) (V c (Pipeline.arrRef spec5 4)) (((cfg5.win 5).blk t).view.emb (ix2 p q))
  rw [out_at t p q ⟨_, hlt⟩ rfl]
  have r0 := rows0_at V c t p q ⟨_, hlt⟩ rfl
  have r1 := rows1_at V c t p q ⟨_, hlt⟩ rfl
  have r2 := rows2_at V c t p q ⟨_, hlt⟩ rfl
  have b3 := bias3_at V c t q
  have b4 := bias4_at V c t q
  exact body_eq _ _ _ _ _ p q _ _ _ _ _ _ r0 r1 r2 b3 b4

/-- An index of the array lies in point t's block exactly when each coordinate lies in the block's range. -/
theorem mem_block (t : Fin cfg5.N) (i : S50000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v103).slice (win5_5.rect t)).set ↔ _
  rw [View.set_slice_whole, Rect.mem_set_unit]
  exact Iff.rfl

/-- The ten row blocks tile the rows: row r lies in the block of point r / 5000. -/
theorem rows_covered (i : S50000x128.Idx) :
    ∃ t : Fin cfg5.N, (cfg5.win 5).flush t = true ∧ i ∈ ((cfg5.win 5).blk t).view.set := by
  have hN : cfg5.N = 10 := N_5
  have hi0 : (i 0).val < 50000 := idx2_lt0 i
  have hi1 : (i 1).val < 128 := idx2_lt1 i
  obtain ⟨t, ht⟩ : ∃ t : Fin cfg5.N, t.val = (i 0).val / 5000 := ⟨⟨(i 0).val / 5000, by rw [hN]; omega⟩, rfl⟩
  refine ⟨t, flush5_5 t, ?_⟩
  rw [mem_block]
  obtain ⟨e0, e1, -⟩ := index_facts t
  intro a
  match a with
  | ⟨0, _⟩ =>
    show win5_5.index t (0 : Fin 2) * 5000 ≤ (i 0).val ∧ (i 0).val < win5_5.index t (0 : Fin 2) * 5000 + 5000
    rw [e0, ht]; omega
  | ⟨1, _⟩ =>
    show win5_5.index t (1 : Fin 2) * 128 ≤ (i 1).val ∧ (i 1).val < win5_5.index t (1 : Fin 2) * 128 + 128
    rw [e1]; omega

end RegC5

/-- The output array after the region: every row is written by the one point whose block holds it. -/
theorem regC5_out5 (c : Dev nD) :
    (dat5 (F := Ideal) V c).arrAt 5 cfg5.N
      = combine (V c (Pipeline.arrRef spec5 0)) (V c (Pipeline.arrRef spec5 1)) (V c (Pipeline.arrRef spec5 2))
          (V c (Pipeline.arrRef spec5 3)) (V c (Pipeline.arrRef spec5 4)) :=
  (dat5 (F := Ideal) V c).arrAt_eq_of_cover 5
    (combine (V c (Pipeline.arrRef spec5 0)) (V c (Pipeline.arrRef spec5 1)) (V c (Pipeline.arrRef spec5 2))
      (V c (Pipeline.arrRef spec5 3)) (V c (Pipeline.arrRef spec5 4)))
    (fun t _ => RegC5.written_block V c t) RegC5.rows_covered

end Cert.KernelIdeal.Val

end
-- ==== Proof.KLayer2.lean ====
/-
  Layer 2 of the kernel's program, read off its run.

  Its input array is the previous layer's output (the buffer the previous combine region wrote).  The weights and
  bias rows of the layer are cut out of the stacks by the host lines before the layer's first region; then as for
  the first layer: three dense maps, the two edge aggregations over the same index rows and edge weights, the
  combine.  The layer's output array is `Cert.Spec.layerLeft 2` of its input array and the launch arrays.
-/
import proofs.«430380_j24318104830208_1_alg».proof.Proof.Gen.KernelIdeal.Frame
import proofs.«430380_j24318104830208_1_alg».proof.Proof.KDefs
import proofs.«430380_j24318104830208_1_alg».proof.Proof.KCuts
import proofs.«430380_j24318104830208_1_alg».proof.Proof.KKeep2
import proofs.«430380_j24318104830208_1_alg».proof.Proof.KRegA4
import proofs.«430380_j24318104830208_1_alg».proof.Proof.KRegC5
import proofs.«430380_j24318104830208_1_alg».proof.Proof.KSlices
import Idealize.ShloMosaic.Lib.StableHlo.Run

set_option maxRecDepth 16384

noncomputable section

namespace Cert.KernelIdeal.Val

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg)

/-- Through the host lines before the layer's first region (one stretch from the previous region's exit). -/
local macro "lines_before" : tactic => `(tactic| (
  show StableHlo.after hostOps4 (W16 _ _ _) _ = _
  simp only [hostOps4]
  after_results_simp))

/-- Through the host lines between the layer's two regions (five stretches from the first region's exit). -/
local macro "lines_between" : tactic => `(tactic| (
  show StableHlo.after hostOps5_4 (StableHlo.after hostOps5_3 (StableHlo.after hostOps5_2 (StableHlo.after hostOps5_1 (StableHlo.after hostOps5 (W18 _ _ _))))) _ = _
  simp only [hostOps5_4, hostOps5_3, hostOps5_2, hostOps5_1, hostOps5]
  after_results_simp))

/-! ## The entry of the layer's first region -/

theorem W17_v41 (c : Dev nD) : W17 m ρ c (Proc.devRef .tc main_v72) = W16 m ρ c (Proc.devRef .tc main_v72) := by
  lines_before

theorem W17_v43 (c : Dev nD) : W17 m ρ c (Proc.devRef .tc main_v74)
    = weightOf ![2, 0, 0] slices_S3x128x128_S1x128x128_2_0_0 (m ((c : Thread nD τ).loc main_arg3)) := by
  lines_before
  rw [W16_v8 m ρ c]
  rfl

theorem W17_v48 (c : Dev nD) : W17 m ρ c (Proc.devRef .tc main_v79)
    = weightOf ![2, 0, 0] slices_S3x128x128_S1x128x128_2_0_0 (m ((c : Thread nD τ).loc main_arg5)) := by
  lines_before
  rw [W16_v9 m ρ c]
  rfl

theorem W17_v50 (c : Dev nD) : W17 m ρ c (Proc.devRef .tc main_v81)
    = weightOf ![2, 0, 0] slices_S3x128x128_S1x128x128_2_0_0 (m ((c : Thread nD τ).loc main_arg7)) := by
  lines_before
  rw [W16_v10 m ρ c]
  rfl

theorem W17_v46 (c : Dev nD) : W17 m ρ c (Proc.devRef .tc main_v77)
    = biasOf ![2, 0] slices_S3x128_S1x128_2_0 (m ((c : Thread nD τ).loc main_arg4)) := by
  lines_before
  rw [W16_arg4 m ρ c]
  rfl

/-! ## The first region's three outputs, and the buffers it leaves alone -/

theorem W18_v51_0 (c : Dev nD) : W18 m ρ c (Proc.devRef .tc main_v82_0)
    = fun i => Cert.Spec.dense 2 (W16 m ρ c (Proc.devRef .tc main_v72)) (m ((c : Thread nD τ).loc main_arg3)) i
        + Cert.Spec.biasRow 2 (m ((c : Thread nD τ).loc main_arg4)) i := by
  have e := (W18_arr m ρ c 5).trans (regA4_out5 (V17 m ρ) c)
  have e0 : V17 m ρ c (Pipeline.arrRef spec4 0) = W16 m ρ c (Proc.devRef .tc main_v72) := W17_v41 m ρ c
  have e1 : V17 m ρ c (Pipeline.arrRef spec4 1) = weightOf ![2, 0, 0] slices_S3x128x128_S1x128x128_2_0_0 (m ((c : Thread nD τ).loc main_arg3)) := W17_v43 m ρ c
  have e2 : V17 m ρ c (Pipeline.arrRef spec4 2) = biasOf ![2, 0] slices_S3x128_S1x128_2_0 (m ((c : Thread nD τ).loc main_arg4)) := W17_v46 m ρ c
  rw [e0, e1, e2] at e
  refine e.trans (funext fun i => ?_)
  exact congrArg₂ (· + ·) (congrFun (rowsTimes_weightOf 2 ![2, 0, 0] rfl _ _ _) i) (biasOf_row 2 ![2, 0] rfl _ _ i)

theorem W18_v51_1 (c : Dev nD) : W18 m ρ c (Proc.devRef .tc main_v82_1)
    = Cert.Spec.dense 2 (W16 m ρ c (Proc.devRef .tc main_v72)) (m ((c : Thread nD τ).loc main_arg5)) := by
  have e := (W18_arr m ρ c 6).trans (regA4_out6 (V17 m ρ) c)
  have e0 : V17 m ρ c (Pipeline.arrRef spec4 0) = W16 m ρ c (Proc.devRef .tc main_v72) := W17_v41 m ρ c
  have e3 : V17 m ρ c (Pipeline.arrRef spec4 3) = weightOf ![2, 0, 0] slices_S3x128x128_S1x128x128_2_0_0 (m ((c : Thread nD τ).loc main_arg5)) := W17_v48 m ρ c
  rw [e0, e3] at e
  exact e.trans (rowsTimes_weightOf 2 ![2, 0, 0] rfl _ _ _)

theorem W18_v51_2 (c : Dev nD) : W18 m ρ c (Proc.devRef .tc main_v82_2)
    = Cert.Spec.dense 2 (W16 m ρ c (Proc.devRef .tc main_v72)) (m ((c : Thread nD τ).loc main_arg7)) := by
  have e := (W18_arr m ρ c 7).trans (regA4_out7 (V17 m ρ) c)
  have e0 : V17 m ρ c (Pipeline.arrRef spec4 0) = W16 m ρ c (Proc.devRef .tc main_v72) := W17_v41 m ρ c
  have e4 : V17 m ρ c (Pipeline.arrRef spec4 4) = weightOf ![2, 0, 0] slices_S3x128x128_S1x128x128_2_0_0 (m ((c : Thread nD τ).loc main_arg7)) := W17_v50 m ρ c
  rw [e0, e4] at e
  exact e.trans (rowsTimes_weightOf 2 ![2, 0, 0] rfl _ _ _)

theorem W18_arg1 (c : Dev nD) : W18 m ρ c (Proc.devRef .tc main_arg1) = (m ((c : Thread nD τ).loc main_arg1)) :=
  (W18_of_ne m ρ c main_arg1 (by decide)).trans (((by lines_before) : W17 m ρ c (Proc.devRef .tc main_arg1) = W16 m ρ c (Proc.devRef .tc main_arg1)).trans (W16_arg1 m ρ c))
theorem W18_arg2 (c : Dev nD) : W18 m ρ c (Proc.devRef .tc main_arg2) = (m ((c : Thread nD τ).loc main_arg2)) :=
  (W18_of_ne m ρ c main_arg2 (by decide)).trans (((by lines_before) : W17 m ρ c (Proc.devRef .tc main_arg2) = W16 m ρ c (Proc.devRef .tc main_arg2)).trans (W16_arg2 m ρ c))
theorem W18_arg6 (c : Dev nD) : W18 m ρ c (Proc.devRef .tc main_arg6) = (m ((c : Thread nD τ).loc main_arg6)) :=
  (W18_of_ne m ρ c main_arg6 (by decide)).trans (((by lines_before) : W17 m ρ c (Proc.devRef .tc main_arg6) = W16 m ρ c (Proc.devRef .tc main_arg6)).trans (W16_arg6 m ρ c))
theorem W18_arg8 (c : Dev nD) : W18 m ρ c (Proc.devRef .tc main_arg8) = (m ((c : Thread nD τ).loc main_arg8)) :=
  (W18_of_ne m ρ c main_arg8 (by decide)).trans (((by lines_before) : W17 m ρ c (Proc.devRef .tc main_arg8) = W16 m ρ c (Proc.devRef .tc main_arg8)).trans (W16_arg8 m ρ c))
theorem W18_v1 (c : Dev nD) : W18 m ρ c (Proc.devRef .tc main_v1) = edgeRow ![0, 0] slices_S2x500000_S1x500000_0_0 (m ((c : Thread nD τ).loc main_arg9)) :=
  (W18_of_ne m ρ c main_v1 (by decide)).trans (((by lines_before) : W17 m ρ c (Proc.devRef .tc main_v1) = W16 m ρ c (Proc.devRef .tc main_v1)).trans (W16_v1 m ρ c))
theorem W18_v3 (c : Dev nD) : W18 m ρ c (Proc.devRef .tc main_v3) = edgeRow ![1, 0] slices_S2x500000_S1x500000_1_0 (m ((c : Thread nD τ).loc main_arg9)) :=
  (W18_of_ne m ρ c main_v3 (by decide)).trans (((by lines_before) : W17 m ρ c (Proc.devRef .tc main_v3) = W16 m ρ c (Proc.devRef .tc main_v3)).trans (W16_v3 m ρ c))
theorem W18_v5 (c : Dev nD) : W18 m ρ c (Proc.devRef .tc main_v5) = edgeRow ![0, 0] slices_S2x500000_S1x500000_0_0 (m ((c : Thread nD τ).loc main_arg10)) :=
  (W18_of_ne m ρ c main_v5 (by decide)).trans (((by lines_before) : W17 m ρ c (Proc.devRef .tc main_v5) = W16 m ρ c (Proc.devRef .tc main_v5)).trans (W16_v5 m ρ c))
theorem W18_v7 (c : Dev nD) : W18 m ρ c (Proc.devRef .tc main_v7) = edgeRow ![1, 0] slices_S2x500000_S1x500000_1_0 (m ((c : Thread nD τ).loc main_arg10)) :=
  (W18_of_ne m ρ c main_v7 (by decide)).trans (((by lines_before) : W17 m ρ c (Proc.devRef .tc main_v7) = W16 m ρ c (Proc.devRef .tc main_v7)).trans (W16_v7 m ρ c))

/-! ## The entry of the layer's second region: the host lines between the regions -/

theorem W23_v51_0 (c : Dev nD) : W23 m ρ c (Proc.devRef .tc main_v82_0) = W18 m ρ c (Proc.devRef .tc main_v82_0) := by
  lines_between

theorem W23_v58 (c : Dev nD) : W23 m ρ c (Proc.devRef .tc main_v89)
    = aggTake (F := Ideal) (W18 m ρ c (Proc.devRef .tc main_v1)) (W18 m ρ c (Proc.devRef .tc main_v3))
        (W18 m ρ c (Proc.devRef .tc main_arg1)) (W18 m ρ c (Proc.devRef .tc main_v82_1)) := by
  lines_between
  simp only [TRef.toBuf, TRef.ofBuf, cast_cast, cast_eq]
  rfl

theorem W23_v65 (c : Dev nD) : W23 m ρ c (Proc.devRef .tc main_v96)
    = aggTake (F := Ideal) (W18 m ρ c (Proc.devRef .tc main_v5)) (W18 m ρ c (Proc.devRef .tc main_v7))
        (W18 m ρ c (Proc.devRef .tc main_arg2)) (W18 m ρ c (Proc.devRef .tc main_v82_2)) := by
  lines_between
  simp only [TRef.toBuf, TRef.ofBuf, cast_cast, cast_eq]
  rfl

theorem W23_v68 (c : Dev nD) : W23 m ρ c (Proc.devRef .tc main_v99)
    = biasOf ![2, 0] slices_S3x128_S1x128_2_0 (W18 m ρ c (Proc.devRef .tc main_arg6)) := by
  lines_between
  rfl

theorem W23_v71 (c : Dev nD) : W23 m ρ c (Proc.devRef .tc main_v102)
    = biasOf ![2, 0] slices_S3x128_S1x128_2_0 (W18 m ρ c (Proc.devRef .tc main_arg8)) := by
  lines_between
  rfl

/-! ## The layer -/

/-- The array the layer's second region leaves in its output buffer is the layer's function of its input array and the
    launch arrays, the aggregations as the program writes them (through jnp.take). -/
theorem layer2 (c : Dev nD) : W24 m ρ c (Proc.devRef .tc main_v103)
    = Cert.Spec.layerLeft 2
        (aggTake (F := Ideal) (edgeRow ![0, 0] slices_S2x500000_S1x500000_0_0 (m ((c : Thread nD τ).loc main_arg9)))
          (edgeRow ![1, 0] slices_S2x500000_S1x500000_1_0 (m ((c : Thread nD τ).loc main_arg9))) (m ((c : Thread nD τ).loc main_arg1)))
        (aggTake (F := Ideal) (edgeRow ![0, 0] slices_S2x500000_S1x500000_0_0 (m ((c : Thread nD τ).loc main_arg10)))
          (edgeRow ![1, 0] slices_S2x500000_S1x500000_1_0 (m ((c : Thread nD τ).loc main_arg10))) (m ((c : Thread nD τ).loc main_arg2)))
        (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
        (W16 m ρ c (Proc.devRef .tc main_v72)) := by
  have e := (W24_arr m ρ c 5).trans (regC5_out5 (V23 m ρ) c)
  have e0 : V23 m ρ c (Pipeline.arrRef spec5 0) = _ := (W23_v51_0 m ρ c).trans (W18_v51_0 m ρ c)
  have e1 : V23 m ρ c (Pipeline.arrRef spec5 1) = _ := W23_v58 m ρ c
  have e2 : V23 m ρ c (Pipeline.arrRef spec5 2) = _ := W23_v65 m ρ c
  have e3 : V23 m ρ c (Pipeline.arrRef spec5 3) = _ := W23_v68 m ρ c
  have e4 : V23 m ρ c (Pipeline.arrRef spec5 4) = _ := W23_v71 m ρ c
  rw [e0, e1, e2, e3, e4, W18_v1, W18_v3, W18_v5, W18_v7, W18_arg1, W18_arg2, W18_arg6, W18_arg8, W18_v51_1, W18_v51_2] at e
  refine e.trans (funext fun i => ?_)
  unfold combine Cert.Spec.layerLeft
  exact congrArg₂ (· + ·) (congrArg₂ (· + ·) (congrArg₂ (· + ·) rfl (biasOf_row 2 ![2, 0] rfl _ _ i)) rfl) (biasOf_row 2 ![2, 0] rfl _ _ i)

end Cert.KernelIdeal.Val

end
-- ==== Proof.KMask.lean ====
/-
  Where every source index addresses a row, jnp.take's range test passes on every edge, so its fill value is
  never chosen: the aggregation through jnp.take is the aggregation through the plain gather.
-/
import proofs.«430380_j24318104830208_1_alg».proof.Proof.KDefs

set_option maxRecDepth 16384

noncomputable section

namespace Cert.KernelIdeal.Val

open Idealize.ShloMosaic Idealize.ShloMosaic.ValueIdx Cert.KernelIdeal Cert.KernelIdeal.Facts₀ Cert.KernelIdeal.Facts

variable {F : FTy → Type} [FloatOps F]

/-- Bitwise "and" folded from the true bit over a family of bits that are all true stays true:
    1 &&& 1 = 1 at every step. -/
private theorem fold_andi_ones {ι : Type} (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, hf a (Finset.mem_cons_self a S), ih (fun i hi => hf i (Finset.mem_cons_of_mem hi))]
    rfl

/-- The wrapped word at edge `e`: the select on "s e < 0" between s e + 50000 and s e is numpy's reading of
    the index, the comparison's bit being 1 exactly when the comparison holds. -/
private theorem wrapWord (s : IVec S500000 32) (e : S500000.Idx) :
    select (cmpi .slt s (broadcastInDim S500000 ![] bcast_S_S500000 (constantI S_ 32 0#32)))
      (addi s (broadcastInDim S500000 ![] bcast_S_S500000 (constantI S_ 32 50000#32))) s e
      = Cert.Spec.wrapRow (s e) := by
  show Scalar.select (BitVec.ofBool ((s e).slt 0#32)) (s e + 50000#32) (s e) = _
  unfold Cert.Spec.wrapRow Scalar.select
  cases (s e).slt 0#32
  · rw [if_neg (by decide), if_neg (by decide)]
  · rw [if_pos (by decide), if_pos rfl]

/-- Every entry of the column of start indices is the wrapped word of some edge: the column is the vector
    of wrapped words laid along a unit axis. -/
private theorem wrapCol_apply (s : IVec S500000 32) (i : S500000x1.Idx) :
    ∃ e : S500000.Idx, wrapCol s i = Cert.Spec.wrapRow (s e) := by
  unfold wrapCol
  simp only [broadcastInDim]
  exact ⟨_, wrapWord s _⟩

/-- The range test's bit at any entry of the column: both comparisons, 0 ≤ word and word ≤ 49999, hold of a
    wrapped in-range index, and 1 &&& 1 = 1. -/
private theorem rangeBit (s : IVec S500000 32) (hs : ∀ e : S500000.Idx, Cert.Spec.RowInRange (s e))
    (i : S500000x1.Idx) :
    andi (cmpi .sge (wrapCol s) (broadcastInDim S500000x1 ![] bcast_S_S500000x1 (constantI S_ 32 0#32)))
      (cmpi .sle (wrapCol s) (broadcastInDim S500000x1 ![0, 1] bcast_S1x1_S500000x1_0_1
        (broadcastInDim S1x1 ![1] bcast_S1_S1x1_1 (constantI S1 32 49999#32)))) i = 1#1 := by
  show IntOp.andi (BitVec.ofBool ((0#32).sle (wrapCol s i))) (BitVec.ofBool ((wrapCol s i).sle 49999#32)) = 1#1
  obtain ⟨e, he⟩ := wrapCol_apply s i
  obtain ⟨h1, h2⟩ := Cert.Spec.wrapRow_inb (hs e)
  rw [he, h1, h2]
  rfl

/-- The reduction along the unit axis, from the true bit, of a column of true bits is true at every edge. -/
private theorem reduce_rangeBit (s : IVec S500000 32) (hs : ∀ e : S500000.Idx, Cert.Spec.RowInRange (s e))
    (k : S500000.Idx) :
    Host.reduce IntOp.andi
      (andi (cmpi .sge (wrapCol s) (broadcastInDim S500000x1 ![] bcast_S_S500000x1 (constantI S_ 32 0#32)))
        (cmpi .sle (wrapCol s) (broadcastInDim S500000x1 ![0, 1] bcast_S1x1_S500000x1_0_1
          (broadcastInDim S1x1 ![1] bcast_S1_S1x1_1 (constantI S1 32 49999#32)))))
      (constantI S_ 1 1#1) reducesTo_S500000x1_S500000_d1 h_S_ k = 1#1 := by
  classical
  rw [Host.reduce_eq_fold]
  exact fold_andi_ones _ _ (fun i _ => rangeBit s hs i)

/-- With every source index in range the range test is true at every (edge, channel). -/
theorem inbMask_wrapCol (s : IVec S500000 32) (hs : ∀ e : S500000.Idx, Cert.Spec.RowInRange (s e))
    (j : S500000x128.Idx) : inbMask (wrapCol s) j = 1#1 := by
  unfold inbMask
  simp only [broadcastInDim]
  exact reduce_rangeBit s hs _

/-- So jnp.take returns the gathered rows. -/
theorem takeRows_eq_gatherRows (h : FVec F S50000x128 .f32) (s : IVec S500000 32)
    (hs : ∀ e : S500000.Idx, Cert.Spec.RowInRange (s e)) : takeRows h s = gatherRows h s := by
  funext j
  unfold takeRows
  rw [select_apply, inbMask_wrapCol s hs j, select_one]

/-- And the two aggregations are one function. -/
theorem aggTake_eq_agg (s d : IVec S500000 32) (w : FVec F S500000 .f32) (h : FVec F S50000x128 .f32)
    (hs : ∀ e : S500000.Idx, Cert.Spec.RowInRange (s e)) : aggTake s d w h = agg s d w h := by
  unfold aggTake agg
  rw [takeRows_eq_gatherRows h s hs]

end Cert.KernelIdeal.Val

end
-- ==== Proof.KValue.lean ====
/-
  The kernel's program as a whole: its result buffer ends at three layers in a row of the launch arrays.

  Each layer's output array is the layer's function of its input array (the three layer modules); the first
  layer's input is the feature argument.  Where every source index of both edge lists addresses a node row, the
  aggregation through jnp.take is the aggregation through the plain gather, in every layer.
-/
import proofs.«430380_j24318104830208_1_alg».proof.Proof.KLayer0
import proofs.«430380_j24318104830208_1_alg».proof.Proof.KLayer1
import proofs.«430380_j24318104830208_1_alg».proof.Proof.KLayer2
import proofs.«430380_j24318104830208_1_alg».proof.Proof.KMask

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The two aggregations are one function of the dense product when every source index is in range. -/
theorem aggTake_eq_agg_fun (s d : IVec S500000 32) (w : FVec Ideal S500000 .f32)
    (hs : ∀ e : S500000.Idx, Cert.Spec.RowInRange (s e)) :
    aggTake (F := Ideal) s d w = agg (F := Ideal) s d w :=
  funext fun h => aggTake_eq_agg s d w h hs

/-- The result buffer after the run: the three-layer network of the launch arrays. -/
theorem result_eq (c : Dev nD)
    (h1 : ∀ e : S500000.Idx, Cert.Spec.RowInRange (edgeRow ![0, 0] slices_S2x500000_S1x500000_0_0 (m ((c : Thread nD τ).loc main_arg9)) e))
    (h2 : ∀ e : S500000.Idx, Cert.Spec.RowInRange (edgeRow ![0, 0] slices_S2x500000_S1x500000_0_0 (m ((c : Thread nD τ).loc main_arg10)) e)) :
    W24 m ρ c (Proc.devRef .tc main_v103)
      = Cert.Spec.net (fun l => Cert.Spec.layerLeft l
          (agg (F := Ideal) (edgeRow ![0, 0] slices_S2x500000_S1x500000_0_0 (m ((c : Thread nD τ).loc main_arg9)))
            (edgeRow ![1, 0] slices_S2x500000_S1x500000_1_0 (m ((c : Thread nD τ).loc main_arg9))) (m ((c : Thread nD τ).loc main_arg1)))
          (agg (F := Ideal) (edgeRow ![0, 0] slices_S2x500000_S1x500000_0_0 (m ((c : Thread nD τ).loc main_arg10)))
            (edgeRow ![1, 0] slices_S2x500000_S1x500000_1_0 (m ((c : Thread nD τ).loc main_arg10))) (m ((c : Thread nD τ).loc main_arg2)))
          (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
        (m ((c : Thread nD τ).loc main_arg0)) := by
  rw [layer2 m ρ c, layer1 m ρ c, layer0 m ρ c, aggTake_eq_agg_fun _ _ _ h1, aggTake_eq_agg_fun _ _ _ h2]
  rfl

end Cert.KernelIdeal.Val

end
-- ==== Proof.RDefs.lean ====
/-
  The host-side pieces of one layer of the reference program, named once: gather the rows of a dense product at
  the edges' source indices (a negative index counts from the back), scale row e by the edge weight, add the scaled
  rows into the destination rows.
-/
import proofs.«430380_j24318104830208_1_alg».proof.Proof.Gen.ReferenceIdeal
import proofs.«430380_j24318104830208_1_alg».proof.Proof.Spec

set_option maxRecDepth 16384

noncomputable section

namespace Cert.ReferenceIdeal.Val

open Idealize.ShloMosaic Idealize.ShloMosaic.ValueIdx Cert.ReferenceIdeal Cert.ReferenceIdeal.Facts₀ Cert.ReferenceIdeal.Facts

variable {F : FTy → Type} [FloatOps F]

/-- The edges' source indices as a column of start indices, a negative index moved up by 50000. -/
def wrapCol (s : IVec S500000 32) : IVec S500000x1 32 :=
  broadcastInDim S500000x1 ![0] bcast_S500000_S500000x1_0
    (select (cmpi .slt s (broadcastInDim S500000 ![] bcast_S_S500000 (constantI S_ 32 0#32)))
      (addi s (broadcastInDim S500000 ![] bcast_S_S500000 (constantI S_ 32 50000#32))) s)

/-- The rows of `h` at the wrapped source indices. -/
def gatherRows (h : FVec F S50000x128 .f32) (s : IVec S500000 32) : FVec F S500000x128 .f32 :=
  Host.gather gather_S50000x128_S500000x1_S500000x128_1_0_n_n_0_1_1128 h (wrapCol s)

/-- Rows `g` scaled by the edge weights and added into the destination rows `d`, from zeros. -/
def scatterRows (g : FVec F S500000x128 .f32) (d : IVec S500000 32) (w : FVec F S500000 .f32) : FVec F S50000x128 .f32 :=
  Host.scatterAdd scatter_S50000x128_S500000x1_S500000x128_1_0_0_1
    (broadcastInDim S50000x128 ![] bcast_S_S50000x128 (constant S_ .f32 0x00000000#32))
    (broadcastInDim S500000x1 ![0] bcast_S500000_S500000x1_0 d)
    (mulf (broadcastInDim S500000x128 ![0, 1] bcast_S500000x1_S500000x128_0_1
      (broadcastInDim S500000x1 ![0] bcast_S500000_S500000x1_0 w)) g)

/-- The edge aggregation. -/
def agg (s d : IVec S500000 32) (w : FVec F S500000 .f32) (h : FVec F S50000x128 .f32) : FVec F S50000x128 .f32 :=
  scatterRows (gatherRows h s) d w

end Cert.ReferenceIdeal.Val

end
-- ==== Proof.RValue.lean ====
/-
  What the reference computes, read as the mathematics of Spec.lean: three layers in a row, each the dense map
  X·lnW_l + lnb_l plus the two edge aggregations of X·c1W_l and X·c2W_l with their bias rows, grouped by branch.
  A slice [l : l+1] of a weight stack followed by the reshape that drops the unit axis is weight l of the stack; a
  host dot_general contracting the 128 channels is the plain sum at the extended reals; a bias row broadcast to
  [1, 128] and then down the nodes is the row at every node.
-/
import proofs.«430380_j24318104830208_1_alg».proof.Proof.Gen.ReferenceIdeal.Run
import proofs.«430380_j24318104830208_1_alg».proof.Proof.RDefs
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Val

open Idealize.ShloMosaic Idealize.ShloMosaic.TcCoe Idealize.ShloMosaic.ValueIdx Idealize.ShloMosaic.StableHlo Idealize.SL.Sem
open Cert.ReferenceIdeal Cert.ReferenceIdeal.Gen Cert.ReferenceIdeal.Facts₀ Cert.ReferenceIdeal.Facts
open scoped BigOperators

/-! ## The product's operand indices, axis by axis

At output position (r, q) and contraction position k the left operand is read at (r, k) and the right at (k, q). -/

theorem lhs_dot_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl

theorem lhs_dot_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q

theorem rhs_dot_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q

theorem rhs_dot_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host product at node r and channel q: the sum over the 128 contracted channels. -/
theorem dot_apply (X : FVec Ideal S50000x128 .f32) (W : FVec Ideal S128x128 .f32) (r : Fin 50000) (q : Fin 128) :
    Host.dotGeneral (F := Ideal) dot_S50000x128_S128x128_S50000x128_1_0_0_1_n_n none X W (ix2 r q) = ∑ k : Fin 128, X (ix2 r k) * W (ix2 k q) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r q) ((contrEquiv1 dot_S50000x128_S128x128_S50000x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S50000x128_S128x128_S50000x128_1_0_0_1_n_n.rhsIdx (ix2 r q) ((contrEquiv1 dot_S50000x128_S128x128_S50000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## A slice of a stack with its unit axis dropped; a bias row laid down the nodes -/

/-- Weight l of a stack: the slice [l : l+1] with its unit axis dropped, at (k, q), is the stack at (l, k, q). -/
theorem weight_apply (l : Fin 3) (st3 : Fin 3 → Nat) (hst3 : st3 = ![l.val, 0, 0]) (h3 : S3x128x128.Slices st3 S1x128x128)
    (W : FVec Ideal S3x128x128 .f32) (k q : Fin 128) :
    shapeCast S128x128 (extractStridedSlice S1x128x128 st3 W h3) Gen.shapeCasts_S1x128x128_S128x128 (ix2 k q) = W (ix3 l k q) := by
  subst hst3
  rw [shapeCast_1ab_ab_apply]
  exact extractStridedSlice_apply _ _ _ _ _ (fun ax => by
    match ax with
    | ⟨0, _⟩ => exact (Nat.add_zero _).symm
    | ⟨1, _⟩ => exact (Nat.zero_add _).symm
    | ⟨2, _⟩ => exact (Nat.zero_add _).symm)

/-- A [1, 128] row laid down the 50000 nodes reads, at (r, q), the row at (0, q). -/
theorem row_down_apply (v : FVec Ideal S1x128 .f32) (r : Fin 50000) (q : Fin 128) :
    broadcastInDim S50000x128 ![0, 1] Gen.bcast_S1x128_S50000x128_0_1 v (ix2 r q) = v (ix2 (0 : Fin 1) q) :=
  broadcastInDim_apply _ _ _ _ _ (fun a => by
    match a with
    | ⟨0, _⟩ => rfl
    | ⟨1, _⟩ => rfl)

/-- A vector of 128 channels as a [1, 128] row reads, at (u, q), the vector at q. -/
theorem row_lift_apply (v : FVec Ideal S128 .f32) (u : Fin 1) (q : Fin 128) :
    broadcastInDim S1x128 ![1] Gen.bcast_S128_S1x128_1 v (ix2 u q) = v (ix1 q) :=
  broadcastInDim_apply _ _ _ _ _ (fun a => by
    match a with
    | ⟨0, _⟩ => rfl)

/-- The host product against weight l of a stack is the dense map of layer l. -/
theorem dense_eq (l : Fin 3) (st3 : Fin 3 → Nat) (hst3 : st3 = ![l.val, 0, 0]) (h3 : S3x128x128.Slices st3 S1x128x128)
    (X : FVec Ideal S50000x128 .f32) (W : FVec Ideal S3x128x128 .f32) :
    Host.dotGeneral (F := Ideal) dot_S50000x128_S128x128_S50000x128_1_0_0_1_n_n none X
        (shapeCast S128x128 (extractStridedSlice S1x128x128 st3 W h3) Gen.shapeCasts_S1x128x128_S128x128)
      = Cert.Spec.dense l X W := by
  funext i
  obtain ⟨r, q, rfl⟩ : ∃ (r : Fin 50000) (q : Fin 128), i = ix2 r q := ⟨i 0, i 1, eq_ix2 i⟩
  rw [dot_apply]
  unfold Cert.Spec.dense
  refine Finset.sum_congr rfl fun k _ => ?_
  rw [weight_apply l st3 hst3 h3]

/-- Row l of a bias stack, cut out, lifted to [1, 128] and laid down the nodes, is the bias row of layer l. -/
theorem bias_eq (l : Fin 3) (st2 : Fin 2 → Nat) (hst2 : st2 = ![l.val, 0]) (h2 : S3x128.Slices st2 S1x128)
    (b : FVec Ideal S3x128 .f32) :
    broadcastInDim S50000x128 ![0, 1] Gen.bcast_S1x128_S50000x128_0_1 (broadcastInDim S1x128 ![1] Gen.bcast_S128_S1x128_1
        (shapeCast S128 (extractStridedSlice S1x128 st2 b h2) Gen.shapeCasts_S1x128_S128))
      = Cert.Spec.biasRow l b := by
  funext i
  obtain ⟨r, q, rfl⟩ : ∃ (r : Fin 50000) (q : Fin 128), i = ix2 r q := ⟨i 0, i 1, eq_ix2 i⟩
  rw [row_down_apply, row_lift_apply, shapeCast_1a_a_apply]
  subst hst2
  unfold Cert.Spec.biasRow
  exact extractStridedSlice_apply _ _ _ _ _ (fun ax => by
    match ax with
    | ⟨0, _⟩ => exact (Nat.add_zero _).symm
    | ⟨1, _⟩ => exact (Nat.zero_add _).symm)

/-! ## One layer -/

/-- One layer of the reference, whatever the two aggregations: the layer of the specification grouped by branch. -/
theorem layer_eq (l : Fin 3) (st3 : Fin 3 → Nat) (hst3 : st3 = ![l.val, 0, 0]) (h3 : S3x128x128.Slices st3 S1x128x128)
    (st2 : Fin 2 → Nat) (hst2 : st2 = ![l.val, 0]) (h2 : S3x128.Slices st2 S1x128)
    (A₁ A₂ : FVec Ideal S50000x128 .f32 → FVec Ideal S50000x128 .f32)
    (lnW : FVec Ideal S3x128x128 .f32) (lnb : FVec Ideal S3x128 .f32)
    (c1W : FVec Ideal S3x128x128 .f32) (c1b : FVec Ideal S3x128 .f32)
    (c2W : FVec Ideal S3x128x128 .f32) (c2b : FVec Ideal S3x128 .f32)
    (X : FVec Ideal S50000x128 .f32) :
    addf (addf (addf
          (Host.dotGeneral (F := Ideal) dot_S50000x128_S128x128_S50000x128_1_0_0_1_n_n none X
            (shapeCast S128x128 (extractStridedSlice S1x128x128 st3 lnW h3) Gen.shapeCasts_S1x128x128_S128x128))
          (broadcastInDim S50000x128 ![0, 1] Gen.bcast_S1x128_S50000x128_0_1 (broadcastInDim S1x128 ![1] Gen.bcast_S128_S1x128_1
            (shapeCast S128 (extractStridedSlice S1x128 st2 lnb h2) Gen.shapeCasts_S1x128_S128))))
        (addf
          (A₁ (Host.dotGeneral (F := Ideal) dot_S50000x128_S128x128_S50000x128_1_0_0_1_n_n none X
            (shapeCast S128x128 (extractStridedSlice S1x128x128 st3 c1W h3) Gen.shapeCasts_S1x128x128_S128x128)))
          (broadcastInDim S50000x128 ![0, 1] Gen.bcast_S1x128_S50000x128_0_1 (broadcastInDim S1x128 ![1] Gen.bcast_S128_S1x128_1
            (shapeCast S128 (extractStridedSlice S1x128 st2 c1b h2) Gen.shapeCasts_S1x128_S128)))))
      (addf
        (A₂ (Host.dotGeneral (F := Ideal) dot_S50000x128_S128x128_S50000x128_1_0_0_1_n_n none X
          (shapeCast S128x128 (extractStridedSlice S1x128x128 st3 c2W h3) Gen.shapeCasts_S1x128x128_S128x128)))
        (broadcastInDim S50000x128 ![0, 1] Gen.bcast_S1x128_S50000x128_0_1 (broadcastInDim S1x128 ![1] Gen.bcast_S128_S1x128_1
          (shapeCast S128 (extractStridedSlice S1x128 st2 c2b h2) Gen.shapeCasts_S1x128_S128))))
      = Cert.Spec.layerBranch l A₁ A₂ lnW lnb c1W c1b c2W c2b X := by
  rw [dense_eq l st3 hst3 h3 X lnW, dense_eq l st3 hst3 h3 X c1W, dense_eq l st3 hst3 h3 X c2W,
    bias_eq l st2 hst2 h2 lnb, bias_eq l st2 hst2 h2 c1b, bias_eq l st2 hst2 h2 c2b]
  funext i
  unfold Cert.Spec.layerBranch
  simp only [addf_apply]

/-! ## Three layers in a row -/

/-- Three terms, each a layer of the one before, make the network. -/
theorem net_of_layers (L : Fin 3 → FVec Ideal S50000x128 .f32 → FVec Ideal S50000x128 .f32)
    (X T₀ T₁ T₂ : FVec Ideal S50000x128 .f32) (e₀ : T₀ = L 0 X) (e₁ : T₁ = L 1 T₀) (e₂ : T₂ = L 2 T₁) :
    T₂ = Cert.Spec.net L X := by
  subst e₀ e₁ e₂
  rfl

/-- The reference's result buffer after its run is the three-layer network of the launch contents. -/
theorem val4_v163 (V0 : Valuation τ sig (Elt Ideal)) :
    Cert.ReferenceIdeal.Value.val4 V0 (Proc.devRef .tc main_v163)
      = Cert.Spec.net (fun l => Cert.Spec.layerBranch l
          (agg (F := Ideal) (Cert.ReferenceIdeal.Value.res_main_v1 V0) (Cert.ReferenceIdeal.Value.res_main_v3 V0) (V0 (Proc.devRef .tc main_arg1)))
          (agg (F := Ideal) (Cert.ReferenceIdeal.Value.res_main_v5 V0) (Cert.ReferenceIdeal.Value.res_main_v7 V0) (V0 (Proc.devRef .tc main_arg2)))
          (V0 (Proc.devRef .tc main_arg3)) (V0 (Proc.devRef .tc main_arg4)) (V0 (Proc.devRef .tc main_arg5))
          (V0 (Proc.devRef .tc main_arg6)) (V0 (Proc.devRef .tc main_arg7)) (V0 (Proc.devRef .tc main_arg8)))
          (V0 (Proc.devRef .tc main_arg0)) := by
  refine (Cert.ReferenceIdeal.Value.val4_main_v163 V0).trans ?_
  refine net_of_layers _ _ (Cert.ReferenceIdeal.Value.res_main_v59 V0) (Cert.ReferenceIdeal.Value.res_main_v111 V0) _ ?_ ?_ ?_
  · unfold Cert.ReferenceIdeal.Value.res_main_v59
    exact layer_eq 0 ![0, 0, 0] rfl Gen.slices_S3x128x128_S1x128x128_0_0_0 ![0, 0] rfl Gen.slices_S3x128_S1x128_0_0
      (agg (F := Ideal) (Cert.ReferenceIdeal.Value.res_main_v1 V0) (Cert.ReferenceIdeal.Value.res_main_v3 V0) (V0 (Proc.devRef .tc main_arg1)))
      (agg (F := Ideal) (Cert.ReferenceIdeal.Value.res_main_v5 V0) (Cert.ReferenceIdeal.Value.res_main_v7 V0) (V0 (Proc.devRef .tc main_arg2)))
      (V0 (Proc.devRef .tc main_arg3)) (V0 (Proc.devRef .tc main_arg4)) (V0 (Proc.devRef .tc main_arg5))
      (V0 (Proc.devRef .tc main_arg6)) (V0 (Proc.devRef .tc main_arg7)) (V0 (Proc.devRef .tc main_arg8))
      (V0 (Proc.devRef .tc main_arg0))
  · unfold Cert.ReferenceIdeal.Value.res_main_v111
    exact layer_eq 1 ![1, 0, 0] rfl Gen.slices_S3x128x128_S1x128x128_1_0_0 ![1, 0] rfl Gen.slices_S3x128_S1x128_1_0
      (agg (F := Ideal) (Cert.ReferenceIdeal.Value.res_main_v1 V0) (Cert.ReferenceIdeal.Value.res_main_v3 V0) (V0 (Proc.devRef .tc main_arg1)))
      (agg (F := Ideal) (Cert.ReferenceIdeal.Value.res_main_v5 V0) (Cert.ReferenceIdeal.Value.res_main_v7 V0) (V0 (Proc.devRef .tc main_arg2)))
      (V0 (Proc.devRef .tc main_arg3)) (V0 (Proc.devRef .tc main_arg4)) (V0 (Proc.devRef .tc main_arg5))
      (V0 (Proc.devRef .tc main_arg6)) (V0 (Proc.devRef .tc main_arg7)) (V0 (Proc.devRef .tc main_arg8))
      (Cert.ReferenceIdeal.Value.res_main_v59 V0)
  · exact layer_eq 2 ![2, 0, 0] rfl Gen.slices_S3x128x128_S1x128x128_2_0_0 ![2, 0] rfl Gen.slices_S3x128_S1x128_2_0
      (agg (F := Ideal) (Cert.ReferenceIdeal.Value.res_main_v1 V0) (Cert.ReferenceIdeal.Value.res_main_v3 V0) (V0 (Proc.devRef .tc main_arg1)))
      (agg (F := Ideal) (Cert.ReferenceIdeal.Value.res_main_v5 V0) (Cert.ReferenceIdeal.Value.res_main_v7 V0) (V0 (Proc.devRef .tc main_arg2)))
      (V0 (Proc.devRef .tc main_arg3)) (V0 (Proc.devRef .tc main_arg4)) (V0 (Proc.devRef .tc main_arg5))
      (V0 (Proc.devRef .tc main_arg6)) (V0 (Proc.devRef .tc main_arg7)) (V0 (Proc.devRef .tc main_arg8))
      (Cert.ReferenceIdeal.Value.res_main_v111 V0)

end Cert.ReferenceIdeal.Val

end
-- ==== Proof.PreDecode.lean ====
/-
  What the precondition says of the edge lists: every source index (row 0 of each list) lies in −50000 … 49999,
  the indices that address one of the 50000 node rows counted from the front or from the back.  The precondition is
  a conjunction of "all" reductions evaluated to the true bit; the last two conjuncts are the two range tests.
-/
import proofs.«430380_j24318104830208_1_alg».proof.Defs
import proofs.«430380_j24318104830208_1_alg».proof.Proof.Gen.Pre_finite_inputs
import proofs.«430380_j24318104830208_1_alg».proof.Proof.KCuts
import proofs.«430380_j24318104830208_1_alg».proof.Proof.Spec
import Idealize.ShloMosaic.Lib.ReduceAll
import Idealize.ShloMosaic.Lib.Affine
import Idealize.ShloMosaic.Lib.ValueIdx
import Idealize.ShloMosaic.Lib.StableHlo.Predicate

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen

/-- A rank-0 array has one index. -/
private instance subsingleton_scalarIdx : Subsingleton Cert.Pre_finite_inputs.S_.Idx :=
  ⟨fun a b => funext fun d => d.elim0⟩

/-- The constant −50000 as the 32-bit word the program prints. -/
private theorem neg_word : (4294917296#32 : BitVec 32) = BitVec.ofInt 32 (-50000) := by decide

/-- One range test read back: if "all" of (row ≥ −50000 and row < 50000) came out true, each entry is in range. -/
private theorem rowInRange_of_all [hP : Cert.Pre_finite_inputs.Facts] (row : IVec Cert.Pre_finite_inputs.S500000 32)
    (h : Host.reduce IntOp.andi
        (andi
          (cmpi .sge row (broadcastInDim Cert.Pre_finite_inputs.S500000 ![] hP.bcast_S_S500000
            (constantI Cert.Pre_finite_inputs.S_ 32 4294917296#32)))
          (cmpi .slt row (broadcastInDim Cert.Pre_finite_inputs.S500000 ![] hP.bcast_S_S500000
            (constantI Cert.Pre_finite_inputs.S_ 32 50000#32))))
        (constantI Cert.Pre_finite_inputs.S_ 1 1#1) hP.reducesTo_S500000_S_d0 hP.h_S_ ix0 = 1#1)
    (e : Cert.Pre_finite_inputs.S500000.Idx) : Cert.Spec.RowInRange (row e) := by
  have he := Host.reduce_andi_all _ _ _ _ _ h e
  obtain ⟨hge, hlt⟩ := IntOp.andi_eq_one.1 he
  refine ⟨?_, ?_⟩
  · rw [← neg_word]
    exact (StableHlo.Predicate.ofBool_eq_one_iff _).1 hge
  · exact (StableHlo.Predicate.ofBool_eq_one_iff _).1 hlt

/-- The last block of the precondition: from its value being true, the two "all" reductions it joins last are true. -/
private theorem part3_split [hP : Cert.Pre_finite_inputs.Facts] (a10 : IVec Cert.Pre_finite_inputs.S2x500000 32)
    (v43 : IVec Cert.Pre_finite_inputs.S_ 1) (v47 v51 : IVec Cert.Pre_finite_inputs.S500000 1)
    (h : Cert.Pre_finite_inputs.fn_part3 (F := Ideal) a10 v43 v47 v51 ix0 = 1#1) :
    Host.reduce IntOp.andi (andi v47 v51) (constantI Cert.Pre_finite_inputs.S_ 1 1#1)
        hP.reducesTo_S500000_S_d0 hP.h_S_ ix0 = 1#1
    ∧ Host.reduce IntOp.andi
        (andi
          (cmpi .sge (shapeCast Cert.Pre_finite_inputs.S500000
              (extractStridedSlice Cert.Pre_finite_inputs.S1x500000 ![0, 0] a10 hP.slices_S2x500000_S1x500000_0_0)
              hP.shapeCasts_S1x500000_S500000)
            (broadcastInDim Cert.Pre_finite_inputs.S500000 ![] hP.bcast_S_S500000
              (constantI Cert.Pre_finite_inputs.S_ 32 4294917296#32)))
          (cmpi .slt (shapeCast Cert.Pre_finite_inputs.S500000
              (extractStridedSlice Cert.Pre_finite_inputs.S1x500000 ![0, 0] a10 hP.slices_S2x500000_S1x500000_0_0)
              hP.shapeCasts_S1x500000_S500000)
            (broadcastInDim Cert.Pre_finite_inputs.S500000 ![] hP.bcast_S_S500000
              (constantI Cert.Pre_finite_inputs.S_ 32 50000#32))))
        (constantI Cert.Pre_finite_inputs.S_ 1 1#1) hP.reducesTo_S500000_S_d0 hP.h_S_ ix0 = 1#1 := by
  obtain ⟨h1, h2⟩ := IntOp.andi_eq_one.1 h
  obtain ⟨-, h3⟩ := IntOp.andi_eq_one.1 h1
  exact ⟨h3, h2⟩

/-- Under the precondition every source index of both edge lists addresses a node row. -/
theorem src_inRange [hP : Cert.Pre_finite_inputs.Facts] (m : (ℓ : Loc nD τ sig) → Buf (Elt Ideal) ℓ)
    (hpre : Cert.Pre_KernelIdeal m) (c : Dev nD) :
    (∀ e : S500000.Idx, Cert.Spec.RowInRange
        (edgeRow ![0, 0] slices_S2x500000_S1x500000_0_0 (m ((c : Thread nD τ).loc main_arg9)) e))
    ∧ (∀ e : S500000.Idx, Cert.Spec.RowInRange
        (edgeRow ![0, 0] slices_S2x500000_S1x500000_0_0 (m ((c : Thread nD τ).loc main_arg10)) e)) := by
  have h := congrFun (hpre c) ix0
  change Cert.Pre_finite_inputs.fn_part3 (F := Ideal) _ _ _ _ ix0 = 1#1 at h
  obtain ⟨h9, h10⟩ := part3_split _ _ _ _ h
  exact ⟨fun e => rowInRange_of_all _ h9 e, fun e => rowInRange_of_all _ h10 e⟩

end Cert.KernelIdeal.Val

end
-- ==== Proof.lean ====
/-
  The certificate of this kernel against its reference: three graph-convolution layers over 50000 nodes and two
  edge lists of 500000 edges.

  Both programs compute, per layer, X·lnW_l + lnb_l plus the two edge aggregations of X·c1W_l and X·c2W_l with
  their bias rows.  The kernel's program does the dense maps and the final sum in pallas_calls and the gather,
  scaling and scatter-add on the host, through jnp.take, whose fill value appears only where a source index
  addresses no node row: under the precondition (finite float inputs; every source index in −50000 … 49999) it
  never does.  What is left between the two programs is the grouping of a layer's five summands, and addition on
  the extended reals is associative.  The frames of the two kernel programs are the generated ones; the
  reference's frame is its run with the result dropped; no rewrite was made by the idealization, so there is
  nothing to preserve.
-/
import proofs.«430380_j24318104830208_1_alg».proof.Defs
import proofs.«430380_j24318104830208_1_alg».proof.Proof.Gen.Kernel
import proofs.«430380_j24318104830208_1_alg».proof.Proof.Gen.Kernel.Skeleton
import proofs.«430380_j24318104830208_1_alg».proof.Proof.Gen.Kernel.Launch
import proofs.«430380_j24318104830208_1_alg».proof.Proof.Gen.Kernel.Points
import proofs.«430380_j24318104830208_1_alg».proof.Proof.Gen.Kernel.Frame
import proofs.«430380_j24318104830208_1_alg».proof.Proof.Gen.KernelIdeal
import proofs.«430380_j24318104830208_1_alg».proof.Proof.Gen.KernelIdeal.Skeleton
import proofs.«430380_j24318104830208_1_alg».proof.Proof.Gen.KernelIdeal.Launch
import proofs.«430380_j24318104830208_1_alg».proof.Proof.Gen.KernelIdeal.Points
import proofs.«430380_j24318104830208_1_alg».proof.Proof.Gen.KernelIdeal.Frame
import proofs.«430380_j24318104830208_1_alg».proof.Proof.Gen.ReferenceIdeal
import proofs.«430380_j24318104830208_1_alg».proof.Proof.Gen.ReferenceIdeal.Run
import proofs.«430380_j24318104830208_1_alg».proof.Proof.Gen.Pre_finite_inputs
import proofs.«430380_j24318104830208_1_alg».proof.Proof.KRun
import proofs.«430380_j24318104830208_1_alg».proof.Proof.KValue
import proofs.«430380_j24318104830208_1_alg».proof.Proof.RValue
import proofs.«430380_j24318104830208_1_alg».proof.Proof.PreDecode
import Idealize.ShloMosaic.Adequacy
import Idealize.ShloMosaic.Init

set_option maxRecDepth 16384

noncomputable section

namespace Cert.Proof

open Idealize.ShloMosaic Idealize.ShloMosaic.TcCoe Idealize.ShloMosaic.StableHlo Idealize.SL.Sem

/-- The edge aggregation is the same function in the two programs: the same gather, scaling and scatter-add. -/
theorem agg_eq (s d : IVec Cert.KernelIdeal.S500000 32) (w : FVec Ideal Cert.KernelIdeal.S500000 .f32) :
    Cert.KernelIdeal.Val.agg (F := Ideal) s d w = Cert.ReferenceIdeal.Val.agg (F := Ideal) s d w := rfl

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the three-layer network of the launch arrays in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W24 m ρ c (Proc.devRef .tc Cert.KernelIdeal.main_v103),
    Cert.KernelIdeal.GenP.run_named m ρ, ?_⟩
  refine (θ_run Cert.ReferenceIdeal.defs _ _).mono (fun r h c => ⟨(h c).1.trans ?_, (h c).2⟩)
    (Cert.ReferenceIdeal.Value.run (F := Ideal) m' ρ')
  obtain ⟨hs1, hs2⟩ := Cert.KernelIdeal.Val.src_inRange m hpre c
  obtain ⟨a0, a1, a2, a3, a4, a5, a6, a7, a8, a9, a10, -⟩ := hagree c
  refine (Cert.ReferenceIdeal.Value.val4_main_v163 (launchContents m' c)).symm.trans ?_
  refine (Cert.ReferenceIdeal.Val.val4_v163 (launchContents m' c)).trans ?_
  refine Eq.trans ?_ (Cert.KernelIdeal.Val.result_eq m ρ c hs1 hs2).symm
  have hgroup : ∀ (l : Fin 3) (A₁ A₂ : (Cert.Spec.SN.Idx → EReal) → Cert.Spec.SN.Idx → EReal)
      (lnW : Cert.Spec.SW.Idx → EReal) (lnb : Cert.Spec.SB.Idx → EReal) (c1W : Cert.Spec.SW.Idx → EReal)
      (c1b : Cert.Spec.SB.Idx → EReal) (c2W : Cert.Spec.SW.Idx → EReal) (c2b : Cert.Spec.SB.Idx → EReal),
      Cert.Spec.layerLeft l A₁ A₂ lnW lnb c1W c1b c2W c2b = Cert.Spec.layerBranch l A₁ A₂ lnW lnb c1W c1b c2W c2b :=
    fun l A₁ A₂ lnW lnb c1W c1b c2W c2b => funext fun X => Cert.Spec.layerLeft_eq_layerBranch l A₁ A₂ lnW lnb c1W c1b c2W c2b X
  simp only [hgroup]
  have r1 : Cert.ReferenceIdeal.Value.res_main_v1 (launchContents m' c)
      = Cert.KernelIdeal.Val.edgeRow ![0, 0] Cert.KernelIdeal.Gen.slices_S2x500000_S1x500000_0_0 (m ((c.tc : Thread Cert.KernelIdeal.nD Cert.KernelIdeal.τ).loc Cert.KernelIdeal.main_arg9)) := by
    rw [← a9]; rfl
  have r3 : Cert.ReferenceIdeal.Value.res_main_v3 (launchContents m' c)
      = Cert.KernelIdeal.Val.edgeRow ![1, 0] Cert.KernelIdeal.Gen.slices_S2x500000_S1x500000_1_0 (m ((c.tc : Thread Cert.KernelIdeal.nD Cert.KernelIdeal.τ).loc Cert.KernelIdeal.main_arg9)) := by
    rw [← a9]; rfl
  have r5 : Cert.ReferenceIdeal.Value.res_main_v5 (launchContents m' c)
      = Cert.KernelIdeal.Val.edgeRow ![0, 0] Cert.KernelIdeal.Gen.slices_S2x500000_S1x500000_0_0 (m ((c.tc : Thread Cert.KernelIdeal.nD Cert.KernelIdeal.τ).loc Cert.KernelIdeal.main_arg10)) := by
    rw [← a10]; rfl
  have r7 : Cert.ReferenceIdeal.Value.res_main_v7 (launchContents m' c)
      = Cert.KernelIdeal.Val.edgeRow ![1, 0] Cert.KernelIdeal.Gen.slices_S2x500000_S1x500000_1_0 (m ((c.tc : Thread Cert.KernelIdeal.nD Cert.KernelIdeal.τ).loc Cert.KernelIdeal.main_arg10)) := by
    rw [← a10]; rfl
  have e0 : launchContents m' c (Proc.devRef .tc Cert.ReferenceIdeal.main_arg0) = (m ((c.tc : Thread Cert.KernelIdeal.nD Cert.KernelIdeal.τ).loc Cert.KernelIdeal.main_arg0)) := a0
  have e1 : launchContents m' c (Proc.devRef .tc Cert.ReferenceIdeal.main_arg1) = (m ((c.tc : Thread Cert.KernelIdeal.nD Cert.KernelIdeal.τ).loc Cert.KernelIdeal.main_arg1)) := a1
  have e2 : launchContents m' c (Proc.devRef .tc Cert.ReferenceIdeal.main_arg2) = (m ((c.tc : Thread Cert.KernelIdeal.nD Cert.KernelIdeal.τ).loc Cert.KernelIdeal.main_arg2)) := a2
  have e3 : launchContents m' c (Proc.devRef .tc Cert.ReferenceIdeal.main_arg3) = (m ((c.tc : Thread Cert.KernelIdeal.nD Cert.KernelIdeal.τ).loc Cert.KernelIdeal.main_arg3)) := a3
  have e4 : launchContents m' c (Proc.devRef .tc Cert.ReferenceIdeal.main_arg4) = (m ((c.tc : Thread Cert.KernelIdeal.nD Cert.KernelIdeal.τ).loc Cert.KernelIdeal.main_arg4)) := a4
  have e5 : launchContents m' c (Proc.devRef .tc Cert.ReferenceIdeal.main_arg5) = (m ((c.tc : Thread Cert.KernelIdeal.nD Cert.KernelIdeal.τ).loc Cert.KernelIdeal.main_arg5)) := a5
  have e6 : launchContents m' c (Proc.devRef .tc Cert.ReferenceIdeal.main_arg6) = (m ((c.tc : Thread Cert.KernelIdeal.nD Cert.KernelIdeal.τ).loc Cert.KernelIdeal.main_arg6)) := a6
  have e7 : launchContents m' c (Proc.devRef .tc Cert.ReferenceIdeal.main_arg7) = (m ((c.tc : Thread Cert.KernelIdeal.nD Cert.KernelIdeal.τ).loc Cert.KernelIdeal.main_arg7)) := a7
  have e8 : launchContents m' c (Proc.devRef .tc Cert.ReferenceIdeal.main_arg8) = (m ((c.tc : Thread Cert.KernelIdeal.nD Cert.KernelIdeal.τ).loc Cert.KernelIdeal.main_arg8)) := a8
  rw [r1, r3, r5, r7, e0, e1, e2, e3, e4, e5, e6, e7, e8]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
